-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S8x2048x2048 : Shape := ⟨3, ![8, 2048, 2048]⟩
abbrev S128x128 : Shape := ⟨2, ![128, 128]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S8x2048x128 .f32) (main_arg1 : FVec F S8x2048x2048 .f32) (main_arg2 : FVec F S128x128 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S8x2048x128 : Shape := ⟨3, ![8, 2048, 128]⟩
abbrev S8x2048x2048 : Shape := ⟨3, ![8, 2048, 2048]⟩
abbrev S128x128 : Shape := ⟨2, ![128, 128]⟩
abbrev S8x2048 : Shape := ⟨2, ![8, 2048]⟩
abbrev S8x128x2048 : Shape := ⟨3, ![8, 128, 2048]⟩
abbrev S8x128 : Shape := ⟨2, ![8, 128]⟩
abbrev S128x2048 : Shape := ⟨2, ![128, 2048]⟩
abbrev S1x128x2048 : Shape := ⟨3, ![1, 128, 2048]⟩
abbrev S8x256x1024 : Shape := ⟨3, ![8, 256, 1024]⟩
abbrev S8x1024x128 : Shape := ⟨3, ![8, 1024, 128]⟩
abbrev S8x256x128 : Shape := ⟨3, ![8, 256, 128]⟩
abbrev S8x1024 : Shape := ⟨2, ![8, 1024]⟩
abbrev S8x256 : Shape := ⟨2, ![8, 256]⟩
abbrev S8x1024x1 : Shape := ⟨3, ![8, 1024, 1]⟩
abbrev S8x256x1 : Shape := ⟨3, ![8, 256, 1]⟩
abbrev S2048x128 : Shape := ⟨2, ![2048, 128]⟩

abbrev nBuf : Space → Nat
  | .hbm => 6
  | .vmem => 22
  | .smem => 0
  | _ => 0

abbrev bufTy : (tb : Table) → Fin (tcTables nBuf tb) → BufTy
  | .hbm, ⟨0, _⟩ => ⟨S8x2048x128, .f32⟩
  | .hbm, ⟨1, _⟩ => ⟨S8x2048x2048, .f32⟩
  | .hbm, ⟨2, _⟩ => ⟨S128x128, .f32⟩
  | .hbm, ⟨3, _⟩ => ⟨S8x2048, .f32⟩
  | .hbm, ⟨4, _⟩ => ⟨S8x2048, .f32⟩
  | .hbm, ⟨5, _⟩ => ⟨S8x2048x128, .f32⟩
  | .local _ .vmem, ⟨0, _⟩ => ⟨S8x128x2048, .f32⟩
  | .local _ .vmem, ⟨1, _⟩ => ⟨S8x128x2048, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x256x1024, .f32⟩
  | .local _ .vmem, ⟨7, _⟩ => ⟨S8x256x1024, .f32⟩
  | .local _ .vmem, ⟨8, _⟩ => ⟨S8x1024x128, .f32⟩
  | .local _ .vmem, ⟨9, _⟩ => ⟨S8x1024x128, .f32⟩
  | .local _ .vmem, ⟨10, _⟩ => ⟨S8x256x128, .f32⟩
  | .local _ .vmem, ⟨11, _⟩ => ⟨S8x256x128, .f32⟩
  | .local _ .vmem, ⟨12, _⟩ => ⟨S8x1024, .f32⟩
  | .local _ .vmem, ⟨13, _⟩ => ⟨S8x1024, .f32⟩
  | .local _ .vmem, ⟨14, _⟩ => ⟨S8x256, .f32⟩
  | .local _ .vmem, ⟨15, _⟩ => ⟨S8x256, .f32⟩
  | .local _ .vmem, ⟨16, _⟩ => ⟨S8x256, .f32⟩
  | .local _ .vmem, ⟨17, _⟩ => ⟨S8x256, .f32⟩
  | .local _ .vmem, ⟨18, _⟩ => ⟨S128x128, .f32⟩
  | .local _ .vmem, ⟨19, _⟩ => ⟨S8x256x128, .f32⟩
  | .local _ .vmem, ⟨20, _⟩ => ⟨S8x256x128, .f32⟩
  | .local _ .vmem, ⟨21, _⟩ => ⟨S8x256x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 2], ![false, false]⟩

def k1_cond2 (i : grid1.Coords) : BitVec 1 :=
  let arg1 : BitVec 32 := BitVec.ofNat 32 (i 1).val
  let c1_i32 : BitVec 32 := 1#32
  let v18 : BitVec 1 := Scalar.cmpi .eq arg1 c1_i32
  let v19 : BitVec 32 := Scalar.extui v18
  let c0_i32_14 : BitVec 32 := 0#32
  let v20 : BitVec 1 := Scalar.cmpi .ne v19 c0_i32_14
  v20

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S8x256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S8x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S8x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S8x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S8x256x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  inb_S8x128x2048_S8x128x2048_0_0_0 : ∀ a, (![0, 0, 0] : Fin 3 → Nat) a + S8x128x2048.size a ≤ S8x128x2048.size a
  h_S8x128x2048 : 0 < S8x128x2048.numel
  reduces_S8x128x2048_S8x128 : S8x128x2048.Reduces [2] S8x128
  iota_S128x2048_d0_w32 : S128x2048.Iotas .tc 32 [0]
  iota_S128x2048_d1_w32 : S128x2048.Iotas .tc 32 [1]
  natLt_1_32 : 1 < 32
  shapeCasts_S128x2048_S1x128x2048 : S128x2048.ShapeCasts S1x128x2048
  broadcasts_S1x128x2048_S8x128x2048 : S1x128x2048.Broadcasts S8x128x2048
  inb_S8x128_S8x128_0_0 : ∀ a, (![0, 0] : Fin 2 → Nat) a + S8x128.size a ≤ S8x128.size a
  h_S8x128 : 0 < S8x128.numel
  inb_S8x256x128_S8x256x128_0_0_0 : ∀ a, (![0, 0, 0] : Fin 3 → Nat) a + S8x256x128.size a ≤ S8x256x128.size a
  h_S8x256x128 : 0 < S8x256x128.numel
  shapeCasts_S8x256x128_S8x256x128 : S8x256x128.ShapeCasts S8x256x128
  inb_S8x256x1024_S8x256x1024_0_0_0 : ∀ a, (![0, 0, 0] : Fin 3 → Nat) a + S8x256x1024.size a ≤ S8x256x1024.size a
  h_S8x256x1024 : 0 < S8x256x1024.numel
  bitsLt_bf16_f32 : FTy.bits .bf16 < FTy.bits .f32
  inb_S8x1024x128_S8x1024x128_0_0_0 : ∀ a, (![0, 0, 0] : Fin 3 → Nat) a + S8x1024x128.size a ≤ S8x1024x128.size a
  h_S8x1024x128 : 0 < S8x1024x128.numel
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  shapeCasts_S8x1024_S8x1024x1 : S8x1024.ShapeCasts S8x1024x1
  broadcasts_S8x1024x1_S8x1024x128 : S8x1024x1.Broadcasts S8x1024x128
  inb_S8x256_S8x256_0_0 : ∀ a, (![0, 0] : Fin 2 → Nat) a + S8x256.size a ≤ S8x256.size a
  h_S8x256 : 0 < S8x256.numel
  shapeCasts_S8x256_S8x256 : S8x256.ShapeCasts S8x256
  shapeCasts_S8x256_S8x256x1 : S8x256.ShapeCasts S8x256x1
  broadcasts_S8x256x1_S8x256x128 : S8x256x1.Broadcasts S8x256x128
  shapeCasts_S8x256x128_S2048x128 : S8x256x128.ShapeCasts S2048x128
  inb_S128x128_S128x128_0_0 : ∀ a, (![0, 0] : Fin 2 → Nat) a + S128x128.size a ≤ S128x128.size a
  h_S128x128 : 0 < S128x128.numel
  shapeCasts_S2048x128_S8x256x128 : S2048x128.ShapeCasts S8x256x128
  dot_S8x256x1024_S8x1024x128_S8x256x128_2_1_1_2_0_0_wf : DotDims.WF S8x256x1024 S8x1024x128 S8x256x128 [2] [1] [1] [2] [0] [0]
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x2048.size a ≤ S8x2048x2048.size a
  hwx0_0 : ∀ i : grid0.Coords, EltTy.bits .f32 = 32 ∨ (Rect.block (s := S8x2048x2048) S8x128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x2048.size a
  hwx0_1 : ∀ i : grid0.Coords, EltTy.bits .f32 = 32 ∨ (Rect.block (s := S8x2048) S8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x2048.size a
  hwx0_2 : ∀ i : grid0.Coords, EltTy.bits .f32 = 32 ∨ (Rect.block (s := S8x2048) S8x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x1024.size a ≤ S8x2048x2048.size a
  hwx1_0 : ∀ i : grid1.Coords, EltTy.bits .f32 = 32 ∨ (Rect.block (s := S8x2048x2048) S8x256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x1024x128.size a ≤ S8x2048x128.size a
  hwx1_1 : ∀ i : grid1.Coords, EltTy.bits .f32 = 32 ∨ (Rect.block (s := S8x2048x128) S8x1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256x128.size a ≤ S8x2048x128.size a
  hwx1_2 : ∀ i : grid1.Coords, EltTy.bits .f32 = 32 ∨ (Rect.block (s := S8x2048x128) S8x256x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x1024.size a ≤ S8x2048.size a
  hwx1_3 : ∀ i : grid1.Coords, EltTy.bits .f32 = 32 ∨ (Rect.block (s := S8x2048) S8x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x256.size a ≤ S8x2048.size a
  hwx1_4 : ∀ i : grid1.Coords, EltTy.bits .f32 = 32 ∨ (Rect.block (s := S8x2048) S8x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x256.size a ≤ S8x2048.size a
  hwx1_5 : ∀ i : grid1.Coords, EltTy.bits .f32 = 32 ∨ (Rect.block (s := S8x2048) S8x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8x256x128.size a ≤ S8x2048x128.size a
  hwx1_7 : ∀ i : grid1.Coords, EltTy.bits .f32 = 32 ∨ (Rect.block (s := S8x2048x128) S8x256x128.size (cc1_transform_7 i) (hinb1_7 i)).WholeWords (EltTy.packing .f32)

variable [Facts₀]

def dot_S8x256x1024_S8x1024x128_S8x256x128_2_1_1_2_0_0 : DotDims S8x256x1024 S8x1024x128 S8x256x128 where
  lhsContracting := [2]
  rhsContracting := [1]
  lhsNonContracting := [1]
  rhsNonContracting := [2]
  lhsBatch := [0]
  rhsBatch := [0]
  wf := dot_S8x256x1024_S8x1024x128_S8x256x128_2_1_1_2_0_0_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg1) S8x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S8x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S8x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S8x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S8x256x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_0) S8x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0_0) S8x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v0_1) S8x256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg2) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v1) S8x256x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S8x2048x128 : Shape := ⟨3, ![8, 2048, 128]⟩
abbrev S8x2048x2048 : Shape := ⟨3, ![8, 2048, 2048]⟩
abbrev S128x128 : Shape := ⟨2, ![128, 128]⟩
abbrev S2048x2048 : Shape := ⟨2, ![2048, 2048]⟩
abbrev S_ : Shape := ⟨0, ![]⟩
abbrev S1x2048x2048 : Shape := ⟨3, ![1, 2048, 2048]⟩
abbrev S8x2048 : Shape := ⟨2, ![8, 2048]⟩
abbrev S8x2048x1 : Shape := ⟨3, ![8, 2048, 1]⟩
abbrev S8x1x2048 : Shape := ⟨3, ![8, 1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x2048, .f32⟩
  | .hbm, ⟨2, _⟩ => ⟨S128x128, .f32⟩
  | .hbm, ⟨3, _⟩ => ⟨S2048x2048, .i32⟩
  | .hbm, ⟨4, _⟩ => ⟨S2048x2048, .i32⟩
  | .hbm, ⟨5, _⟩ => ⟨S_, .i32⟩
  | .hbm, ⟨6, _⟩ => ⟨S2048x2048, .i32⟩
  | .hbm, ⟨7, _⟩ => ⟨S2048x2048, .i32⟩
  | .hbm, ⟨8, _⟩ => ⟨S2048x2048, .i1⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S1x2048x2048, .f32⟩
  | .hbm, ⟨14, _⟩ => ⟨S8x2048x2048, .f32⟩
  | .hbm, ⟨15, _⟩ => ⟨S8x2048x2048, .f32⟩
  | .hbm, ⟨16, _⟩ => ⟨S1x2048x2048, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048, .f32⟩
  | .hbm, ⟨21, _⟩ => ⟨S8x2048, .f32⟩
  | .hbm, ⟨22, _⟩ => ⟨S_, .f32⟩
  | .hbm, ⟨23, _⟩ => ⟨S8x2048, .f32⟩
  | .hbm, ⟨24, _⟩ => ⟨S8x2048, .f32⟩
  | .hbm, ⟨25, _⟩ => ⟨S_, .f32⟩
  | .hbm, ⟨26, _⟩ => ⟨S8x2048, .f32⟩
  | .hbm, ⟨27, _⟩ => ⟨S8x2048, .f32⟩
  | .hbm, ⟨28, _⟩ => ⟨S8x2048x1, .f32⟩
  | .hbm, ⟨29, _⟩ => ⟨S8x2048x2048, .f32⟩
  | .hbm, ⟨30, _⟩ => ⟨S8x2048x2048, .f32⟩
  | .hbm, ⟨31, _⟩ => ⟨S8x1x2048, .f32⟩
  | .hbm, ⟨32, _⟩ => ⟨S8x2048x2048, .f32⟩
  | .hbm, ⟨33, _⟩ => ⟨S8x2048x2048, .f32⟩
  | .hbm, ⟨34, _⟩ => ⟨S8x2048x128, .f32⟩
  | .hbm, ⟨35, _⟩ => ⟨S8x2048x128, .f32⟩
  | .hbm, ⟨36, _⟩ => ⟨S_, .f32⟩
  | .hbm, ⟨37, _⟩ => ⟨S8x2048x128, .f32⟩
  | .hbm, ⟨38, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_call0_cst : Ref sig .tc := ⟨.hbm, 36, rfl⟩
abbrev main_call0_v0 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  bcast_S_S8x2048x128 : S_.BroadcastsInDim S8x2048x128 (![] : Fin 0 → Fin S8x2048x128.rank)
  dot_S8x2048x2048_S8x2048x128_S8x2048x128_2_1_1_2_0_0_wf : DotDims.WF S8x2048x2048 S8x2048x128 S8x2048x128 [2] [1] [1] [2] [0] [0]
  dot_S8x2048x128_S128x128_S8x2048x128_2_0_01_1_n_n_wf : DotDims.WF S8x2048x128 S128x128 S8x2048x128 [2] [0] [0, 1] [1] [] []

variable [Facts₀]

def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf
def dot_S8x2048x128_S128x128_S8x2048x128_2_0_01_1_n_n : DotDims S8x2048x128 S128x128 S8x2048x128 where
  lhsContracting := [2]
  rhsContracting := [0]
  lhsNonContracting := [0, 1]
  rhsNonContracting := [1]
  lhsBatch := []
  rhsBatch := []
  wf := dot_S8x2048x128_S128x128_S8x2048x128_2_0_01_1_n_n_wf

class Facts : Prop extends Facts₀ where

variable [Facts]
-- ==== Proof.BitsDat0.lean ====
/-
  Region 0 (the row-sum pass) as the pipeline sees it: at grid point t the input window holds rows
  128 t .. 128 t + 127 of the adjacency, all batches and all columns; the body leaves in the first output window the
  degree scaling of those rows and in the second their diagonal entries, both as pure functions of that block.
-/
import proofs.«106363_j29145648070885_1_alg».proof.Proof.Gen.Kernel.Launch
import proofs.«106363_j29145648070885_1_alg».proof.Proof.Gen.Kernel.Skeleton
import proofs.«106363_j29145648070885_1_alg».proof.Proof.Gen.Kernel.Points
import Idealize.ShloMosaic.Lib.Pipeline.FrameBody
import Idealize.ShloMosaic.Lib.Pipeline.Frame

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

-- the contents of the core's buffers when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: the arrays as found; after the body the adjacency block stays, the degree window holds the
    scaling of the block's rows and the diagonal window their diagonal entries; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay2 (grid0.coords t) (iblk0 V c 0 t)
    | ⟨2, _⟩ => k0_pay1 (grid0.coords t) (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = k0_pay2 (grid0.coords t) (iblk0 V c 0 t) := by dsimp only [dat0]
theorem after0_2 (c : Dev nD) (t : Fin cfg0.N) : (dat0 V c).after 2 t = k0_pay1 (grid0.coords t) (iblk0 V c 0 t) := by dsimp only [dat0]

end Cert.Kernel.Hand

end
-- ==== Proof.BitsDat1.lean ====
/-
  Region 1 (the aggregation pass) as the pipeline sees it. Its grid is 8 x 2: point t = 2 i + j handles node rows
  256 i .. 256 i + 255 and neighbour columns 1024 j .. 1024 j + 1023. A scratch accumulator is zeroed at j = 0,
  receives the block product  adj-block x (x-block scaled by d)  at every point, and at j = 1 is corrected, scaled,
  projected and rectified into the output window. So after an even point the accumulator holds one block product,
  after an odd point the sum of the two, and the output window is written at odd points only.
-/
import proofs.«106363_j29145648070885_1_alg».proof.Proof.Gen.Kernel.Launch
import proofs.«106363_j29145648070885_1_alg».proof.Proof.Gen.Kernel.Skeleton
import proofs.«106363_j29145648070885_1_alg».proof.Proof.Gen.Kernel.Points
import Idealize.ShloMosaic.Lib.Pipeline.FrameBody
import Idealize.ShloMosaic.Lib.Pipeline.Frame

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The point before t (t itself at the first point, where it is never used). -/
def prev1 (t : Fin cfg1.N) : Fin cfg1.N := ⟨t.val - 1, Nat.lt_of_le_of_lt (Nat.sub_le _ _) t.isLt⟩

/-- One block product added to an accumulator: the body's middle stretch at point t. -/
def step1 (c : Dev nD) (t : Fin cfg1.N) (a : Vec F S8x256x128 .f32) : Vec F S8x256x128 .f32 :=
  k1_pay2 (iblk1 V c 0 t) (iblk1 V c 1 t) (iblk1 V c 3 t) a

/-- The scratch accumulator after point t: zeroed at even points before the product is added; at odd points it
    carries the even point's product. -/
def acc1 (c : Dev nD) (t : Fin cfg1.N) : Vec F S8x256x128 .f32 :=
  if t.val % 2 = 0 then step1 V c t (k1_pay1 (F := F)) else step1 V c t (step1 V c (prev1 t) (k1_pay1 (F := F)))

/-- What an odd point stores into the output window. -/
def out1 (c : Dev nD) (t : Fin cfg1.N) : Vec F S8x256x128 .f32 :=
  k1_pay3 (iblk1 V c 4 t) (iblk1 V c 5 t) (iblk1 V c 2 t) (acc1 V c t) (iblk1 V c 6 t)

/-- The scratch accumulator as a memref. -/
abbrev scM1 : Memref sig .tc .vmem S8x256x128 .f32 := Memref.whole cc1_scratch0

/-- The other region's staging buffers, which this region never touches: each whole at some contents. -/
def stgRest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The region invariant before position n: before the first point the scoped rest at anything and the generator
    register; afterwards the accumulator at what the point before left, the other scoped buffers at anything, the
    generator register. -/
def Phi1 (c : Dev nD) : (n : ℕ) → n ≤ cfg1.N → sProp 𝕄
  | 0, _ => Pipeline.ΦA spec1 c
  | n + 1, hn => iprop(owns (c : Thread nD τ) scM1 fullShare (acc1 V c ⟨n, hn⟩) ∗ stgRest1 (F := F) c ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(owns (c : Thread nD τ) scM1 fullShare (acc1 V c ⟨n, hn⟩) ∗ stgRest1 (F := F) c ∗ (∃ r, prngReg c r)) := rfl

theorem Phi1_pos (c : Dev nD) (n : ℕ) (h : n ≤ cfg1.N) (hz : n ≠ 0) :
    Phi1 V c n h = iprop(owns (c : Thread nD τ) scM1 fullShare (acc1 V c ⟨n - 1, by omega⟩) ∗ stgRest1 (F := F) c ∗ (∃ r, prngReg c r)) := by
  cases n with
  | zero => exact absurd rfl hz
  | succ n => rfl

/-- Region 1's proof data. The features' array feeds windows 1 and 2, the degree array windows 3 and 4: each pair
    shares its array's read permission half and half. After the body every input block stays; the output window
    holds `out1` (read only where the point writes it back: the odd points). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1 V c t
  Φ t := Phi1 V c t.val (Nat.le_of_lt_succ t.isLt)
  q w := match w with
    | ⟨1, _⟩ => fullShare.left
    | ⟨2, _⟩ => fullShare.right
    | ⟨3, _⟩ => fullShare.left
    | ⟨4, _⟩ => fullShare.right
    | _ => fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1 V c t := by dsimp only [dat1]

end Cert.Kernel.Hand

end
-- ==== Proof.BitsBody0.lean ====
/-
  Region 0's body at one grid point: it loads the adjacency block, and stores the degree scaling of the block's rows
  and their diagonal entries into the two output windows, leaving the block as it was.
-/
import proofs.«106363_j29145648070885_1_alg».proof.Proof.BitsDat0
import Idealize.ShloMosaic.Lib.Pipeline.Value
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the input window's buffer holds when the body runs -/

/-- The adjacency window is fetched at every grid point and its blocks are never cut, so whatever its staging buffer
    held before, at point `t` it holds block `t` of the adjacency array as the region found it. -/
theorem b0_before_in (c : Dev nD) (t : Fin cfg0.N) (d) : (dat0 V c).before 0 t d = iblk0 V c 0 t := by
  rw [(dat0 V c).before_fetched 0 t (fetch0_0 t) d]
  unfold Dat.fetched Dat.blockOf iblk0
  rw [A_eq0]
  rfl

/-! ## Whole-buffer accesses: offsets all zero, extents the buffer's own -/

/-- The literal pair of zero offsets is the constant-zero offset function on a rank-2 shape. -/
theorem b0_zero2 : (![0, 0] : Fin S8x128.rank → Nat) = fun _ => 0 := by
  funext a; fin_cases a <;> rfl

/-- The literal triple of zero offsets is the constant-zero offset function on a rank-3 shape. -/
theorem b0_zero3 : (![0, 0, 0] : Fin S8x128x2048.rank → Nat) = fun _ => 0 := by
  funext a; fin_cases a <;> rfl

/-- A load through the rectangle that starts at the origin and spans the whole [8,128,2048] shape is the identity on
    indices, so it reads exactly the contents seen through the view. -/
theorem b0_load_whole {κ : Kind} {sp : Space} (v : View sig κ sp S8x128x2048 .f32) (f : v.ty.Contents (Elt F)) :
    View.readAt (Elt F) v (Rect.unit (s := S8x128x2048) ![0, 0, 0] S8x128x2048.size inb_S8x128x2048_S8x128x2048_0_0_0).toLoadRect f
      = v.read (Elt F) f := by
  rw [View.readAt_eq_ld]
  exact View.ld_unit_zero b0_zero3 _ _

/-- One store through the rectangle that starts at the origin and spans the whole [8,128] shape covers every index,
    so afterwards the view reads the stored payload and nothing of the earlier contents. -/
theorem b0_store_whole {κ : Kind} {sp : Space} (v : View sig κ sp S8x128 .f32) (f : v.ty.Contents (Elt F))
    (w : S8x128.Idx → Elt F .f32) :
    v.read (Elt F) (v.writes (Elt F) f [⟨Rect.unit (s := S8x128) ![0, 0] S8x128.size inb_S8x128_S8x128_0_0, w⟩]) = w := by
  rw [View.read_writes_eq_canon _ _ _
    (fun y => ⟨_, List.mem_singleton_self _, View.mem_set_unit_zero b0_zero2 inb_S8x128_S8x128_0_0 y⟩)]
  exact View.canon_unit_zero b0_zero2 _ w

/-! ## The body's triple on arbitrary whole buffers -/

set_option maxHeartbeats 1000000 in
/-- On three whole buffers, the first reading `x0` and the other two holding anything, the body reaches its
    continuation with the first buffer still reading `x0`, the second reading the degree scaling of `x0` and the
    third reading the diagonal entries of `x0`. The body reads the input once; its reads of the two outputs are
    discarded; each output then receives one store over its whole extent, which determines its contents. -/
theorem b0_sound_kernel (c : Dev nD) (E : Set ℕ) (i : grid0.Coords)
    (arg1 : Memref sig .tc .vmem S8x128x2048 .f32) (harg1 : arg1.IsWhole)
    (arg2 : Memref sig .tc .vmem S8x128 .f32) (harg2 : arg2.IsWhole)
    (arg3 : Memref sig .tc .vmem S8x128 .f32) (harg3 : arg3.IsWhole)
    (x0 : Vec F S8x128x2048 .f32) (K : PUnit → sProp 𝕄) :
    iprop(owns (c : Thread nD τ) arg1 fullShare x0
        ∗ (∃ d, owns (c : Thread nD τ) arg2 fullShare d)
        ∗ (∃ d, owns (c : Thread nD τ) arg3 fullShare d)
        ∗ (iprop(owns (c : Thread nD τ) arg1 fullShare x0
              ∗ owns (c : Thread nD τ) arg2 fullShare (k0_pay2 i x0)
              ∗ owns (c : Thread nD τ) arg3 fullShare (k0_pay1 i x0)) -∗ K ⟨⟩))
      ⊢ wp frame (wpE (defs₀ (F := F)) Variants.none c none) E (cc0__rowsum_kernel i arg1 harg1 arg2 harg2 arg3 harg3) K := by
  simp only [cc0__rowsum_kernel_eq_skeleton]; unfold cc0__rowsum_kernel_skel
  unfold owns
  iintro ⟨⟨%f0, %hf0, H0⟩, ⟨%d1, %f1, -, H1⟩, ⟨%d2, %f2, -, H2⟩, Hk⟩
  subst hf0
  sl_exec
  sl_step
  iapply Hk
  -- the input buffer is untouched
  isplitl [H0]
  · iexists f0; isplitr
    · ipureintro; rfl
    iexact H0
  -- first output: the whole-extent store of the degree scaling of what the whole-extent load read
  isplitl [H1]
  · iexists _; isplitr
    swap; · iexact H1
    ipureintro
    rw [b0_store_whole, b0_load_whole]
  -- second output: likewise with the diagonal entries
  · iexists _; isplitr
    swap; · iexact H2
    ipureintro
    rw [b0_store_whole, b0_load_whole]

/-! ## The obligation at a generic grid point -/

/-- What the body is handed at point `t`: the invariant, the core's debts, and each window's current buffer. -/
def b0_pre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it hands back: the same invariant and debts, and each buffer at what the proof data says the body leaves. -/
def b0_post (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At any point the input buffer holds the point's adjacency block, the two output buffers hold something, and the
    invariant and debts do not depend on the point; so the triple above applies with `x0` the block, and what it leaves
    is, window by window, what the proof data records. -/
theorem b0_sound_body (c : Dev nD) (t : Fin cfg0.N) :
    b0_pre V c t ⊢ wp frame (wpE (defs₀ (F := F)) Variants.none c none) Set.univ (bodyAt0 t) (fun _ => b0_post V c t) := by
  unfold b0_pre b0_post bodyAt0
  simp only [b0_before_in]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (b0_sound_kernel c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation for region 0's body, at every grid point. -/
theorem body_obligation0 (c : Dev nD) : BodyObligation (dat0 (F := F) V c) (defs₀ (F := F)) Variants.none () Set.univ := fun t => by
  rw [bigSep_W0, bigSep_W0]
  exact b0_sound_body V c t

end Cert.Kernel.Hand

end
-- ==== Proof.BitsBody1.lean ====
/-
  Region 1's body at one grid point, by the parity of the point: at an even point the accumulator is zeroed and one
  block product added; at an odd point a second block product is added and the corrected, scaled, projected and
  rectified rows are stored into the output window.
-/
import proofs.«106363_j29145648070885_1_alg».proof.Proof.BitsDat1
import Idealize.ShloMosaic.Lib.Tactic
import Idealize.ShloMosaic.Lib.Pipeline.Value

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Whole-buffer loads and stores

Every load and store of the body goes through the full rectangle of its buffer at zero offsets: such a load reads the
buffer's contents, and after such a store the buffer reads as the stored value, whatever was stored before. -/

/-- A load of a whole buffer through the full rectangle at zero offsets reads its contents. -/
theorem readAt_whole_unit1 {sp : Space} {S : Shape} {e : EltTy} {m : Memref sig .tc sp S e} (h : m.IsWhole)
    (X : S.Idx → Elt F e) {off : Fin S.rank → Nat} (hoff : off = fun _ => 0) (inb : ∀ a, off a + S.size a ≤ S.size a) :
    View.readAt (Elt F) m.view (Rect.unit off S.size inb).toLoadRect (h.unread X) = X := by
  subst hoff; funext x
  refine (congrFun (Memref.IsWhole.read_unread h X) _).trans ?_
  show X ((Rect.whole S).emb x) = X x
  rw [Rect.emb_whole_apply]

/-- After a last store through the full rectangle at zero offsets the buffer reads as that store's value. -/
theorem read_writes_cons_unit_zero1 [∀ e, Nonempty (Elt F e)] {sp : Space} {S : Shape} {e : EltTy} (v : View sig .tc sp S e)
    (f : v.ty.Contents (Elt F)) {off : Fin S.rank → Nat} (hoff : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hoff inb y⟩),
    View.canon_cons_unit_zero hoff inb w L]

/-- The zero offsets, on three axes and on two. -/
theorem zeros3_1 : (![0, 0, 0] : Fin 3 → Nat) = fun _ => 0 := by funext a; fin_cases a <;> rfl
theorem zeros2_1 : (![0, 0] : Fin 2 → Nat) = fun _ => 0 := by funext a; fin_cases a <;> rfl

/-! ## The body's two conditionals

The first tests the second grid coordinate against 0 (zero the accumulator), the second against 1 (finalise and store
the output). On the 8 x 2 grid, second coordinate fastest, they hold exactly at the even and at the odd points. -/

abbrev cond1_Z (i : grid1.Coords) : Prop := (Scalar.cmpi .ne (Scalar.extui (Scalar.cmpi .eq (BitVec.ofNat 32 (i 1).val) 0#32)) 0#32) = 1#1
abbrev cond1_F (i : grid1.Coords) : Prop := k1_cond2 i = 1#1

theorem hcond1_Z : ∀ t : Fin cfg1.N, cond1_Z (grid1.coords t) ↔ t.val % 2 = 0 :=
  (by decide +kernel : ∀ t : Fin grid1.N, cond1_Z (grid1.coords t) ↔ t.val % 2 = 0)
theorem hcond1_F : ∀ t : Fin cfg1.N, cond1_F (grid1.coords t) ↔ t.val % 2 = 1 :=
  (by decide +kernel : ∀ t : Fin grid1.N, cond1_F (grid1.coords t) ↔ t.val % 2 = 1)

/-! ## The body on any whole memrefs, by the point's parity

Stated over arbitrary contents of the right shapes; the buffers the body does not touch in a case are not mentioned
and pass through unchanged. -/

set_option maxHeartbeats 1000000 in
/-- At a point whose second coordinate is 0: the accumulator, at anything, ends at zeros plus the block product; the
    three operands of the product are left as found. -/
theorem run1_even [∀ e, Nonempty (Elt F e)] (c : Dev nD) (i : grid1.Coords) (arg2 : Memref sig .tc .vmem S8x256x1024 .f32) (harg2 : arg2.IsWhole) (arg3 : Memref sig .tc .vmem S8x1024x128 .f32) (harg3 : arg3.IsWhole) (arg4 : Memref sig .tc .vmem S8x256x128 .f32) (harg4 : arg4.IsWhole) (arg5 : Memref sig .tc .vmem S8x1024 .f32) (harg5 : arg5.IsWhole) (arg6 : Memref sig .tc .vmem S8x256 .f32) (harg6 : arg6.IsWhole) (arg7 : Memref sig .tc .vmem S8x256 .f32) (harg7 : arg7.IsWhole) (arg8 : Memref sig .tc .vmem S128x128 .f32) (harg8 : arg8.IsWhole) (arg9 : Memref sig .tc .vmem S8x256x128 .f32) (harg9 : arg9.IsWhole) (arg10 : Memref sig .tc .vmem S8x256x128 .f32) (harg10 : arg10.IsWhole)
    (hz : cond1_Z i) (hf : ¬cond1_F i)
    (a : Vec F S8x256x1024 .f32) (x : Vec F S8x1024x128 .f32) (d : Vec F S8x1024 .f32)
    (E : Set ℕ) (K : PUnit → sProp 𝕄) :
    iprop(owns (c : Thread nD τ) arg2 fullShare a ∗ owns (c : Thread nD τ) arg3 fullShare x ∗ owns (c : Thread nD τ) arg5 fullShare d
        ∗ (∃ s, owns (c : Thread nD τ) arg10 fullShare s)
        ∗ (iprop(owns (c : Thread nD τ) arg2 fullShare a ∗ owns (c : Thread nD τ) arg3 fullShare x ∗ owns (c : Thread nD τ) arg5 fullShare d
            ∗ owns (c : Thread nD τ) arg10 fullShare (k1_pay2 a x d (k1_pay1 (F := F)))) -∗ K ⟨⟩))
      ⊢ wp frame (wpE (defs₀ (F := F)) Variants.none c none) E (cc1__main_kernel i arg2 harg2 arg3 harg3 arg4 harg4 arg5 harg5 arg6 harg6 arg7 harg7 arg8 harg8 arg9 harg9 arg10 harg10) K := by
  simp only [cc1__main_kernel_eq_skeleton]; unfold cc1__main_kernel_skel
  unfold owns
  iintro ⟨⟨%f2, %hf2, H2⟩, ⟨%f3, %hf3, H3⟩, ⟨%f5, %hf5, H5⟩, ⟨%s, %fs, %hfs, HS⟩, Hk⟩
  obtain rfl := harg2.eq_unread hf2; obtain rfl := harg3.eq_unread hf3; obtain rfl := harg5.eq_unread hf5
  sl_exec (disch := first | exact hz | exact hf)
  sl_unfold_run_names
  sl_step
  iapply Hk
  isplitl [H2]
  · iexists _; isplitr; · ipureintro; exact harg2.read_unread _
    iexact H2
  isplitl [H3]
  · iexists _; isplitr; · ipureintro; exact harg3.read_unread _
    iexact H3
  isplitl [H5]
  · iexists _; isplitr; · ipureintro; exact harg5.read_unread _
    iexact H5
  iexists _; isplitr
  swap; · iexact HS
  ipureintro
  rw [read_writes_cons_unit_zero1 (S := S8x256x128) _ _ zeros3_1, readAt_whole_unit1 (S := S8x256x1024) harg2 a zeros3_1,
    readAt_whole_unit1 (S := S8x1024x128) harg3 x zeros3_1, readAt_whole_unit1 (S := S8x1024) harg5 d zeros2_1,
    View.readCov_cons_toLoadRect]

set_option maxHeartbeats 1000000 in
/-- At a point whose second coordinate is 1: the accumulator ends at what it held plus the block product, and the
    output buffer, at anything, ends at the finalisation of that sum; every input is left as found. -/
theorem run1_odd [∀ e, Nonempty (Elt F e)] (c : Dev nD) (i : grid1.Coords) (arg2 : Memref sig .tc .vmem S8x256x1024 .f32) (harg2 : arg2.IsWhole) (arg3 : Memref sig .tc .vmem S8x1024x128 .f32) (harg3 : arg3.IsWhole) (arg4 : Memref sig .tc .vmem S8x256x128 .f32) (harg4 : arg4.IsWhole) (arg5 : Memref sig .tc .vmem S8x1024 .f32) (harg5 : arg5.IsWhole) (arg6 : Memref sig .tc .vmem S8x256 .f32) (harg6 : arg6.IsWhole) (arg7 : Memref sig .tc .vmem S8x256 .f32) (harg7 : arg7.IsWhole) (arg8 : Memref sig .tc .vmem S128x128 .f32) (harg8 : arg8.IsWhole) (arg9 : Memref sig .tc .vmem S8x256x128 .f32) (harg9 : arg9.IsWhole) (arg10 : Memref sig .tc .vmem S8x256x128 .f32) (harg10 : arg10.IsWhole)
    (hz : ¬cond1_Z i) (hf : cond1_F i)
    (a : Vec F S8x256x1024 .f32) (x : Vec F S8x1024x128 .f32) (xn : Vec F S8x256x128 .f32) (d : Vec F S8x1024 .f32)
    (dn : Vec F S8x256 .f32) (dg : Vec F S8x256 .f32) (wt : Vec F S128x128 .f32) (acc : Vec F S8x256x128 .f32)
    (E : Set ℕ) (K : PUnit → sProp 𝕄) :
    iprop(owns (c : Thread nD τ) arg2 fullShare a ∗ owns (c : Thread nD τ) arg3 fullShare x ∗ owns (c : Thread nD τ) arg4 fullShare xn
        ∗ owns (c : Thread nD τ) arg5 fullShare d ∗ owns (c : Thread nD τ) arg6 fullShare dn ∗ owns (c : Thread nD τ) arg7 fullShare dg
        ∗ owns (c : Thread nD τ) arg8 fullShare wt ∗ (∃ o, owns (c : Thread nD τ) arg9 fullShare o)
        ∗ owns (c : Thread nD τ) arg10 fullShare acc
        ∗ (iprop(owns (c : Thread nD τ) arg2 fullShare a ∗ owns (c : Thread nD τ) arg3 fullShare x ∗ owns (c : Thread nD τ) arg4 fullShare xn
            ∗ owns (c : Thread nD τ) arg5 fullShare d ∗ owns (c : Thread nD τ) arg6 fullShare dn ∗ owns (c : Thread nD τ) arg7 fullShare dg
            ∗ owns (c : Thread nD τ) arg8 fullShare wt
            ∗ owns (c : Thread nD τ) arg9 fullShare (k1_pay3 dn dg xn (k1_pay2 a x d acc) wt)
            ∗ owns (c : Thread nD τ) arg10 fullShare (k1_pay2 a x d acc)) -∗ K ⟨⟩))
      ⊢ wp frame (wpE (defs₀ (F := F)) Variants.none c none) E (cc1__main_kernel i arg2 harg2 arg3 harg3 arg4 harg4 arg5 harg5 arg6 harg6 arg7 harg7 arg8 harg8 arg9 harg9 arg10 harg10) K := by
  simp only [cc1__main_kernel_eq_skeleton]; unfold cc1__main_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%o, %fo, %hfo, HO⟩, ⟨%fs, %hfs, HS⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg10.eq_unread hfs
  sl_exec (disch := first | exact hz | exact hf)
  sl_unfold_run_names
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [HO]
  · iexists _; isplitr
    swap; · iexact HO
    ipureintro
    rw [read_writes_cons_unit_zero1 (S := S8x256x128) _ _ zeros3_1, View.readCov_cons_toLoadRect,
      readAt_whole_unit1 (S := S8x256x1024) harg2 a zeros3_1, readAt_whole_unit1 (S := S8x1024x128) harg3 x zeros3_1,
      readAt_whole_unit1 (S := S8x256x128) harg4 xn zeros3_1, readAt_whole_unit1 (S := S8x1024) harg5 d zeros2_1,
      readAt_whole_unit1 (S := S8x256) harg6 dn zeros2_1, readAt_whole_unit1 (S := S8x256) harg7 dg zeros2_1,
      readAt_whole_unit1 (S := S128x128) harg8 wt zeros2_1, readAt_whole_unit1 (S := S8x256x128) harg10 acc zeros3_1]
  iexists _; isplitr
  swap; · iexact HS
  ipureintro
  rw [read_writes_cons_unit_zero1 (S := S8x256x128) _ _ zeros3_1,
    readAt_whole_unit1 (S := S8x256x1024) harg2 a zeros3_1, readAt_whole_unit1 (S := S8x1024x128) harg3 x zeros3_1,
    readAt_whole_unit1 (S := S8x1024) harg5 d zeros2_1, readAt_whole_unit1 (S := S8x256x128) harg10 acc zeros3_1]

-- the contents of the core's buffers when the region is entered
variable (V : (c : Dev nD) → (b : Ref sig .tc) → Buf (Elt F) ((c : Thread nD τ).loc b))

/-! ## Each input's staging buffer holds its block

Fetched at the point or not: an input is never stored into, and where it is not fetched its block index has not moved. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-! ## Where the output window is idle

Idle exactly where the second conditional fails, the even points; written back exactly at the odd points. -/

theorem idle7_even : ∀ t : Fin cfg1.N, t.val % 2 = 0 → cfg1.idle 7 (grid1.coords t) = true :=
  (by decide +kernel : ∀ t : Fin grid1.N, t.val % 2 = 0 → cfg1.idle 7 (grid1.coords t) = true)
theorem idle7_odd : ∀ t : Fin cfg1.N, t.val % 2 = 1 → cfg1.idle 7 (grid1.coords t) = false :=
  (by decide +kernel : ∀ t : Fin grid1.N, t.val % 2 = 1 → cfg1.idle 7 (grid1.coords t) = false)
theorem noflush7_even (t : Fin cfg1.N) (h : t.val % 2 = 0) : (cfg1.win 7).flush t = false := by
  cases hfl : (cfg1.win 7).flush t with
  | false => rfl
  | true => have := (flush1_7 t).mp hfl; omega

/-! ## The staging memrefs at a point, each at its literal shape -/

abbrev ms1_0 (t : Fin cfg1.N) : Memref sig .tc .vmem S8x256x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x256x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S8x256x128 .f32 := win1_7.stage (cfg1.slots t 7)
abbrev hs1_7 (t : Fin cfg1.N) : (ms1_7 t).IsWhole := hstage1_7 ((cfg1.slots t 7).cast nbuf1_7)

/-! ## The accumulator, by the parity of the point

After an even point: zeros plus that point's product. After an odd point: what the point before left plus this point's product. -/

theorem acc1_even (c : Dev nD) (t : Fin cfg1.N) (h : t.val % 2 = 0) : acc1 V c t = step1 V c t (k1_pay1 (F := F)) := by
  unfold acc1; rw [if_pos h]

theorem acc1_odd (c : Dev nD) (t : Fin cfg1.N) (h : t.val % 2 = 1) : acc1 V c t = step1 V c t (acc1 V c (prev1 t)) := by
  have h0 : ¬t.val % 2 = 0 := by omega
  have h' : (prev1 t).val % 2 = 0 := by show (t.val - 1) % 2 = 0; omega
  rw [acc1_even V c (prev1 t) h']; unfold acc1; rw [if_neg h0]

/-! ## The invariant before the first point, with the accumulator's buffer singled out

The scoped rest is the other region's six staging buffers and the accumulator's buffer, each at some contents; the two
entailments only regroup that separating conjunction. -/

theorem PhiA1_open (c : Dev nD) : (Pipeline.ΦA spec1 c : sProp 𝕄)
    ⊢ iprop((∃ s, owns (c : Thread nD τ) scM1 fullShare s) ∗ stgRest1 (F := F) c ∗ (∃ r, prngReg c r)) := by
  unfold Pipeline.ΦA stgRest1; rw [scopedRest1_eq]; simp only [scM1, owns_whole]
  iintro ⟨⟨A1, A2, A3, A4, A5, A6, HS⟩, Hg⟩
  isplitl [HS]; · iexact HS
  isplitl [A1 A2 A3 A4 A5 A6]
  · isplitl [A1]; · iexact A1
    isplitl [A2]; · iexact A2
    isplitl [A3]; · iexact A3
    isplitl [A4]; · iexact A4
    isplitl [A5]; · iexact A5
    iexact A6
  iexact Hg

theorem PhiA1_close (c : Dev nD) : iprop((∃ s, owns (c : Thread nD τ) scM1 fullShare s) ∗ stgRest1 (F := F) c ∗ (∃ r, prngReg c r))
    ⊢ (Pipeline.ΦA spec1 c : sProp 𝕄) := by
  unfold Pipeline.ΦA stgRest1; rw [scopedRest1_eq]; simp only [scM1, owns_whole]
  iintro ⟨HS, ⟨A1, A2, A3, A4, A5, A6⟩, Hg⟩
  isplitl [A1 A2 A3 A4 A5 A6 HS]
  · isplitl [A1]; · iexact A1
    isplitl [A2]; · iexact A2
    isplitl [A3]; · iexact A3
    isplitl [A4]; · iexact A4
    isplitl [A5]; · iexact A5
    isplitl [A6]; · iexact A6
    iexact HS
  iexact Hg

/-! ## The body obligation at a point -/

/-- What the body is handed at point t: the invariant, what the core owes, each window's staging buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- What it gives back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4000000 in
/-- The body at any point, by the point's parity and, at an even point, by whether it is the first. -/
theorem sound_body1 [∀ e, Nonempty (Elt F e)] (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0 V, before1_1 V, before1_2 V, before1_3 V, before1_4 V, before1_5 V, before1_6 V]
  rw [show (dat1 V c).owesAt () t.succ = (dat1 V c).owesAt () t.castSucc from rfl]
  rw [show (dat1 V c).Φ t.succ = iprop(owns (c : Thread nD τ) scM1 fullShare (acc1 V c t) ∗ stgRest1 (F := F) c ∗ (∃ r, prngReg c r)) from rfl]
  rw [show (dat1 V c).leavesExact 0 t = owns (c : Thread nD τ) (ms1_0 t) fullShare (iblk1 V c 0 t) from rfl]
  rw [show (dat1 V c).leavesExact 1 t = owns (c : Thread nD τ) (ms1_1 t) fullShare (iblk1 V c 1 t) from rfl]
  rw [show (dat1 V c).leavesExact 2 t = owns (c : Thread nD τ) (ms1_2 t) fullShare (iblk1 V c 2 t) from rfl]
  rw [show (dat1 V c).leavesExact 3 t = owns (c : Thread nD τ) (ms1_3 t) fullShare (iblk1 V c 3 t) from rfl]
  rw [show (dat1 V c).leavesExact 4 t = owns (c : Thread nD τ) (ms1_4 t) fullShare (iblk1 V c 4 t) from rfl]
  rw [show (dat1 V c).leavesExact 5 t = owns (c : Thread nD τ) (ms1_5 t) fullShare (iblk1 V c 5 t) from rfl]
  rw [show (dat1 V c).leavesExact 6 t = owns (c : Thread nD τ) (ms1_6 t) fullShare (iblk1 V c 6 t) from rfl]
  rw [Phi1_castSucc V c t]
  by_cases h : t.val % 2 = 0
  · -- an even point: the accumulator is zeroed, one block product added; the output window is left as found
    have hzc : cond1_Z (grid1.coords t) := (hcond1_Z t).mpr h
    have hfc : ¬cond1_F (grid1.coords t) := fun hc => by have := (hcond1_F t).mp hc; omega
    rw [Dat.leavesExact_idle (dat1 V c) 7 t (idle7_even t h) (noflush7_even t h)]
    rw [acc1_even V c t h]; unfold step1
    by_cases hz : t.val = 0
    · rw [Phi1_zero V c _ _ hz]
      iintro ⟨HP, Ho, ⟨%d0, H0⟩, ⟨%d1, H1⟩, ⟨%d2, H2⟩, ⟨%d3, H3⟩, ⟨%d4, H4⟩, ⟨%d5, H5⟩, ⟨%d6, H6⟩, H7⟩
      ihave HP' := (PhiA1_open c) $$ HP
      icases HP' with ⟨HS, HR, Hg⟩
      iapply (run1_even c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) hzc hfc (iblk1 V c 0 t) (iblk1 V c 1 t) (iblk1 V c 3 t) Set.univ _)
      isplitl [H0]; · iexact H0
      isplitl [H1]; · iexact H1
      isplitl [H3]; · iexact H3
      isplitl [HS]; · iexact HS
      iintro ⟨H0, H1, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Phi1_pos V c _ _ hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, H7⟩
      iapply (run1_even c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) hzc hfc (iblk1 V c 0 t) (iblk1 V c 1 t) (iblk1 V c 3 t) Set.univ _)
      isplitl [H0]; · iexact H0
      isplitl [H1]; · iexact H1
      isplitl [H3]; · iexact H3
      isplitl [HS]; · iexists _; iexact HS
      iintro ⟨H0, H1, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · -- an odd point: the second block product is added to what the even point left, and the result finalised
    have h1 : t.val % 2 = 1 := by omega
    have hzc : ¬cond1_Z (grid1.coords t) := fun hc => h ((hcond1_Z t).mp hc)
    have hfc : cond1_F (grid1.coords t) := (hcond1_F t).mpr h1
    have hz : t.val ≠ 0 := by omega
    rw [show (dat1 V c).leavesExact 7 t = owns (c : Thread nD τ) (ms1_7 t) fullShare ((dat1 V c).after 7 t) from by
      unfold Dat.leavesExact; rw [idle7_odd t h1], after1_7]
    unfold out1
    rw [Phi1_pos V c _ _ hz, acc1_odd V c t h1]; unfold step1
    iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run1_odd c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) hzc hfc (iblk1 V c 0 t) (iblk1 V c 1 t) (iblk1 V c 2 t) (iblk1 V c 3 t) (iblk1 V c 4 t) (iblk1 V c 5 t) (iblk1 V c 6 t) (acc1 V c (prev1 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The pipeline's obligation for region 1's body, at every grid point. -/
theorem body_obligation1 [∀ e, Nonempty (Elt F e)] (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = Phi1 V c 0 (Nat.zero_le _) from rfl, Phi1_zero V c 0 _ rfl]

/-- After the last point the invariant gives the scoped rest and the generator register back. -/
theorem hout1 (c : Dev nD) : (dat1 V c).Φ (Fin.last cfg1.N) ⊢ (Pipeline.ΦA spec1 c : sProp 𝕄) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 16 := N_1; omega)]
  iintro ⟨HS, HR, Hg⟩
  iapply (PhiA1_close c)
  isplitl [HS]; · iexists _; iexact HS
  isplitl [HR]; · iexact HR
  iexact Hg

end Cert.Kernel.Hand

end
-- ==== Proof.BitsRun.lean ====
/-
  The whole program as two regions in sequence. Region 0 turns the adjacency into the degree-scaling and diagonal
  arrays; region 1 reads those two beside the three arguments and writes the result array. Between the regions each
  core holds every long-lived buffer whole: the arguments as launched, the two intermediate arrays at what region 0's
  write-backs left, and after region 1 the result array at what its write-backs left.
-/
import proofs.«106363_j29145648070885_1_alg».proof.Proof.BitsDat0
import proofs.«106363_j29145648070885_1_alg».proof.Proof.BitsDat1
import proofs.«106363_j29145648070885_1_alg».proof.Proof.BitsBody0
import proofs.«106363_j29145648070885_1_alg».proof.Proof.BitsBody1
import proofs.«106363_j29145648070885_1_alg».proof.Proof.Gen.Kernel.Regions
import Idealize.ShloMosaic.Lib.Pipeline.RegionsLoop
import Idealize.ShloMosaic.Lib.Pipeline.Kit

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F] [∀ e, Nonempty (Elt F e)]

local notation "𝕄" => MT nD τ sig Unit (Elt F) ℕ (UR sig nD τ) ℕ

variable (m : (ℓ : Loc nD τ sig) → Buf (Elt F) ℓ)

/-! ## The buffers' contents at the two region boundaries -/

/-- What region 0 finds: the launch contents. -/
abbrev Va (c : Dev nD) (b : Ref sig .tc) : Buf (Elt F) ((c : Thread nD τ).loc b) := Gen.V0 m c b

/-- The degree-scaling array as region 0's write-backs leave it. -/
def dArr (c : Dev nD) : Buf (Elt F) ((c : Thread nD τ).loc main_v0_0) := (dat0 (Va m) c).arrAt 1 cfg0.N
/-- The diagonal array as region 0's write-backs leave it. -/
def gArr (c : Dev nD) : Buf (Elt F) ((c : Thread nD τ).loc main_v0_1) := (dat0 (Va m) c).arrAt 2 cfg0.N

/-- Between the regions: the launch contents with the two intermediate arrays at what region 0 left. -/
def Wb (c : Dev nD) : Valuation τ sig (Elt F) :=
  Function.update (Function.update (Gen.V0 m c) main_v0_0 (dArr m c)) main_v0_1 (gArr m c)
/-- What region 1 finds. -/
abbrev Vb (c : Dev nD) (b : Ref sig .tc) : Buf (Elt F) ((c : Thread nD τ).loc b) := Wb m c b

/-- The result array as region 1's write-backs leave it. -/
def oArr (c : Dev nD) : Buf (Elt F) ((c : Thread nD τ).loc main_v1) := (dat1 (Vb m) c).arrAt 7 cfg1.N

/-- At the end: the result array at what region 1 left, everything else as between the regions. -/
def We (c : Dev nD) : Valuation τ sig (Elt F) := Function.update (Wb m c) main_v1 (oArr m c)

/-- What the regions leave in the buffers they may change, as one family. -/
def outsH : Gen.Outs (F := F) := fun j r c => if j = 1 then Wb m c r else We m c r

theorem Wb_v0_0 (c : Dev nD) : Wb m c main_v0_0 = dArr m c := by
  unfold Wb
  rw [Function.update_of_ne (StableHlo.devRef_ne_of_ne (by decide) : (Proc.devRef .tc main_v0_0 : DevRef τ sig) ≠ Proc.devRef .tc main_v0_1), Function.update_self]
theorem Wb_v0_1 (c : Dev nD) : Wb m c main_v0_1 = gArr m c := by
  unfold Wb; rw [Function.update_self]
theorem Wb_of (c : Dev nD) (r : Ref sig .tc) (h0 : r ≠ main_v0_0) (h1 : r ≠ main_v0_1) : Wb m c r = Gen.V0 m c r := by
  unfold Wb
  rw [Function.update_of_ne (StableHlo.devRef_ne_of_ne h1), Function.update_of_ne (StableHlo.devRef_ne_of_ne h0)]
theorem We_v1 (c : Dev nD) : We m c main_v1 = oArr m c := by
  unfold We; rw [Function.update_self]
theorem We_of (c : Dev nD) (r : Ref sig .tc) (h : r ≠ main_v1) : We m c r = Wb m c r := by
  unfold We; rw [Function.update_of_ne (StableHlo.devRef_ne_of_ne h)]

/-- The generated valuation after region 0, at this family, is `Wb`. -/
theorem V1_eq (c : Dev nD) : Gen.V1 m (outsH m) c = Wb m c := by
  show Function.update (Function.update (Gen.V0 m c) main_v0_0 (outsH m 1 main_v0_0 c)) main_v0_1 (outsH m 1 main_v0_1 c) = _
  rw [show outsH m 1 main_v0_0 c = dArr m c from (if_pos rfl).trans (Wb_v0_0 m c),
    show outsH m 1 main_v0_1 c = gArr m c from (if_pos rfl).trans (Wb_v0_1 m c)]
  rfl
/-- The generated valuation after region 1, at this family, is `We`. -/
theorem V2_eq (c : Dev nD) : Gen.V2 m (outsH m) c = We m c := by
  show Function.update (Gen.V1 m (outsH m) c) main_v1 (outsH m 2 main_v1 c) = _
  rw [V1_eq, show outsH m 2 main_v1 c = oArr m c from (if_neg (by decide)).trans (We_v1 m c)]
  rfl

/-! ## The proof data family -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (Va m) c
  | ⟨1, _⟩ => fun c => dat1 (Vb m) c

abbrev 𝒱₀ : Variants := Variants.none
/-- No core owes another anything: no level is assigned. -/
abbrev Lh : GSem nD τ sig → Finset Unit := fun _ => ∅
abbrev lvh : GSem nD τ sig → Unit → ℕ := fun _ _ => 0
/-- What rides beside the buffers between the regions: the generator register at some state, and nothing owed. -/
abbrev Rh (c : Dev nD) : sProp 𝕄 := iprop((∃ r, prngReg c r) ∗ ∃ W, owes (c : Thread nD τ) (0 : CellTallies nD τ sig Unit) W)

/-! ## Region 0 as a segment -/

/-- At region 0's exit each of its arrays holds what the pipeline leaves: the adjacency as entered (an input is never
    written), the two result arrays at their write-backs' contents. -/
theorem hF0 (c : Dev nD) (w : Fin cfg0.W) : (pdats m 0 c).arrAt w cfg0.N = Vb m c (Pipeline.arrRef spec0 w) := by
  match w with
  | ⟨0, _⟩ =>
    show (dat0 (Va m) c).arrAt 0 cfg0.N = Wb m c main_arg1
    rw [(dat0 (Va m) c).arrAt_in 0 rfl, Wb_of m c main_arg1 (by decide) (by decide)]; rfl
  | ⟨1, _⟩ => exact (Wb_v0_0 m c).symm
  | ⟨2, _⟩ => exact (Wb_v0_1 m c).symm

/-- Every other long-lived buffer is as region 0 found it. -/
theorem hrest0 (c : Dev nD) : ∀ b, b ∉ Finset.univ.image (Pipeline.arrRef spec0) → Vb m c b = Va m c b := fun b hb =>
  Wb_of m c b (fun e => hb (Finset.mem_image.mpr ⟨1, Finset.mem_univ _, e.symm⟩))
    (fun e => hb (Finset.mem_image.mpr ⟨2, Finset.mem_univ _, e.symm⟩))

set_option backward.isDefEq.respectTransparency.types false in
/-- Region 0 over the thread state "every long-lived buffer whole at the boundary's contents, the generator register
    at some state, nothing owed": its three arrays are taken out of the buffers at entry and put back at their final
    contents at exit; the generator register passes through the region's invariant. -/
def reg0 : Pipeline.RegionSeg (pcfgs (F := F)) Gen.adm (pdats m) () defs₀ 𝒱₀ Lh lvh 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ Lh lvh 0 fun _ _ => rfl
  pre c := iprop(StableHlo.held (c : Thread nD τ) (Pipeline.ucRefs τ sig) (Gen.V0 m c) ∗ Rh c)
  post c := iprop(StableHlo.held (c : Thread nD τ) (Pipeline.ucRefs τ sig) (Wb m c) ∗ Rh c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Va m c) fun _ => rfl
    rw [Pipeline.unscopedBufs_held] at hsplit
    iintro ⟨⟨Hbufs, Hreg, Howe⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howe]
    · unfold Pipeline.Dat.owesAt Pipeline.owesWithin
      icases Howe with ⟨%W, Howe⟩
      iexists W; isplitr; · ipureintro; exact fun _ _ => Or.inl trivial
      iexact Howe
    isplitl [Hreg]; · iexact Hreg
    iexact Hrest
  hin c := by
    rw [show (pdats m 0 c).Φ 0 = Pipeline.ΦA spec0 c from rfl]; unfold Pipeline.ΦA
    iintro ⟨Hreg, -, Hsc⟩
    isplitl [Hsc]; · iexact Hsc
    iexact Hreg
  hout c := by
    rw [Pipeline.ownSems0_none, show (pdats m 0 c).Φ (Fin.last _) = Pipeline.ΦA spec0 c from rfl]; unfold Pipeline.ΦA
    iintro ⟨Hsc, Hreg⟩
    isplitl [Hreg]; · iexact Hreg
    isplitr; · iempintro
    iexact Hsc
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Va m c) (Vb m c) ((pdats m 0 c).arrAt · cfg0.N) (hF0 m c) (hrest0 m c)
    rw [Pipeline.unscopedBufs_held] at hjoin
    iintro ⟨Harr, Howe, Hreg, Hrest⟩
    imodintro
    isplitl [Harr Hrest]
    · iapply hjoin; isplitl [Harr] <;> iassumption
    isplitl [Hreg]; · iexact Hreg
    unfold Pipeline.Dat.owesAt Pipeline.owesWithin
    icases Howe with ⟨%W, -, Howe⟩; iexists W; iexact Howe

/-! ## Region 1 as a segment

Its eight windows sit on six buffers: the features feed two windows and so does the degree array. At entry each of those
two buffers' full permission is split into halves, one per window; at exit the halves, still at equal contents (an input
is never written), are joined again. -/

/-- The six buffers behind region 1's windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_arg0) ↦{fullShare} V main_arg0)
          ∗ (((c : Thread nD τ).loc main_v0_0) ↦{fullShare} V main_v0_0) ∗ (((c : Thread nD τ).loc main_v0_1) ↦{fullShare} V main_v0_1)
          ∗ (((c : Thread nD τ).loc main_arg2) ↦{fullShare} V main_arg2) ∗ (((c : Thread nD τ).loc main_v1) ↦{fullShare} V main_v1)) := by
  unfold Pipeline.arrBufs
  exact bigSep_eq_bigSepL_of_eq [main_arg1, main_arg0, main_v0_0, main_v0_1, main_arg2, main_v1] (by decide) (by decide) _

/-- Region 1's arrays window by window, each at its share. -/
theorem arrays1_eq (c : Dev nD) (V : (c : Dev nD) → (b : Ref sig .tc) → Buf (Elt F) ((c : Thread nD τ).loc b))
    (G : (w : Fin cfg1.W) → Buf (Elt F) ((cfg1.win w).arr.view.loc (c.tc : Thread nD τ))) :
    ((dat1 V c).arrays G : sProp 𝕄)
      = iprop((((c : Thread nD τ).loc main_arg1) ↦{fullShare} G 0) ∗ (((c : Thread nD τ).loc main_arg0) ↦{fullShare.left} G 1)
          ∗ (((c : Thread nD τ).loc main_arg0) ↦{fullShare.right} G 2) ∗ (((c : Thread nD τ).loc main_v0_0) ↦{fullShare.left} G 3)
          ∗ (((c : Thread nD τ).loc main_v0_0) ↦{fullShare.right} G 4) ∗ (((c : Thread nD τ).loc main_v0_1) ↦{fullShare} G 5)
          ∗ (((c : Thread nD τ).loc main_arg2) ↦{fullShare} G 6) ∗ (((c : Thread nD τ).loc main_v1) ↦{fullShare} G 7)) := by
  unfold Dat.arrays
  rw [bigSep_congr (fun w _ => by rw [(arr_whole1 w).set_eq_univ] :
    ∀ w ∈ (Finset.univ : Finset (Fin cfg1.W)), ((cfg1.win w).arr.view.loc (c.tc : Thread nD τ) ↦[(cfg1.win w).arr.view.set]{(dat1 V c).share w} G w : sProp 𝕄)
      = (((c.tc : Thread nD τ).loc (Pipeline.arrRef spec1 w)) ↦{(dat1 V c).share w} G w)), bigSep_W1]
  rfl

/-- ENTRY of region 1: the long-lived buffers at the between-regions contents are region 1's arrays at their entry
    contents, the features' and the degree array's permissions each split in two. -/
theorem entry1 (c : Dev nD) :
    (StableHlo.held (c : Thread nD τ) (Pipeline.ucRefs τ sig) (Wb m c) : sProp 𝕄)
      ⊢ (dat1 (Vb m) c).arrays ((dat1 (Vb m) c).arrAt · 0) := by
  rw [← Pipeline.unscopedBufs_held (Ix := Unit) (Name := ℕ) (U := UR sig nD τ) (Lvl := ℕ) c (Wb m c),
    Pipeline.unscopedBufs_split₀ cfgs 1 winFacts₀1.arr_unscoped c (Vb m c)]
  show (iprop(Pipeline.arrBufs (Ix := Unit) (Name := ℕ) (U := UR sig nD τ) (Lvl := ℕ) spec1 c (Vb m c) ∗ Pipeline.unscopedRest (Ix := Unit) (Name := ℕ) (U := UR sig nD τ) (Lvl := ℕ) spec1 c (Vb m c)) : sProp 𝕄) ⊢ _
  rw [unscopedRest1_eq, arrBufs1_eq, arrays1_eq]
  iintro ⟨⟨Hadj, Hx, Hd, Hg, Hk, Ho⟩, -⟩
  ihave Hx2 := (pointsTo_share (PosShare.mem_left_op_right fullShare)).1 $$ Hx
  icases Hx2 with ⟨Hxl, Hxr⟩
  ihave Hd2 := (pointsTo_share (PosShare.mem_left_op_right fullShare)).1 $$ Hd
  icases Hd2 with ⟨Hdl, Hdr⟩
  isplitl [Hadj]; · iexact Hadj
  isplitl [Hxl]; · iexact Hxl
  isplitl [Hxr]; · iexact Hxr
  isplitl [Hdl]; · iexact Hdl
  isplitl [Hdr]; · iexact Hdr
  isplitl [Hg]; · iexact Hg
  isplitl [Hk]; · iexact Hk
  iexact Ho

/-- Region 1's arrays after its sixteen points: every input as entered, the result at its write-backs' contents. -/
theorem arrAt1_in (c : Dev nD) (w : Fin cfg1.W) (hw : (cfg1.win w).isOut = false) :
    (dat1 (Vb m) c).arrAt w cfg1.N = Vb m c (Pipeline.arrRef spec1 w) :=
  ((dat1 (Vb m) c).arrAt_in w hw _).trans (A_eq1 (Vb m) c w)

/-- EXIT of region 1: its arrays at their final contents are the long-lived buffers at the end contents, the halves
    joined again. -/
theorem exit1 (c : Dev nD) :
    ((dat1 (Vb m) c).arrays ((dat1 (Vb m) c).arrAt · cfg1.N) : sProp 𝕄)
      ⊢ StableHlo.held (c : Thread nD τ) (Pipeline.ucRefs τ sig) (We m c) := by
  rw [← Pipeline.unscopedBufs_held (Ix := Unit) (Name := ℕ) (U := UR sig nD τ) (Lvl := ℕ) c (We m c),
    Pipeline.unscopedBufs_split₀ cfgs 1 winFacts₀1.arr_unscoped c (fun b => We m c b)]
  show _ ⊢ (iprop(Pipeline.arrBufs (Ix := Unit) (Name := ℕ) (U := UR sig nD τ) (Lvl := ℕ) spec1 c (fun b => We m c b) ∗ Pipeline.unscopedRest (Ix := Unit) (Name := ℕ) (U := UR sig nD τ) (Lvl := ℕ) spec1 c (fun b => We m c b)) : sProp 𝕄)
  rw [unscopedRest1_eq, arrBufs1_eq, arrays1_eq]
  rw [arrAt1_in m c 0 rfl, arrAt1_in m c 1 rfl, arrAt1_in m c 2 rfl, arrAt1_in m c 3 rfl, arrAt1_in m c 4 rfl,
    arrAt1_in m c 5 rfl, arrAt1_in m c 6 rfl]
  rw [We_of m c main_arg1 (by decide), We_of m c main_arg0 (by decide), We_of m c main_v0_0 (by decide),
    We_of m c main_v0_1 (by decide), We_of m c main_arg2 (by decide), We_v1 m c]
  iintro ⟨Hadj, Hxl, Hxr, Hdl, Hdr, Hg, Hk, Ho⟩
  isplitl [Hadj Hxl Hxr Hdl Hdr Hg Hk Ho]
  · isplitl [Hadj]; · iexact Hadj
    isplitl [Hxl Hxr]
    · iapply (pointsTo_share (PosShare.mem_left_op_right fullShare)).2
      isplitl [Hxl]; · iexact Hxl
      iexact Hxr
    isplitl [Hdl Hdr]
    · iapply (pointsTo_share (PosShare.mem_left_op_right fullShare)).2
      isplitl [Hdl]; · iexact Hdl
      iexact Hdr
    isplitl [Hg]; · iexact Hg
    isplitl [Hk]; · iexact Hk
    iexact Ho
  iempintro

set_option backward.isDefEq.respectTransparency.types false in
/-- Region 1 over the same thread state: its arrays are dealt out of the long-lived buffers at entry (`entry1`) and
    put back at their final contents at exit (`exit1`); every long-lived buffer is one of its arrays, so nothing
    bypasses it; the generator register passes through the region's invariant, which also carries the accumulator. -/
def reg1 : Pipeline.RegionSeg (pcfgs (F := F)) Gen.adm (pdats m) () defs₀ 𝒱₀ Lh lvh 1 where
  win := winFacts₀1
  block_pos := block_pos1
  stage_whole := stage_whole1
  K := PEmpty
  osem k := k.elim
  ho := Pipeline.OwnSemFacts.none _
  hbody c := (body_obligation1 (Vb m) c).loose
  hwaits := Pipeline.hwaits_of_owed_zero _ _ _ _ Lh lvh 1 fun _ _ => rfl
  pre c := iprop(StableHlo.held (c : Thread nD τ) (Pipeline.ucRefs τ sig) (Wb m c) ∗ Rh c)
  post c := iprop(StableHlo.held (c : Thread nD τ) (Pipeline.ucRefs τ sig) (We m c) ∗ Rh c)
  X c := iprop(∃ r, prngReg c r)
  Y c := iprop(∃ r, prngReg c r)
  Z c := iprop(emp)
  hentry c := by
    rw [Pipeline.ownSems0_none]
    iintro ⟨⟨Hbufs, Hreg, Howe⟩, -, -⟩
    ihave Harr := (entry1 m c) $$ Hbufs
    imodintro
    isplitl [Harr]; · iexact Harr
    isplitr
    · unfold Pipeline.prefHeld; rw [show (Finset.univ : Finset (Fin 0)) = ∅ from rfl, BI.bigSep_empty]; iempintro
    isplitl [Howe]
    · unfold Pipeline.Dat.owesAt Pipeline.owesWithin
      icases Howe with ⟨%W, Howe⟩
      iexists W; isplitr; · ipureintro; exact fun _ _ => Or.inl trivial
      iexact Howe
    isplitl [Hreg]; · iexact Hreg
    iempintro
  hin c := by
    rw [show (pdats m 1 c).Φ 0 = Pipeline.ΦA spec1 c from rfl]; unfold Pipeline.ΦA
    iintro ⟨Hreg, -, Hsc⟩
    isplitl [Hsc]; · iexact Hsc
    iexact Hreg
  hout c := by
    rw [Pipeline.ownSems0_none]
    have hgive : (Pipeline.ΦA spec1 c : sProp 𝕄) ⊢ iprop((∃ r, prngReg c r) ∗ BI.emp ∗ Pipeline.scopedRest (Ix := Unit) (Name := ℕ) (U := UR sig nD τ) (Lvl := ℕ) (Val := Elt F) spec1 c) := by
      unfold Pipeline.ΦA
      iintro ⟨Hsc, Hreg⟩
      isplitl [Hreg]; · iexact Hreg
      isplitr; · iempintro
      iexact Hsc
    exact (hout1 (Vb m) c).trans hgive
  hexit c := by
    iintro ⟨Harr, Howe, Hreg, -⟩
    imodintro
    isplitl [Harr]
    · iapply (exit1 m c); iexact Harr
    isplitl [Hreg]; · iexact Hreg
    unfold Pipeline.Dat.owesAt Pipeline.owesWithin
    icases Howe with ⟨%W, -, Howe⟩; iexists W; iexact Howe

/-! ## The launch's pieces -/

/-- The rest state beside the buffers at every boundary. -/
abbrev Eh : Fin 3 → Dev nD → sProp 𝕄 := fun _ c => Rh c

/-- The launch element: the pipelines' cells and duty tokens, nothing else. -/
abbrev u0h : UR sig nD τ := initOf (Pipeline.cells cfgs cellOf_inj) (Pipeline.launchToks cfgs cellOf_inj)

theorem hu0h : (ownU u0h : sProp 𝕄) ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core makes the first rest state: the generator register, and nothing owed. -/
theorem hE0h (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lh lvh)
      ⊢ (|={Set.univ}=> bigSep Finset.univ (Eh (F := F) 0) : sProp 𝕄) := by
  refine Pipeline.initEach Lh lvh fun c => ?_
  iintro ⟨⟨-, Howe, -, Hreg, -⟩, -⟩
  imodintro
  isplitl [Hreg]; · iexists _; iexact Hreg
  iexists ∅; iexact Howe

theorem hE2h (c : Dev nD) : Eh (F := F) 2 c ⊢ (iprop(∃ W, owes (c : Thread nD τ) (0 : CellTallies nD τ sig Unit) W) : sProp 𝕄) := by
  iintro ⟨-, Howe⟩; iexact Howe

/-! ## The frame -/

/-- Every weakly fair execution of the program terminates, faulting nowhere, with the three arguments as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Gen.frame_cond m emb₁ () 𝒱₀ Lh lvh (fun _ _ => rfl) ρ (outsH m) (pdats m) 0 (fun _ => BI.emp) u0h (hu0h (F := F)) (Eh (F := F)) (hE0h (F := F) ρ) (hE2h (F := F))
    (reg0 m) (fun _ => .rfl) (fun c => by rw [V1_eq]; exact .rfl)
    (reg1 m) (fun c => by rw [V1_eq]; exact .rfl) (fun c => by rw [V2_eq]; exact .rfl)

end Cert.Kernel.Hand

end
-- ==== Proof.IdealDat0.lean ====
/-
  Region 0 (the row-sum pass) as the pipeline sees it: at grid point t the input window holds rows
  128 t .. 128 t + 127 of the adjacency, all batches and all columns; the body leaves in the first output window the
  degree scaling of those rows and in the second their diagonal entries, both as pure functions of that block.
-/
import proofs.«106363_j29145648070885_1_alg».proof.Proof.Gen.KernelIdeal.Launch
import proofs.«106363_j29145648070885_1_alg».proof.Proof.Gen.KernelIdeal.Skeleton
import proofs.«106363_j29145648070885_1_alg».proof.Proof.Gen.KernelIdeal.Points
import Idealize.ShloMosaic.Lib.Pipeline.FrameBody
import Idealize.ShloMosaic.Lib.Pipeline.Frame

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

-- the contents of the core's buffers when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: the arrays as found; after the body the adjacency block stays, the degree window holds the
    scaling of the block's rows and the diagonal window their diagonal entries; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay2 (grid0.coords t) (iblk0 V c 0 t)
    | ⟨2, _⟩ => k0_pay1 (grid0.coords t) (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = k0_pay2 (grid0.coords t) (iblk0 V c 0 t) := by dsimp only [dat0]
theorem after0_2 (c : Dev nD) (t : Fin cfg0.N) : (dat0 V c).after 2 t = k0_pay1 (grid0.coords t) (iblk0 V c 0 t) := by dsimp only [dat0]

end Cert.KernelIdeal.Hand

end
-- ==== Proof.IdealDat1.lean ====
/-
  Region 1 (the aggregation pass) as the pipeline sees it. Its grid is 8 x 2: point t = 2 i + j handles node rows
  256 i .. 256 i + 255 and neighbour columns 1024 j .. 1024 j + 1023. A scratch accumulator is zeroed at j = 0,
  receives the block product  adj-block x (x-block scaled by d)  at every point, and at j = 1 is corrected, scaled,
  projected and rectified into the output window. So after an even point the accumulator holds one block product,
  after an odd point the sum of the two, and the output window is written at odd points only.
-/
import proofs.«106363_j29145648070885_1_alg».proof.Proof.Gen.KernelIdeal.Launch
import proofs.«106363_j29145648070885_1_alg».proof.Proof.Gen.KernelIdeal.Skeleton
import proofs.«106363_j29145648070885_1_alg».proof.Proof.Gen.KernelIdeal.Points
import Idealize.ShloMosaic.Lib.Pipeline.FrameBody
import Idealize.ShloMosaic.Lib.Pipeline.Frame

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The point before t (t itself at the first point, where it is never used). -/
def prev1 (t : Fin cfg1.N) : Fin cfg1.N := ⟨t.val - 1, Nat.lt_of_le_of_lt (Nat.sub_le _ _) t.isLt⟩

/-- One block product added to an accumulator: the body's middle stretch at point t. -/
def step1 (c : Dev nD) (t : Fin cfg1.N) (a : Vec F S8x256x128 .f32) : Vec F S8x256x128 .f32 :=
  k1_pay2 (iblk1 V c 0 t) (iblk1 V c 1 t) (iblk1 V c 3 t) a

/-- The scratch accumulator after point t: zeroed at even points before the product is added; at odd points it
    carries the even point's product. -/
def acc1 (c : Dev nD) (t : Fin cfg1.N) : Vec F S8x256x128 .f32 :=
  if t.val % 2 = 0 then step1 V c t (k1_pay1 (F := F)) else step1 V c t (step1 V c (prev1 t) (k1_pay1 (F := F)))

/-- What an odd point stores into the output window. -/
def out1 (c : Dev nD) (t : Fin cfg1.N) : Vec F S8x256x128 .f32 :=
  k1_pay3 (iblk1 V c 4 t) (iblk1 V c 5 t) (iblk1 V c 2 t) (acc1 V c t) (iblk1 V c 6 t)

/-- The scratch accumulator as a memref. -/
abbrev scM1 : Memref sig .tc .vmem S8x256x128 .f32 := Memref.whole cc1_scratch0

/-- The other region's staging buffers, which this region never touches: each whole at some contents. -/
def stgRest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The region invariant before position n: before the first point the scoped rest at anything and the generator
    register; afterwards the accumulator at what the point before left, the other scoped buffers at anything, the
    generator register. -/
def Phi1 (c : Dev nD) : (n : ℕ) → n ≤ cfg1.N → sProp 𝕄
  | 0, _ => Pipeline.ΦA spec1 c
  | n + 1, hn => iprop(owns (c : Thread nD τ) scM1 fullShare (acc1 V c ⟨n, hn⟩) ∗ stgRest1 (F := F) c ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(owns (c : Thread nD τ) scM1 fullShare (acc1 V c ⟨n, hn⟩) ∗ stgRest1 (F := F) c ∗ (∃ r, prngReg c r)) := rfl

theorem Phi1_pos (c : Dev nD) (n : ℕ) (h : n ≤ cfg1.N) (hz : n ≠ 0) :
    Phi1 V c n h = iprop(owns (c : Thread nD τ) scM1 fullShare (acc1 V c ⟨n - 1, by omega⟩) ∗ stgRest1 (F := F) c ∗ (∃ r, prngReg c r)) := by
  cases n with
  | zero => exact absurd rfl hz
  | succ n => rfl

/-- Region 1's proof data. The features' array feeds windows 1 and 2, the degree array windows 3 and 4: each pair
    shares its array's read permission half and half. After the body every input block stays; the output window
    holds `out1` (read only where the point writes it back: the odd points). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1 V c t
  Φ t := Phi1 V c t.val (Nat.le_of_lt_succ t.isLt)
  q w := match w with
    | ⟨1, _⟩ => fullShare.left
    | ⟨2, _⟩ => fullShare.right
    | ⟨3, _⟩ => fullShare.left
    | ⟨4, _⟩ => fullShare.right
    | _ => fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1 V c t := by dsimp only [dat1]

end Cert.KernelIdeal.Hand

end
-- ==== Proof.IdealBody0.lean ====
/-
  Region 0's body at one grid point: it loads the adjacency block, and stores the degree scaling of the block's rows
  and their diagonal entries into the two output windows, leaving the block as it was.
-/
import proofs.«106363_j29145648070885_1_alg».proof.Proof.IdealDat0
import Idealize.ShloMosaic.Lib.Pipeline.Value
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the input window's buffer holds when the body runs -/

/-- The adjacency window is fetched at every grid point and its blocks are never cut, so whatever its staging buffer
    held before, at point `t` it holds block `t` of the adjacency array as the region found it. -/
theorem b0_before_in (c : Dev nD) (t : Fin cfg0.N) (d) : (dat0 V c).before 0 t d = iblk0 V c 0 t := by
  rw [(dat0 V c).before_fetched 0 t (fetch0_0 t) d]
  unfold Dat.fetched Dat.blockOf iblk0
  rw [A_eq0]
  rfl

/-! ## Whole-buffer accesses: offsets all zero, extents the buffer's own -/

/-- The literal pair of zero offsets is the constant-zero offset function on a rank-2 shape. -/
theorem b0_zero2 : (![0, 0] : Fin S8x128.rank → Nat) = fun _ => 0 := by
  funext a; fin_cases a <;> rfl

/-- The literal triple of zero offsets is the constant-zero offset function on a rank-3 shape. -/
theorem b0_zero3 : (![0, 0, 0] : Fin S8x128x2048.rank → Nat) = fun _ => 0 := by
  funext a; fin_cases a <;> rfl

/-- A load through the rectangle that starts at the origin and spans the whole [8,128,2048] shape is the identity on
    indices, so it reads exactly the contents seen through the view. -/
theorem b0_load_whole {κ : Kind} {sp : Space} (v : View sig κ sp S8x128x2048 .f32) (f : v.ty.Contents (Elt F)) :
    View.readAt (Elt F) v (Rect.unit (s := S8x128x2048) ![0, 0, 0] S8x128x2048.size inb_S8x128x2048_S8x128x2048_0_0_0).toLoadRect f
      = v.read (Elt F) f := by
  rw [View.readAt_eq_ld]
  exact View.ld_unit_zero b0_zero3 _ _

/-- One store through the rectangle that starts at the origin and spans the whole [8,128] shape covers every index,
    so afterwards the view reads the stored payload and nothing of the earlier contents. -/
theorem b0_store_whole {κ : Kind} {sp : Space} (v : View sig κ sp S8x128 .f32) (f : v.ty.Contents (Elt F))
    (w : S8x128.Idx → Elt F .f32) :
    v.read (Elt F) (v.writes (Elt F) f [⟨Rect.unit (s := S8x128) ![0, 0] S8x128.size inb_S8x128_S8x128_0_0, w⟩]) = w := by
  rw [View.read_writes_eq_canon _ _ _
    (fun y => ⟨_, List.mem_singleton_self _, View.mem_set_unit_zero b0_zero2 inb_S8x128_S8x128_0_0 y⟩)]
  exact View.canon_unit_zero b0_zero2 _ w

/-! ## The body's triple on arbitrary whole buffers -/

set_option maxHeartbeats 1000000 in
/-- On three whole buffers, the first reading `x0` and the other two holding anything, the body reaches its
    continuation with the first buffer still reading `x0`, the second reading the degree scaling of `x0` and the
    third reading the diagonal entries of `x0`. The body reads the input once; its reads of the two outputs are
    discarded; each output then receives one store over its whole extent, which determines its contents. -/
theorem b0_sound_kernel (c : Dev nD) (E : Set ℕ) (i : grid0.Coords)
    (arg1 : Memref sig .tc .vmem S8x128x2048 .f32) (harg1 : arg1.IsWhole)
    (arg2 : Memref sig .tc .vmem S8x128 .f32) (harg2 : arg2.IsWhole)
    (arg3 : Memref sig .tc .vmem S8x128 .f32) (harg3 : arg3.IsWhole)
    (x0 : Vec F S8x128x2048 .f32) (K : PUnit → sProp 𝕄) :
    iprop(owns (c : Thread nD τ) arg1 fullShare x0
        ∗ (∃ d, owns (c : Thread nD τ) arg2 fullShare d)
        ∗ (∃ d, owns (c : Thread nD τ) arg3 fullShare d)
        ∗ (iprop(owns (c : Thread nD τ) arg1 fullShare x0
              ∗ owns (c : Thread nD τ) arg2 fullShare (k0_pay2 i x0)
              ∗ owns (c : Thread nD τ) arg3 fullShare (k0_pay1 i x0)) -∗ K ⟨⟩))
      ⊢ wp frame (wpE (defs₀ (F := F)) Variants.none c none) E (cc0__rowsum_kernel i arg1 harg1 arg2 harg2 arg3 harg3) K := by
  simp only [cc0__rowsum_kernel_eq_skeleton]; unfold cc0__rowsum_kernel_skel
  unfold owns
  iintro ⟨⟨%f0, %hf0, H0⟩, ⟨%d1, %f1, -, H1⟩, ⟨%d2, %f2, -, H2⟩, Hk⟩
  subst hf0
  sl_exec
  sl_step
  iapply Hk
  -- the input buffer is untouched
  isplitl [H0]
  · iexists f0; isplitr
    · ipureintro; rfl
    iexact H0
  -- first output: the whole-extent store of the degree scaling of what the whole-extent load read
  isplitl [H1]
  · iexists _; isplitr
    swap; · iexact H1
    ipureintro
    rw [b0_store_whole, b0_load_whole]
  -- second output: likewise with the diagonal entries
  · iexists _; isplitr
    swap; · iexact H2
    ipureintro
    rw [b0_store_whole, b0_load_whole]

/-! ## The obligation at a generic grid point -/

/-- What the body is handed at point `t`: the invariant, the core's debts, and each window's current buffer. -/
def b0_pre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it hands back: the same invariant and debts, and each buffer at what the proof data says the body leaves. -/
def b0_post (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At any point the input buffer holds the point's adjacency block, the two output buffers hold something, and the
    invariant and debts do not depend on the point; so the triple above applies with `x0` the block, and what it leaves
    is, window by window, what the proof data records. -/
theorem b0_sound_body (c : Dev nD) (t : Fin cfg0.N) :
    b0_pre V c t ⊢ wp frame (wpE (defs₀ (F := F)) Variants.none c none) Set.univ (bodyAt0 t) (fun _ => b0_post V c t) := by
  unfold b0_pre b0_post bodyAt0
  simp only [b0_before_in]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (b0_sound_kernel c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation for region 0's body, at every grid point. -/
theorem body_obligation0 (c : Dev nD) : BodyObligation (dat0 (F := F) V c) (defs₀ (F := F)) Variants.none () Set.univ := fun t => by
  rw [bigSep_W0, bigSep_W0]
  exact b0_sound_body V c t

end Cert.KernelIdeal.Hand

end
-- ==== Proof.IdealBody1.lean ====
/-
  Region 1's body at one grid point, by the parity of the point: at an even point the accumulator is zeroed and one
  block product added; at an odd point a second block product is added and the corrected, scaled, projected and
  rectified rows are stored into the output window.
-/
import proofs.«106363_j29145648070885_1_alg».proof.Proof.IdealDat1
import Idealize.ShloMosaic.Lib.Tactic
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Whole-buffer loads and stores

Every load and store of the body goes through the full rectangle of its buffer at zero offsets: such a load reads the
buffer's contents, and after such a store the buffer reads as the stored value, whatever was stored before. -/

/-- A load of a whole buffer through the full rectangle at zero offsets reads its contents. -/
theorem readAt_whole_unit1 {sp : Space} {S : Shape} {e : EltTy} {m : Memref sig .tc sp S e} (h : m.IsWhole)
    (X : S.Idx → Elt F e) {off : Fin S.rank → Nat} (hoff : off = fun _ => 0) (inb : ∀ a, off a + S.size a ≤ S.size a) :
    View.readAt (Elt F) m.view (Rect.unit off S.size inb).toLoadRect (h.unread X) = X := by
  subst hoff; funext x
  refine (congrFun (Memref.IsWhole.read_unread h X) _).trans ?_
  show X ((Rect.whole S).emb x) = X x
  rw [Rect.emb_whole_apply]

/-- After a last store through the full rectangle at zero offsets the buffer reads as that store's value. -/
theorem read_writes_cons_unit_zero1 [∀ e, Nonempty (Elt F e)] {sp : Space} {S : Shape} {e : EltTy} (v : View sig .tc sp S e)
    (f : v.ty.Contents (Elt F)) {off : Fin S.rank → Nat} (hoff : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hoff inb y⟩),
    View.canon_cons_unit_zero hoff inb w L]

/-- The zero offsets, on three axes and on two. -/
theorem zeros3_1 : (![0, 0, 0] : Fin 3 → Nat) = fun _ => 0 := by funext a; fin_cases a <;> rfl
theorem zeros2_1 : (![0, 0] : Fin 2 → Nat) = fun _ => 0 := by funext a; fin_cases a <;> rfl

/-! ## The body's two conditionals

The first tests the second grid coordinate against 0 (zero the accumulator), the second against 1 (finalise and store
the output). On the 8 x 2 grid, second coordinate fastest, they hold exactly at the even and at the odd points. -/

abbrev cond1_Z (i : grid1.Coords) : Prop := (Scalar.cmpi .ne (Scalar.extui (Scalar.cmpi .eq (BitVec.ofNat 32 (i 1).val) 0#32)) 0#32) = 1#1
abbrev cond1_F (i : grid1.Coords) : Prop := k1_cond2 i = 1#1

theorem hcond1_Z : ∀ t : Fin cfg1.N, cond1_Z (grid1.coords t) ↔ t.val % 2 = 0 :=
  (by decide +kernel : ∀ t : Fin grid1.N, cond1_Z (grid1.coords t) ↔ t.val % 2 = 0)
theorem hcond1_F : ∀ t : Fin cfg1.N, cond1_F (grid1.coords t) ↔ t.val % 2 = 1 :=
  (by decide +kernel : ∀ t : Fin grid1.N, cond1_F (grid1.coords t) ↔ t.val % 2 = 1)

/-! ## The body on any whole memrefs, by the point's parity

Stated over arbitrary contents of the right shapes; the buffers the body does not touch in a case are not mentioned
and pass through unchanged. -/

set_option maxHeartbeats 1000000 in
/-- At a point whose second coordinate is 0: the accumulator, at anything, ends at zeros plus the block product; the
    three operands of the product are left as found. -/
theorem run1_even [∀ e, Nonempty (Elt F e)] (c : Dev nD) (i : grid1.Coords) (arg2 : Memref sig .tc .vmem S8x256x1024 .f32) (harg2 : arg2.IsWhole) (arg3 : Memref sig .tc .vmem S8x1024x128 .f32) (harg3 : arg3.IsWhole) (arg4 : Memref sig .tc .vmem S8x256x128 .f32) (harg4 : arg4.IsWhole) (arg5 : Memref sig .tc .vmem S8x1024 .f32) (harg5 : arg5.IsWhole) (arg6 : Memref sig .tc .vmem S8x256 .f32) (harg6 : arg6.IsWhole) (arg7 : Memref sig .tc .vmem S8x256 .f32) (harg7 : arg7.IsWhole) (arg8 : Memref sig .tc .vmem S128x128 .f32) (harg8 : arg8.IsWhole) (arg9 : Memref sig .tc .vmem S8x256x128 .f32) (harg9 : arg9.IsWhole) (arg10 : Memref sig .tc .vmem S8x256x128 .f32) (harg10 : arg10.IsWhole)
    (hz : cond1_Z i) (hf : ¬cond1_F i)
    (a : Vec F S8x256x1024 .f32) (x : Vec F S8x1024x128 .f32) (d : Vec F S8x1024 .f32)
    (E : Set ℕ) (K : PUnit → sProp 𝕄) :
    iprop(owns (c : Thread nD τ) arg2 fullShare a ∗ owns (c : Thread nD τ) arg3 fullShare x ∗ owns (c : Thread nD τ) arg5 fullShare d
        ∗ (∃ s, owns (c : Thread nD τ) arg10 fullShare s)
        ∗ (iprop(owns (c : Thread nD τ) arg2 fullShare a ∗ owns (c : Thread nD τ) arg3 fullShare x ∗ owns (c : Thread nD τ) arg5 fullShare d
            ∗ owns (c : Thread nD τ) arg10 fullShare (k1_pay2 a x d (k1_pay1 (F := F)))) -∗ K ⟨⟩))
      ⊢ wp frame (wpE (defs₀ (F := F)) Variants.none c none) E (cc1__main_kernel i arg2 harg2 arg3 harg3 arg4 harg4 arg5 harg5 arg6 harg6 arg7 harg7 arg8 harg8 arg9 harg9 arg10 harg10) K := by
  simp only [cc1__main_kernel_eq_skeleton]; unfold cc1__main_kernel_skel
  unfold owns
  iintro ⟨⟨%f2, %hf2, H2⟩, ⟨%f3, %hf3, H3⟩, ⟨%f5, %hf5, H5⟩, ⟨%s, %fs, %hfs, HS⟩, Hk⟩
  obtain rfl := harg2.eq_unread hf2; obtain rfl := harg3.eq_unread hf3; obtain rfl := harg5.eq_unread hf5
  sl_exec (disch := first | exact hz | exact hf)
  sl_unfold_run_names
  sl_step
  iapply Hk
  isplitl [H2]
  · iexists _; isplitr; · ipureintro; exact harg2.read_unread _
    iexact H2
  isplitl [H3]
  · iexists _; isplitr; · ipureintro; exact harg3.read_unread _
    iexact H3
  isplitl [H5]
  · iexists _; isplitr; · ipureintro; exact harg5.read_unread _
    iexact H5
  iexists _; isplitr
  swap; · iexact HS
  ipureintro
  rw [read_writes_cons_unit_zero1 (S := S8x256x128) _ _ zeros3_1, readAt_whole_unit1 (S := S8x256x1024) harg2 a zeros3_1,
    readAt_whole_unit1 (S := S8x1024x128) harg3 x zeros3_1, readAt_whole_unit1 (S := S8x1024) harg5 d zeros2_1,
    View.readCov_cons_toLoadRect]

set_option maxHeartbeats 1000000 in
/-- At a point whose second coordinate is 1: the accumulator ends at what it held plus the block product, and the
    output buffer, at anything, ends at the finalisation of that sum; every input is left as found. -/
theorem run1_odd [∀ e, Nonempty (Elt F e)] (c : Dev nD) (i : grid1.Coords) (arg2 : Memref sig .tc .vmem S8x256x1024 .f32) (harg2 : arg2.IsWhole) (arg3 : Memref sig .tc .vmem S8x1024x128 .f32) (harg3 : arg3.IsWhole) (arg4 : Memref sig .tc .vmem S8x256x128 .f32) (harg4 : arg4.IsWhole) (arg5 : Memref sig .tc .vmem S8x1024 .f32) (harg5 : arg5.IsWhole) (arg6 : Memref sig .tc .vmem S8x256 .f32) (harg6 : arg6.IsWhole) (arg7 : Memref sig .tc .vmem S8x256 .f32) (harg7 : arg7.IsWhole) (arg8 : Memref sig .tc .vmem S128x128 .f32) (harg8 : arg8.IsWhole) (arg9 : Memref sig .tc .vmem S8x256x128 .f32) (harg9 : arg9.IsWhole) (arg10 : Memref sig .tc .vmem S8x256x128 .f32) (harg10 : arg10.IsWhole)
    (hz : ¬cond1_Z i) (hf : cond1_F i)
    (a : Vec F S8x256x1024 .f32) (x : Vec F S8x1024x128 .f32) (xn : Vec F S8x256x128 .f32) (d : Vec F S8x1024 .f32)
    (dn : Vec F S8x256 .f32) (dg : Vec F S8x256 .f32) (wt : Vec F S128x128 .f32) (acc : Vec F S8x256x128 .f32)
    (E : Set ℕ) (K : PUnit → sProp 𝕄) :
    iprop(owns (c : Thread nD τ) arg2 fullShare a ∗ owns (c : Thread nD τ) arg3 fullShare x ∗ owns (c : Thread nD τ) arg4 fullShare xn
        ∗ owns (c : Thread nD τ) arg5 fullShare d ∗ owns (c : Thread nD τ) arg6 fullShare dn ∗ owns (c : Thread nD τ) arg7 fullShare dg
        ∗ owns (c : Thread nD τ) arg8 fullShare wt ∗ (∃ o, owns (c : Thread nD τ) arg9 fullShare o)
        ∗ owns (c : Thread nD τ) arg10 fullShare acc
        ∗ (iprop(owns (c : Thread nD τ) arg2 fullShare a ∗ owns (c : Thread nD τ) arg3 fullShare x ∗ owns (c : Thread nD τ) arg4 fullShare xn
            ∗ owns (c : Thread nD τ) arg5 fullShare d ∗ owns (c : Thread nD τ) arg6 fullShare dn ∗ owns (c : Thread nD τ) arg7 fullShare dg
            ∗ owns (c : Thread nD τ) arg8 fullShare wt
            ∗ owns (c : Thread nD τ) arg9 fullShare (k1_pay3 dn dg xn (k1_pay2 a x d acc) wt)
            ∗ owns (c : Thread nD τ) arg10 fullShare (k1_pay2 a x d acc)) -∗ K ⟨⟩))
      ⊢ wp frame (wpE (defs₀ (F := F)) Variants.none c none) E (cc1__main_kernel i arg2 harg2 arg3 harg3 arg4 harg4 arg5 harg5 arg6 harg6 arg7 harg7 arg8 harg8 arg9 harg9 arg10 harg10) K := by
  simp only [cc1__main_kernel_eq_skeleton]; unfold cc1__main_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%o, %fo, %hfo, HO⟩, ⟨%fs, %hfs, HS⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg10.eq_unread hfs
  sl_exec (disch := first | exact hz | exact hf)
  sl_unfold_run_names
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [HO]
  · iexists _; isplitr
    swap; · iexact HO
    ipureintro
    rw [read_writes_cons_unit_zero1 (S := S8x256x128) _ _ zeros3_1, View.readCov_cons_toLoadRect,
      readAt_whole_unit1 (S := S8x256x1024) harg2 a zeros3_1, readAt_whole_unit1 (S := S8x1024x128) harg3 x zeros3_1,
      readAt_whole_unit1 (S := S8x256x128) harg4 xn zeros3_1, readAt_whole_unit1 (S := S8x1024) harg5 d zeros2_1,
      readAt_whole_unit1 (S := S8x256) harg6 dn zeros2_1, readAt_whole_unit1 (S := S8x256) harg7 dg zeros2_1,
      readAt_whole_unit1 (S := S128x128) harg8 wt zeros2_1, readAt_whole_unit1 (S := S8x256x128) harg10 acc zeros3_1]
  iexists _; isplitr
  swap; · iexact HS
  ipureintro
  rw [read_writes_cons_unit_zero1 (S := S8x256x128) _ _ zeros3_1,
    readAt_whole_unit1 (S := S8x256x1024) harg2 a zeros3_1, readAt_whole_unit1 (S := S8x1024x128) harg3 x zeros3_1,
    readAt_whole_unit1 (S := S8x1024) harg5 d zeros2_1, readAt_whole_unit1 (S := S8x256x128) harg10 acc zeros3_1]

-- the contents of the core's buffers when the region is entered
variable (V : (c : Dev nD) → (b : Ref sig .tc) → Buf (Elt F) ((c : Thread nD τ).loc b))

/-! ## Each input's staging buffer holds its block

Fetched at the point or not: an input is never stored into, and where it is not fetched its block index has not moved. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-! ## Where the output window is idle

Idle exactly where the second conditional fails, the even points; written back exactly at the odd points. -/

theorem idle7_even : ∀ t : Fin cfg1.N, t.val % 2 = 0 → cfg1.idle 7 (grid1.coords t) = true :=
  (by decide +kernel : ∀ t : Fin grid1.N, t.val % 2 = 0 → cfg1.idle 7 (grid1.coords t) = true)
theorem idle7_odd : ∀ t : Fin cfg1.N, t.val % 2 = 1 → cfg1.idle 7 (grid1.coords t) = false :=
  (by decide +kernel : ∀ t : Fin grid1.N, t.val % 2 = 1 → cfg1.idle 7 (grid1.coords t) = false)
theorem noflush7_even (t : Fin cfg1.N) (h : t.val % 2 = 0) : (cfg1.win 7).flush t = false := by
  cases hfl : (cfg1.win 7).flush t with
  | false => rfl
  | true => have := (flush1_7 t).mp hfl; omega

/-! ## The staging memrefs at a point, each at its literal shape -/

abbrev ms1_0 (t : Fin cfg1.N) : Memref sig .tc .vmem S8x256x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x256x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S8x256x128 .f32 := win1_7.stage (cfg1.slots t 7)
abbrev hs1_7 (t : Fin cfg1.N) : (ms1_7 t).IsWhole := hstage1_7 ((cfg1.slots t 7).cast nbuf1_7)

/-! ## The accumulator, by the parity of the point

After an even point: zeros plus that point's product. After an odd point: what the point before left plus this point's product. -/

theorem acc1_even (c : Dev nD) (t : Fin cfg1.N) (h : t.val % 2 = 0) : acc1 V c t = step1 V c t (k1_pay1 (F := F)) := by
  unfold acc1; rw [if_pos h]

theorem acc1_odd (c : Dev nD) (t : Fin cfg1.N) (h : t.val % 2 = 1) : acc1 V c t = step1 V c t (acc1 V c (prev1 t)) := by
  have h0 : ¬t.val % 2 = 0 := by omega
  have h' : (prev1 t).val % 2 = 0 := by show (t.val - 1) % 2 = 0; omega
  rw [acc1_even V c (prev1 t) h']; unfold acc1; rw [if_neg h0]

/-! ## The invariant before the first point, with the accumulator's buffer singled out

The scoped rest is the other region's six staging buffers and the accumulator's buffer, each at some contents; the two
entailments only regroup that separating conjunction. -/

theorem PhiA1_open (c : Dev nD) : (Pipeline.ΦA spec1 c : sProp 𝕄)
    ⊢ iprop((∃ s, owns (c : Thread nD τ) scM1 fullShare s) ∗ stgRest1 (F := F) c ∗ (∃ r, prngReg c r)) := by
  unfold Pipeline.ΦA stgRest1; rw [scopedRest1_eq]; simp only [scM1, owns_whole]
  iintro ⟨⟨A1, A2, A3, A4, A5, A6, HS⟩, Hg⟩
  isplitl [HS]; · iexact HS
  isplitl [A1 A2 A3 A4 A5 A6]
  · isplitl [A1]; · iexact A1
    isplitl [A2]; · iexact A2
    isplitl [A3]; · iexact A3
    isplitl [A4]; · iexact A4
    isplitl [A5]; · iexact A5
    iexact A6
  iexact Hg

theorem PhiA1_close (c : Dev nD) : iprop((∃ s, owns (c : Thread nD τ) scM1 fullShare s) ∗ stgRest1 (F := F) c ∗ (∃ r, prngReg c r))
    ⊢ (Pipeline.ΦA spec1 c : sProp 𝕄) := by
  unfold Pipeline.ΦA stgRest1; rw [scopedRest1_eq]; simp only [scM1, owns_whole]
  iintro ⟨HS, ⟨A1, A2, A3, A4, A5, A6⟩, Hg⟩
  isplitl [A1 A2 A3 A4 A5 A6 HS]
  · isplitl [A1]; · iexact A1
    isplitl [A2]; · iexact A2
    isplitl [A3]; · iexact A3
    isplitl [A4]; · iexact A4
    isplitl [A5]; · iexact A5
    isplitl [A6]; · iexact A6
    iexact HS
  iexact Hg

/-! ## The body obligation at a point -/

/-- What the body is handed at point t: the invariant, what the core owes, each window's staging buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- What it gives back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4000000 in
/-- The body at any point, by the point's parity and, at an even point, by whether it is the first. -/
theorem sound_body1 [∀ e, Nonempty (Elt F e)] (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0 V, before1_1 V, before1_2 V, before1_3 V, before1_4 V, before1_5 V, before1_6 V]
  rw [show (dat1 V c).owesAt () t.succ = (dat1 V c).owesAt () t.castSucc from rfl]
  rw [show (dat1 V c).Φ t.succ = iprop(owns (c : Thread nD τ) scM1 fullShare (acc1 V c t) ∗ stgRest1 (F := F) c ∗ (∃ r, prngReg c r)) from rfl]
  rw [show (dat1 V c).leavesExact 0 t = owns (c : Thread nD τ) (ms1_0 t) fullShare (iblk1 V c 0 t) from rfl]
  rw [show (dat1 V c).leavesExact 1 t = owns (c : Thread nD τ) (ms1_1 t) fullShare (iblk1 V c 1 t) from rfl]
  rw [show (dat1 V c).leavesExact 2 t = owns (c : Thread nD τ) (ms1_2 t) fullShare (iblk1 V c 2 t) from rfl]
  rw [show (dat1 V c).leavesExact 3 t = owns (c : Thread nD τ) (ms1_3 t) fullShare (iblk1 V c 3 t) from rfl]
  rw [show (dat1 V c).leavesExact 4 t = owns (c : Thread nD τ) (ms1_4 t) fullShare (iblk1 V c 4 t) from rfl]
  rw [show (dat1 V c).leavesExact 5 t = owns (c : Thread nD τ) (ms1_5 t) fullShare (iblk1 V c 5 t) from rfl]
  rw [show (dat1 V c).leavesExact 6 t = owns (c : Thread nD τ) (ms1_6 t) fullShare (iblk1 V c 6 t) from rfl]
  rw [Phi1_castSucc V c t]
  by_cases h : t.val % 2 = 0
  · -- an even point: the accumulator is zeroed, one block product added; the output window is left as found
    have hzc : cond1_Z (grid1.coords t) := (hcond1_Z t).mpr h
    have hfc : ¬cond1_F (grid1.coords t) := fun hc => by have := (hcond1_F t).mp hc; omega
    rw [Dat.leavesExact_idle (dat1 V c) 7 t (idle7_even t h) (noflush7_even t h)]
    rw [acc1_even V c t h]; unfold step1
    by_cases hz : t.val = 0
    · rw [Phi1_zero V c _ _ hz]
      iintro ⟨HP, Ho, ⟨%d0, H0⟩, ⟨%d1, H1⟩, ⟨%d2, H2⟩, ⟨%d3, H3⟩, ⟨%d4, H4⟩, ⟨%d5, H5⟩, ⟨%d6, H6⟩, H7⟩
      ihave HP' := (PhiA1_open c) $$ HP
      icases HP' with ⟨HS, HR, Hg⟩
      iapply (run1_even c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) hzc hfc (iblk1 V c 0 t) (iblk1 V c 1 t) (iblk1 V c 3 t) Set.univ _)
      isplitl [H0]; · iexact H0
      isplitl [H1]; · iexact H1
      isplitl [H3]; · iexact H3
      isplitl [HS]; · iexact HS
      iintro ⟨H0, H1, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Phi1_pos V c _ _ hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, H7⟩
      iapply (run1_even c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) hzc hfc (iblk1 V c 0 t) (iblk1 V c 1 t) (iblk1 V c 3 t) Set.univ _)
      isplitl [H0]; · iexact H0
      isplitl [H1]; · iexact H1
      isplitl [H3]; · iexact H3
      isplitl [HS]; · iexists _; iexact HS
      iintro ⟨H0, H1, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · -- an odd point: the second block product is added to what the even point left, and the result finalised
    have h1 : t.val % 2 = 1 := by omega
    have hzc : ¬cond1_Z (grid1.coords t) := fun hc => h ((hcond1_Z t).mp hc)
    have hfc : cond1_F (grid1.coords t) := (hcond1_F t).mpr h1
    have hz : t.val ≠ 0 := by omega
    rw [show (dat1 V c).leavesExact 7 t = owns (c : Thread nD τ) (ms1_7 t) fullShare ((dat1 V c).after 7 t) from by
      unfold Dat.leavesExact; rw [idle7_odd t h1], after1_7]
    unfold out1
    rw [Phi1_pos V c _ _ hz, acc1_odd V c t h1]; unfold step1
    iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run1_odd c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) hzc hfc (iblk1 V c 0 t) (iblk1 V c 1 t) (iblk1 V c 2 t) (iblk1 V c 3 t) (iblk1 V c 4 t) (iblk1 V c 5 t) (iblk1 V c 6 t) (acc1 V c (prev1 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The pipeline's obligation for region 1's body, at every grid point. -/
theorem body_obligation1 [∀ e, Nonempty (Elt F e)] (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = Phi1 V c 0 (Nat.zero_le _) from rfl, Phi1_zero V c 0 _ rfl]

/-- After the last point the invariant gives the scoped rest and the generator register back. -/
theorem hout1 (c : Dev nD) : (dat1 V c).Φ (Fin.last cfg1.N) ⊢ (Pipeline.ΦA spec1 c : sProp 𝕄) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 16 := N_1; omega)]
  iintro ⟨HS, HR, Hg⟩
  iapply (PhiA1_close c)
  isplitl [HS]; · iexists _; iexact HS
  isplitl [HR]; · iexact HR
  iexact Hg

end Cert.KernelIdeal.Hand

end
-- ==== Proof.IdealRun.lean ====
/-
  The whole program as two regions in sequence. Region 0 turns the adjacency into the degree-scaling and diagonal
  arrays; region 1 reads those two beside the three arguments and writes the result array. Between the regions each
  core holds every long-lived buffer whole: the arguments as launched, the two intermediate arrays at what region 0's
  write-backs left, and after region 1 the result array at what its write-backs left.
-/
import proofs.«106363_j29145648070885_1_alg».proof.Proof.IdealDat0
import proofs.«106363_j29145648070885_1_alg».proof.Proof.IdealDat1
import proofs.«106363_j29145648070885_1_alg».proof.Proof.IdealBody0
import proofs.«106363_j29145648070885_1_alg».proof.Proof.IdealBody1
import proofs.«106363_j29145648070885_1_alg».proof.Proof.Gen.KernelIdeal.Regions
import Idealize.ShloMosaic.Lib.Pipeline.RegionsLoop
import Idealize.ShloMosaic.Lib.Pipeline.Kit

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [∀ e, Nonempty (Elt F e)]

local notation "𝕄" => MT nD τ sig Unit (Elt F) ℕ (UR sig nD τ) ℕ

variable (m : (ℓ : Loc nD τ sig) → Buf (Elt F) ℓ)

/-! ## The buffers' contents at the two region boundaries -/

/-- What region 0 finds: the launch contents. -/
abbrev Va (c : Dev nD) (b : Ref sig .tc) : Buf (Elt F) ((c : Thread nD τ).loc b) := Gen.V0 m c b

/-- The degree-scaling array as region 0's write-backs leave it. -/
def dArr (c : Dev nD) : Buf (Elt F) ((c : Thread nD τ).loc main_v0_0) := (dat0 (Va m) c).arrAt 1 cfg0.N
/-- The diagonal array as region 0's write-backs leave it. -/
def gArr (c : Dev nD) : Buf (Elt F) ((c : Thread nD τ).loc main_v0_1) := (dat0 (Va m) c).arrAt 2 cfg0.N

/-- Between the regions: the launch contents with the two intermediate arrays at what region 0 left. -/
def Wb (c : Dev nD) : Valuation τ sig (Elt F) :=
  Function.update (Function.update (Gen.V0 m c) main_v0_0 (dArr m c)) main_v0_1 (gArr m c)
/-- What region 1 finds. -/
abbrev Vb (c : Dev nD) (b : Ref sig .tc) : Buf (Elt F) ((c : Thread nD τ).loc b) := Wb m c b

/-- The result array as region 1's write-backs leave it. -/
def oArr (c : Dev nD) : Buf (Elt F) ((c : Thread nD τ).loc main_v1) := (dat1 (Vb m) c).arrAt 7 cfg1.N

/-- At the end: the result array at what region 1 left, everything else as between the regions. -/
def We (c : Dev nD) : Valuation τ sig (Elt F) := Function.update (Wb m c) main_v1 (oArr m c)

/-- What the regions leave in the buffers they may change, as one family. -/
def outsH : Gen.Outs (F := F) := fun j r c => if j = 1 then Wb m c r else We m c r

theorem Wb_v0_0 (c : Dev nD) : Wb m c main_v0_0 = dArr m c := by
  unfold Wb
  rw [Function.update_of_ne (StableHlo.devRef_ne_of_ne (by decide) : (Proc.devRef .tc main_v0_0 : DevRef τ sig) ≠ Proc.devRef .tc main_v0_1), Function.update_self]
theorem Wb_v0_1 (c : Dev nD) : Wb m c main_v0_1 = gArr m c := by
  unfold Wb; rw [Function.update_self]
theorem Wb_of (c : Dev nD) (r : Ref sig .tc) (h0 : r ≠ main_v0_0) (h1 : r ≠ main_v0_1) : Wb m c r = Gen.V0 m c r := by
  unfold Wb
  rw [Function.update_of_ne (StableHlo.devRef_ne_of_ne h1), Function.update_of_ne (StableHlo.devRef_ne_of_ne h0)]
theorem We_v1 (c : Dev nD) : We m c main_v1 = oArr m c := by
  unfold We; rw [Function.update_self]
theorem We_of (c : Dev nD) (r : Ref sig .tc) (h : r ≠ main_v1) : We m c r = Wb m c r := by
  unfold We; rw [Function.update_of_ne (StableHlo.devRef_ne_of_ne h)]

/-- The generated valuation after region 0, at this family, is `Wb`. -/
theorem V1_eq (c : Dev nD) : Gen.V1 m (outsH m) c = Wb m c := by
  show Function.update (Function.update (Gen.V0 m c) main_v0_0 (outsH m 1 main_v0_0 c)) main_v0_1 (outsH m 1 main_v0_1 c) = _
  rw [show outsH m 1 main_v0_0 c = dArr m c from (if_pos rfl).trans (Wb_v0_0 m c),
    show outsH m 1 main_v0_1 c = gArr m c from (if_pos rfl).trans (Wb_v0_1 m c)]
  rfl
/-- The generated valuation after region 1, at this family, is `We`. -/
theorem V2_eq (c : Dev nD) : Gen.V2 m (outsH m) c = We m c := by
  show Function.update (Gen.V1 m (outsH m) c) main_v1 (outsH m 2 main_v1 c) = _
  rw [V1_eq, show outsH m 2 main_v1 c = oArr m c from (if_neg (by decide)).trans (We_v1 m c)]
  rfl

/-! ## The proof data family -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (Va m) c
  | ⟨1, _⟩ => fun c => dat1 (Vb m) c

abbrev 𝒱₀ : Variants := Variants.none
/-- No core owes another anything: no level is assigned. -/
abbrev Lh : GSem nD τ sig → Finset Unit := fun _ => ∅
abbrev lvh : GSem nD τ sig → Unit → ℕ := fun _ _ => 0
/-- What rides beside the buffers between the regions: the generator register at some state, and nothing owed. -/
abbrev Rh (c : Dev nD) : sProp 𝕄 := iprop((∃ r, prngReg c r) ∗ ∃ W, owes (c : Thread nD τ) (0 : CellTallies nD τ sig Unit) W)

/-! ## Region 0 as a segment -/

/-- At region 0's exit each of its arrays holds what the pipeline leaves: the adjacency as entered (an input is never
    written), the two result arrays at their write-backs' contents. -/
theorem hF0 (c : Dev nD) (w : Fin cfg0.W) : (pdats m 0 c).arrAt w cfg0.N = Vb m c (Pipeline.arrRef spec0 w) := by
  match w with
  | ⟨0, _⟩ =>
    show (dat0 (Va m) c).arrAt 0 cfg0.N = Wb m c main_arg1
    rw [(dat0 (Va m) c).arrAt_in 0 rfl, Wb_of m c main_arg1 (by decide) (by decide)]; rfl
  | ⟨1, _⟩ => exact (Wb_v0_0 m c).symm
  | ⟨2, _⟩ => exact (Wb_v0_1 m c).symm

/-- Every other long-lived buffer is as region 0 found it. -/
theorem hrest0 (c : Dev nD) : ∀ b, b ∉ Finset.univ.image (Pipeline.arrRef spec0) → Vb m c b = Va m c b := fun b hb =>
  Wb_of m c b (fun e => hb (Finset.mem_image.mpr ⟨1, Finset.mem_univ _, e.symm⟩))
    (fun e => hb (Finset.mem_image.mpr ⟨2, Finset.mem_univ _, e.symm⟩))

set_option backward.isDefEq.respectTransparency.types false in
/-- Region 0 over the thread state "every long-lived buffer whole at the boundary's contents, the generator register
    at some state, nothing owed": its three arrays are taken out of the buffers at entry and put back at their final
    contents at exit; the generator register passes through the region's invariant. -/
def reg0 : Pipeline.RegionSeg (pcfgs (F := F)) Gen.adm (pdats m) () defs₀ 𝒱₀ Lh lvh 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ Lh lvh 0 fun _ _ => rfl
  pre c := iprop(StableHlo.held (c : Thread nD τ) (Pipeline.ucRefs τ sig) (Gen.V0 m c) ∗ Rh c)
  post c := iprop(StableHlo.held (c : Thread nD τ) (Pipeline.ucRefs τ sig) (Wb m c) ∗ Rh c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Va m c) fun _ => rfl
    rw [Pipeline.unscopedBufs_held] at hsplit
    iintro ⟨⟨Hbufs, Hreg, Howe⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howe]
    · unfold Pipeline.Dat.owesAt Pipeline.owesWithin
      icases Howe with ⟨%W, Howe⟩
      iexists W; isplitr; · ipureintro; exact fun _ _ => Or.inl trivial
      iexact Howe
    isplitl [Hreg]; · iexact Hreg
    iexact Hrest
  hin c := by
    rw [show (pdats m 0 c).Φ 0 = Pipeline.ΦA spec0 c from rfl]; unfold Pipeline.ΦA
    iintro ⟨Hreg, -, Hsc⟩
    isplitl [Hsc]; · iexact Hsc
    iexact Hreg
  hout c := by
    rw [Pipeline.ownSems0_none, show (pdats m 0 c).Φ (Fin.last _) = Pipeline.ΦA spec0 c from rfl]; unfold Pipeline.ΦA
    iintro ⟨Hsc, Hreg⟩
    isplitl [Hreg]; · iexact Hreg
    isplitr; · iempintro
    iexact Hsc
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Va m c) (Vb m c) ((pdats m 0 c).arrAt · cfg0.N) (hF0 m c) (hrest0 m c)
    rw [Pipeline.unscopedBufs_held] at hjoin
    iintro ⟨Harr, Howe, Hreg, Hrest⟩
    imodintro
    isplitl [Harr Hrest]
    · iapply hjoin; isplitl [Harr] <;> iassumption
    isplitl [Hreg]; · iexact Hreg
    unfold Pipeline.Dat.owesAt Pipeline.owesWithin
    icases Howe with ⟨%W, -, Howe⟩; iexists W; iexact Howe

/-! ## Region 1 as a segment

Its eight windows sit on six buffers: the features feed two windows and so does the degree array. At entry each of those
two buffers' full permission is split into halves, one per window; at exit the halves, still at equal contents (an input
is never written), are joined again. -/

/-- The six buffers behind region 1's windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_arg0) ↦{fullShare} V main_arg0)
          ∗ (((c : Thread nD τ).loc main_v0_0) ↦{fullShare} V main_v0_0) ∗ (((c : Thread nD τ).loc main_v0_1) ↦{fullShare} V main_v0_1)
          ∗ (((c : Thread nD τ).loc main_arg2) ↦{fullShare} V main_arg2) ∗ (((c : Thread nD τ).loc main_v1) ↦{fullShare} V main_v1)) := by
  unfold Pipeline.arrBufs
  exact bigSep_eq_bigSepL_of_eq [main_arg1, main_arg0, main_v0_0, main_v0_1, main_arg2, main_v1] (by decide) (by decide) _

/-- Region 1's arrays window by window, each at its share. -/
theorem arrays1_eq (c : Dev nD) (V : (c : Dev nD) → (b : Ref sig .tc) → Buf (Elt F) ((c : Thread nD τ).loc b))
    (G : (w : Fin cfg1.W) → Buf (Elt F) ((cfg1.win w).arr.view.loc (c.tc : Thread nD τ))) :
    ((dat1 V c).arrays G : sProp 𝕄)
      = iprop((((c : Thread nD τ).loc main_arg1) ↦{fullShare} G 0) ∗ (((c : Thread nD τ).loc main_arg0) ↦{fullShare.left} G 1)
          ∗ (((c : Thread nD τ).loc main_arg0) ↦{fullShare.right} G 2) ∗ (((c : Thread nD τ).loc main_v0_0) ↦{fullShare.left} G 3)
          ∗ (((c : Thread nD τ).loc main_v0_0) ↦{fullShare.right} G 4) ∗ (((c : Thread nD τ).loc main_v0_1) ↦{fullShare} G 5)
          ∗ (((c : Thread nD τ).loc main_arg2) ↦{fullShare} G 6) ∗ (((c : Thread nD τ).loc main_v1) ↦{fullShare} G 7)) := by
  unfold Dat.arrays
  rw [bigSep_congr (fun w _ => by rw [(arr_whole1 w).set_eq_univ] :
    ∀ w ∈ (Finset.univ : Finset (Fin cfg1.W)), ((cfg1.win w).arr.view.loc (c.tc : Thread nD τ) ↦[(cfg1.win w).arr.view.set]{(dat1 V c).share w} G w : sProp 𝕄)
      = (((c.tc : Thread nD τ).loc (Pipeline.arrRef spec1 w)) ↦{(dat1 V c).share w} G w)), bigSep_W1]
  rfl

/-- ENTRY of region 1: the long-lived buffers at the between-regions contents are region 1's arrays at their entry
    contents, the features' and the degree array's permissions each split in two. -/
theorem entry1 (c : Dev nD) :
    (StableHlo.held (c : Thread nD τ) (Pipeline.ucRefs τ sig) (Wb m c) : sProp 𝕄)
      ⊢ (dat1 (Vb m) c).arrays ((dat1 (Vb m) c).arrAt · 0) := by
  rw [← Pipeline.unscopedBufs_held (Ix := Unit) (Name := ℕ) (U := UR sig nD τ) (Lvl := ℕ) c (Wb m c),
    Pipeline.unscopedBufs_split₀ cfgs 1 winFacts₀1.arr_unscoped c (Vb m c)]
  show (iprop(Pipeline.arrBufs (Ix := Unit) (Name := ℕ) (U := UR sig nD τ) (Lvl := ℕ) spec1 c (Vb m c) ∗ Pipeline.unscopedRest (Ix := Unit) (Name := ℕ) (U := UR sig nD τ) (Lvl := ℕ) spec1 c (Vb m c)) : sProp 𝕄) ⊢ _
  rw [unscopedRest1_eq, arrBufs1_eq, arrays1_eq]
  iintro ⟨⟨Hadj, Hx, Hd, Hg, Hk, Ho⟩, -⟩
  ihave Hx2 := (pointsTo_share (PosShare.mem_left_op_right fullShare)).1 $$ Hx
  icases Hx2 with ⟨Hxl, Hxr⟩
  ihave Hd2 := (pointsTo_share (PosShare.mem_left_op_right fullShare)).1 $$ Hd
  icases Hd2 with ⟨Hdl, Hdr⟩
  isplitl [Hadj]; · iexact Hadj
  isplitl [Hxl]; · iexact Hxl
  isplitl [Hxr]; · iexact Hxr
  isplitl [Hdl]; · iexact Hdl
  isplitl [Hdr]; · iexact Hdr
  isplitl [Hg]; · iexact Hg
  isplitl [Hk]; · iexact Hk
  iexact Ho

/-- Region 1's arrays after its sixteen points: every input as entered, the result at its write-backs' contents. -/
theorem arrAt1_in (c : Dev nD) (w : Fin cfg1.W) (hw : (cfg1.win w).isOut = false) :
    (dat1 (Vb m) c).arrAt w cfg1.N = Vb m c (Pipeline.arrRef spec1 w) :=
  ((dat1 (Vb m) c).arrAt_in w hw _).trans (A_eq1 (Vb m) c w)

/-- EXIT of region 1: its arrays at their final contents are the long-lived buffers at the end contents, the halves
    joined again. -/
theorem exit1 (c : Dev nD) :
    ((dat1 (Vb m) c).arrays ((dat1 (Vb m) c).arrAt · cfg1.N) : sProp 𝕄)
      ⊢ StableHlo.held (c : Thread nD τ) (Pipeline.ucRefs τ sig) (We m c) := by
  rw [← Pipeline.unscopedBufs_held (Ix := Unit) (Name := ℕ) (U := UR sig nD τ) (Lvl := ℕ) c (We m c),
    Pipeline.unscopedBufs_split₀ cfgs 1 winFacts₀1.arr_unscoped c (fun b => We m c b)]
  show _ ⊢ (iprop(Pipeline.arrBufs (Ix := Unit) (Name := ℕ) (U := UR sig nD τ) (Lvl := ℕ) spec1 c (fun b => We m c b) ∗ Pipeline.unscopedRest (Ix := Unit) (Name := ℕ) (U := UR sig nD τ) (Lvl := ℕ) spec1 c (fun b => We m c b)) : sProp 𝕄)
  rw [unscopedRest1_eq, arrBufs1_eq, arrays1_eq]
  rw [arrAt1_in m c 0 rfl, arrAt1_in m c 1 rfl, arrAt1_in m c 2 rfl, arrAt1_in m c 3 rfl, arrAt1_in m c 4 rfl,
    arrAt1_in m c 5 rfl, arrAt1_in m c 6 rfl]
  rw [We_of m c main_arg1 (by decide), We_of m c main_arg0 (by decide), We_of m c main_v0_0 (by decide),
    We_of m c main_v0_1 (by decide), We_of m c main_arg2 (by decide), We_v1 m c]
  iintro ⟨Hadj, Hxl, Hxr, Hdl, Hdr, Hg, Hk, Ho⟩
  isplitl [Hadj Hxl Hxr Hdl Hdr Hg Hk Ho]
  · isplitl [Hadj]; · iexact Hadj
    isplitl [Hxl Hxr]
    · iapply (pointsTo_share (PosShare.mem_left_op_right fullShare)).2
      isplitl [Hxl]; · iexact Hxl
      iexact Hxr
    isplitl [Hdl Hdr]
    · iapply (pointsTo_share (PosShare.mem_left_op_right fullShare)).2
      isplitl [Hdl]; · iexact Hdl
      iexact Hdr
    isplitl [Hg]; · iexact Hg
    isplitl [Hk]; · iexact Hk
    iexact Ho
  iempintro

set_option backward.isDefEq.respectTransparency.types false in
/-- Region 1 over the same thread state: its arrays are dealt out of the long-lived buffers at entry (`entry1`) and
    put back at their final contents at exit (`exit1`); every long-lived buffer is one of its arrays, so nothing
    bypasses it; the generator register passes through the region's invariant, which also carries the accumulator. -/
def reg1 : Pipeline.RegionSeg (pcfgs (F := F)) Gen.adm (pdats m) () defs₀ 𝒱₀ Lh lvh 1 where
  win := winFacts₀1
  block_pos := block_pos1
  stage_whole := stage_whole1
  K := PEmpty
  osem k := k.elim
  ho := Pipeline.OwnSemFacts.none _
  hbody c := (body_obligation1 (Vb m) c).loose
  hwaits := Pipeline.hwaits_of_owed_zero _ _ _ _ Lh lvh 1 fun _ _ => rfl
  pre c := iprop(StableHlo.held (c : Thread nD τ) (Pipeline.ucRefs τ sig) (Wb m c) ∗ Rh c)
  post c := iprop(StableHlo.held (c : Thread nD τ) (Pipeline.ucRefs τ sig) (We m c) ∗ Rh c)
  X c := iprop(∃ r, prngReg c r)
  Y c := iprop(∃ r, prngReg c r)
  Z c := iprop(emp)
  hentry c := by
    rw [Pipeline.ownSems0_none]
    iintro ⟨⟨Hbufs, Hreg, Howe⟩, -, -⟩
    ihave Harr := (entry1 m c) $$ Hbufs
    imodintro
    isplitl [Harr]; · iexact Harr
    isplitr
    · unfold Pipeline.prefHeld; rw [show (Finset.univ : Finset (Fin 0)) = ∅ from rfl, BI.bigSep_empty]; iempintro
    isplitl [Howe]
    · unfold Pipeline.Dat.owesAt Pipeline.owesWithin
      icases Howe with ⟨%W, Howe⟩
      iexists W; isplitr; · ipureintro; exact fun _ _ => Or.inl trivial
      iexact Howe
    isplitl [Hreg]; · iexact Hreg
    iempintro
  hin c := by
    rw [show (pdats m 1 c).Φ 0 = Pipeline.ΦA spec1 c from rfl]; unfold Pipeline.ΦA
    iintro ⟨Hreg, -, Hsc⟩
    isplitl [Hsc]; · iexact Hsc
    iexact Hreg
  hout c := by
    rw [Pipeline.ownSems0_none]
    have hgive : (Pipeline.ΦA spec1 c : sProp 𝕄) ⊢ iprop((∃ r, prngReg c r) ∗ BI.emp ∗ Pipeline.scopedRest (Ix := Unit) (Name := ℕ) (U := UR sig nD τ) (Lvl := ℕ) (Val := Elt F) spec1 c) := by
      unfold Pipeline.ΦA
      iintro ⟨Hsc, Hreg⟩
      isplitl [Hreg]; · iexact Hreg
      isplitr; · iempintro
      iexact Hsc
    exact (hout1 (Vb m) c).trans hgive
  hexit c := by
    iintro ⟨Harr, Howe, Hreg, -⟩
    imodintro
    isplitl [Harr]
    · iapply (exit1 m c); iexact Harr
    isplitl [Hreg]; · iexact Hreg
    unfold Pipeline.Dat.owesAt Pipeline.owesWithin
    icases Howe with ⟨%W, -, Howe⟩; iexists W; iexact Howe

/-! ## The launch's pieces -/

/-- The rest state beside the buffers at every boundary. -/
abbrev Eh : Fin 3 → Dev nD → sProp 𝕄 := fun _ c => Rh c

/-- The launch element: the pipelines' cells and duty tokens, nothing else. -/
abbrev u0h : UR sig nD τ := initOf (Pipeline.cells cfgs cellOf_inj) (Pipeline.launchToks cfgs cellOf_inj)

theorem hu0h : (ownU u0h : sProp 𝕄) ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core makes the first rest state: the generator register, and nothing owed. -/
theorem hE0h (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts Lh lvh)
      ⊢ (|={Set.univ}=> bigSep Finset.univ (Eh (F := F) 0) : sProp 𝕄) := by
  refine Pipeline.initEach Lh lvh fun c => ?_
  iintro ⟨⟨-, Howe, -, Hreg, -⟩, -⟩
  imodintro
  isplitl [Hreg]; · iexists _; iexact Hreg
  iexists ∅; iexact Howe

theorem hE2h (c : Dev nD) : Eh (F := F) 2 c ⊢ (iprop(∃ W, owes (c : Thread nD τ) (0 : CellTallies nD τ sig Unit) W) : sProp 𝕄) := by
  iintro ⟨-, Howe⟩; iexact Howe

/-! ## The frame -/

/-- Every weakly fair execution of the program terminates, faulting nowhere, with the three arguments as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Gen.frame_cond m emb₁ () 𝒱₀ Lh lvh (fun _ _ => rfl) ρ (outsH m) (pdats m) 0 (fun _ => BI.emp) u0h (hu0h (F := F)) (Eh (F := F)) (hE0h (F := F) ρ) (hE2h (F := F))
    (reg0 m) (fun _ => .rfl) (fun c => by rw [V1_eq]; exact .rfl)
    (reg1 m) (fun c => by rw [V1_eq]; exact .rfl) (fun c => by rw [V2_eq]; exact .rfl)

end Cert.KernelIdeal.Hand

end
-- ==== Proof.IdealRunVal.lean ====
/-
  The run with its result named: every weakly fair execution of the program terminates with the result array at what
  region 1's write-backs leave (`oArr`) and the three arguments as launched.
-/
import proofs.«106363_j29145648070885_1_alg».proof.Proof.IdealRun
import proofs.«106363_j29145648070885_1_alg».proof.Proof.IdealRegionsVal

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [∀ e, Nonempty (Elt F e)]

variable (m : (ℓ : Loc nD τ sig) → Buf (Elt F) ℓ)

theorem outsH_v1 (c : Dev nD) : outsH m 2 main_v1 c = oArr m c := (if_neg (by decide)).trans (We_v1 m c)

/-- The program's run: the result array ends at `oArr`, the arguments as launched. -/
theorem run_val (ρ : Dev nD → PrngReg) :
    θ_run defs (onTc (τ := τ) (main (F := F))) ⟨m, fun _ => 0, ρ⟩ (fun r => ∀ c : Dev nD,
      r.2.mem ((c.tc : Thread nD τ).loc main_v1) = oArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (outsH_v1 m c), (h c).2⟩)
    (frame_cond_val m emb₁ () 𝒱₀ Lh lvh (fun _ _ => rfl) ρ (outsH m) (pdats m) 0 (fun _ => BI.emp) u0h (hu0h (F := F)) (Eh (F := F)) (hE0h (F := F) ρ) (hE2h (F := F))
      (reg0 m) (fun _ => .rfl) (fun c => by rw [V1_eq]; exact .rfl)
      (reg1 m) (fun c => by rw [V1_eq]; exact .rfl) (fun c => by rw [V2_eq]; exact .rfl))

end Cert.KernelIdeal.Hand

end
-- ==== Proof.Spec.lean ====
/-
  The mathematics of the graph convolution, one element at a time, over the extended reals.

  For a batch b, a node n and an output feature o the layer computes
      relu ( sum_f agg[b,n,f] * K[f,o] ),   agg[b,n,f] = sum_m norm[b,n,m] * x[b,m,f],
  with the normalised adjacency  norm[b,n,m] = ahat[b,n,m] * d[b,n] * d[b,m],  where ahat is the adjacency with
  its diagonal replaced by ones and  d[b,n] = 1 / (eps + sqrt (sum_m ahat[b,n,m]))  is the degree scaling.

  Two spellings of it are stated here.  `outR` is the layer as written above.  `outK` is the two-pass form: the
  first pass computes the row sums and the diagonal entries, from which  d[b,n] = 1 / (eps + sqrt (rowsum - diag + 1));
  the second pass contracts the raw adjacency with the scaled features  x[b,m,f] * d[b,m],  adds the self-loop
  correction  x[b,n,f] * d[b,n] * (1 - diag[b,n])  and scales the row by  d[b,n].  On real inputs the two agree.
-/
import Idealize.ShloMosaic.PureOps.Ideal
import Idealize.ShloMosaic.Lib.ValueIdx

noncomputable section

open scoped BigOperators

namespace Cert.Spec

open Idealize.ShloMosaic Idealize.ShloMosaic.ValueIdx

/-- Node features, [8, 2048, 128]. -/
abbrev X3 : Type := (⟨3, ![8, 2048, 128]⟩ : Shape).Idx → EReal
/-- Adjacency, [8, 2048, 2048]. -/
abbrev A3 : Type := (⟨3, ![8, 2048, 2048]⟩ : Shape).Idx → EReal
/-- Projection weights, [128, 128]. -/
abbrev K2 : Type := (⟨2, ![128, 128]⟩ : Shape).Idx → EReal
/-- A per-node quantity, [8, 2048]. -/
abbrev D2 : Type := (⟨2, ![8, 2048]⟩ : Shape).Idx → EReal

/-- Every entry of an array is a real number (neither infinity). -/
def IsReal {S : Shape} (a : S.Idx → EReal) : Prop := ∀ i, ∃ r : ℝ, a i = (r : EReal)

/-- The regulariser under the square root's reciprocal: the single-precision number nearest 1e-6. -/
def epsE : EReal := Ideal.ofBits .f32 0x358637BD#32

/-- The identity matrix's entry. -/
def kron (n m : Fin 2048) : EReal := if n = m then 1 else 0

/-- The adjacency with its diagonal replaced by ones. -/
def ahat (adj : A3) (b : Fin 8) (n m : Fin 2048) : EReal := adj (ix3 b n m) * (1 - kron n m) + kron n m

/-- The degree scaling of node n, from the self-looped adjacency's row sum. -/
def degR (adj : A3) (b : Fin 8) (n : Fin 2048) : EReal := Ideal.div 1 (epsE + Ideal.sqrt (∑ m : Fin 2048, ahat adj b n m))

/-- The layer: normalise, aggregate over neighbours, project, rectify. -/
def outR (x : X3) (adj : A3) (K : K2) (b : Fin 8) (n : Fin 2048) (o : Fin 128) : EReal :=
  max (∑ f : Fin 128, (∑ m : Fin 2048, (ahat adj b n m * degR adj b n * degR adj b m) * x (ix3 b m f)) * K (ix2 f o)) 0

/-- The diagonal entry of row n, as a masked row sum. -/
def diagK (adj : A3) (b : Fin 8) (n : Fin 2048) : EReal := ∑ m : Fin 2048, adj (ix3 b n m) * kron n m

/-- The degree scaling from the raw row sum, the diagonal taken out and one put in. -/
def degK (adj : A3) (b : Fin 8) (n : Fin 2048) : EReal :=
  Ideal.div 1 (epsE + Ideal.sqrt ((∑ m : Fin 2048, adj (ix3 b n m)) - diagK adj b n + 1))

/-- The two-pass form, over any degree and diagonal arrays. -/
def outK (x : X3) (adj : A3) (d diag : D2) (K : K2) (b : Fin 8) (n : Fin 2048) (o : Fin 128) : EReal :=
  max (∑ f : Fin 128, (d (ix2 b n) * ((∑ m : Fin 2048, adj (ix3 b n m) * (x (ix3 b m f) * d (ix2 b m)))
      + (x (ix3 b n f) * d (ix2 b n)) * (1 - diag (ix2 b n)))) * K (ix2 f o)) 0

/-! ### Real witnesses

Sums, products and differences of real numbers stay real inside the extended reals, so an identity between
real-valued expressions may be proved in ℝ and carried over by the coercion. -/

/-- A finite sum of real numbers, taken in the extended reals, is the real sum. -/
theorem coe_sum {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The identity matrix's entry is the real number 1 or 0. -/
theorem kron_coe (n m : Fin 2048) : kron n m = (((if n = m then 1 else 0 : ℝ)) : EReal) := by
  unfold kron
  split_ifs <;> simp

/-- Over the reals: replacing the diagonal entry of a row by one changes the row sum by  1 - a n. -/
theorem real_rowsum (a : Fin 2048 → ℝ) (n : Fin 2048) :
    ∑ m, (a m * (1 - (if n = m then (1 : ℝ) else 0)) + (if n = m then (1 : ℝ) else 0)) = (∑ m, a m) - a n + 1 := by
  have h : ∀ m, a m * (1 - (if n = m then (1 : ℝ) else 0)) + (if n = m then (1 : ℝ) else 0)
      = a m + (if n = m then 1 - a m else 0) := by
    intro m
    split_ifs <;> ring
  simp only [h, Finset.sum_add_distrib, Finset.sum_ite_eq, Finset.mem_univ, if_true]
  ring

/-- Over the reals: the aggregation of one row.  The self-looped row differs from the raw row only at m = n,
    where its entry is 1 instead of a n; so the normalised sum is the raw contraction scaled by d n, plus the
    single term  d n * d n * x n * (1 - a n). -/
theorem real_inner (a d x : Fin 2048 → ℝ) (n : Fin 2048) :
    d n * ((∑ m, a m * (x m * d m)) + (x n * d n) * (1 - a n))
      = ∑ m, ((a m * (1 - (if n = m then (1 : ℝ) else 0)) + (if n = m then (1 : ℝ) else 0)) * d n * d m) * x m := by
  have h : ∀ m, ((a m * (1 - (if n = m then (1 : ℝ) else 0)) + (if n = m then (1 : ℝ) else 0)) * d n * d m) * x m
      = d n * (a m * (x m * d m)) + (if n = m then d n * ((x m * d m) * (1 - a m)) else 0) := by
    intro m
    split_ifs <;> ring
  simp only [h, Finset.sum_add_distrib, Finset.sum_ite_eq, Finset.mem_univ, if_true, ← Finset.mul_sum]
  ring

/-- The same identity between extended reals whose every ingredient is a real number. -/
theorem ereal_inner (a d x : Fin 2048 → ℝ) (n : Fin 2048) :
    (d n : EReal) * ((∑ m, (a m : EReal) * ((x m : EReal) * (d m : EReal)))
        + ((x n : EReal) * (d n : EReal)) * (1 - (a n : EReal)))
      = ∑ m, (((a m : EReal) * (1 - kron n m) + kron n m) * (d n : EReal) * (d m : EReal)) * (x m : EReal) := by
  simp only [kron_coe, ← EReal.coe_one, ← EReal.coe_mul, ← EReal.coe_add, ← EReal.coe_sub, coe_sum]
  exact congrArg Real.toEReal (real_inner a d x n)

/-- On a real adjacency the self-looped row sum is the raw row sum, less the diagonal entry, plus one. -/
theorem rowsum_eq (adj : A3) (hadj : IsReal adj) (b : Fin 8) (n : Fin 2048) :
    ∑ m : Fin 2048, ahat adj b n m = (∑ m : Fin 2048, adj (ix3 b n m)) - adj (ix3 b n n) + 1 := by
  choose ar har using hadj
  simp only [ahat, har, kron_coe, ← EReal.coe_one, ← EReal.coe_mul, ← EReal.coe_add, ← EReal.coe_sub, coe_sum]
  exact congrArg Real.toEReal (real_rowsum (fun m => ar (ix3 b n m)) n)

/-- On a real adjacency the self-looped row sum is a real number. -/
theorem rowsum_real (adj : A3) (hadj : IsReal adj) (b : Fin 8) (n : Fin 2048) :
    ∃ s : ℝ, ∑ m : Fin 2048, ahat adj b n m = (s : EReal) := by
  choose ar har using hadj
  refine ⟨∑ m : Fin 2048, (ar (ix3 b n m) * (1 - (if n = m then (1 : ℝ) else 0)) + (if n = m then (1 : ℝ) else 0)), ?_⟩
  simp only [ahat, har, kron_coe, ← EReal.coe_one, ← EReal.coe_mul, ← EReal.coe_add, ← EReal.coe_sub, coe_sum]

/-- The word of 1.0 denotes one. -/
theorem ofBits_one : Ideal.ofBits .f32 0x3F800000#32 = (1 : EReal) := by
  -- sign bit clear, exponent field 127 (the bias), fraction 0:  (2^23 + 0) * 2^(127 - 127 - 23) = 1
  simp [Ideal.ofBits, Ideal.ieee, -EReal.coe_mul]; norm_num

/-- The regulariser is a positive real. -/
theorem eps_pos : ∃ r : ℝ, 0 < r ∧ epsE = (r : EReal) := by
  -- sign bit clear, exponent field 107 (neither all zeros nor all ones): a normal number
  -- (2^23 + fraction) * 2^(107 - 127 - 23), a product of positive reals
  unfold epsE
  simp [Ideal.ofBits, Ideal.ieee, -EReal.coe_mul]

/-- On a real adjacency the masked row sum is the diagonal entry. -/
theorem diagK_eq (adj : A3) (hadj : IsReal adj) (b : Fin 8) (n : Fin 2048) : diagK adj b n = adj (ix3 b n n) := by
  -- every term off the diagonal is a product with zero; the diagonal term is a product with one
  unfold diagK
  rw [Finset.sum_eq_single n]
  · simp [kron]
  · intro m _ hm
    have : kron n m = 0 := by simp [kron, Ne.symm hm]
    rw [this, mul_zero]
  · intro h
    exact absurd (Finset.mem_univ n) h

/-- On a real adjacency both spellings of the degree scaling agree, and the scaling is a real number. -/
theorem degK_eq (adj : A3) (hadj : IsReal adj) (b : Fin 8) (n : Fin 2048) : degK adj b n = degR adj b n := by
  -- the arguments of the square root agree: the self-looped row sum is  rowsum - diag + 1
  unfold degK degR
  rw [diagK_eq adj hadj, rowsum_eq adj hadj]

theorem degR_real (adj : A3) (hadj : IsReal adj) (b : Fin 8) (n : Fin 2048) : ∃ r : ℝ, degR adj b n = (r : EReal) := by
  obtain ⟨s, hs⟩ := rowsum_real adj hadj b n
  obtain ⟨e, he, hE⟩ := eps_pos
  unfold degR
  rw [hs, hE, Ideal.sqrt_coe]
  by_cases hneg : s < 0
  · -- a negative row sum: the root is the junk value ⊥, which absorbs the sum, and 1 / ⊥ = 0
    refine ⟨0, ?_⟩
    rw [if_pos hneg, EReal.add_bot]
    simp [Ideal.div]
  · -- a nonnegative row sum: eps + √s is a positive real and the quotient is its reciprocal
    have hpos : 0 < e + Real.sqrt s := add_pos_of_pos_of_nonneg he (Real.sqrt_nonneg s)
    refine ⟨1 / (e + Real.sqrt s), ?_⟩
    rw [if_neg hneg, ← EReal.coe_add, Ideal.div_coe (ne_of_gt hpos), one_mul]

/-- On real inputs the two-pass form over its own degree and diagonal arrays is the layer. -/
theorem outK_eq_outR (x : X3) (adj : A3) (K : K2) (d diag : D2) (hx : IsReal x) (hadj : IsReal adj) (hK : IsReal K)
    (hd : ∀ b n, d (ix2 b n) = degK adj b n) (hdiag : ∀ b n, diag (ix2 b n) = diagK adj b n)
    (b : Fin 8) (n : Fin 2048) (o : Fin 128) : outK x adj d diag K b n o = outR x adj K b n o := by
  -- real witnesses for the features, the adjacency and (through degR_real) the degree scaling
  choose xr hxr using hx
  choose ar har using hadj
  choose dr hdr using fun b n => degR_real adj (fun i => ⟨ar i, har i⟩) b n
  have hadj' : IsReal adj := fun i => ⟨ar i, har i⟩
  have hd' : ∀ b n, d (ix2 b n) = (dr b n : EReal) := fun b n => by rw [hd, degK_eq adj hadj', hdr]
  have hdiag' : ∀ b n, diag (ix2 b n) = (ar (ix3 b n n) : EReal) := fun b n => by
    rw [hdiag, diagK_eq adj hadj', har]
  unfold outK outR
  -- under the rectifier and the sum over features, the two aggregations of row n agree term by term
  refine congrArg (max · 0) (Finset.sum_congr rfl fun f _ => ?_)
  refine congrArg (· * K (ix2 f o)) ?_
  simp only [ahat, hd', hdiag', hdr, har, hxr]
  exact ereal_inner (fun m => ar (ix3 b n m)) (dr b) (fun m => xr (ix3 b m f)) n

end Cert.Spec

end
-- ==== Proof.IdealVal0.lean ====
/-
  What region 0 leaves in its two result arrays: entry (b, n) of the first is the degree scaling of node n of batch b,
  entry (b, n) of the second the diagonal entry adj[b, n, n] as a masked row sum, both of the adjacency as the region
  found it. Block t of either array covers nodes 128 t .. 128 t + 127, and the 16 blocks tile the 2048 nodes.
-/
import proofs.«106363_j29145648070885_1_alg».proof.Proof.IdealDat0
import proofs.«106363_j29145648070885_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-! ## The mask: row number against column number, in 32-bit words -/

/-- The word 128 t + r, computed in 32 bits from a block number below 16 and a row below 128, equals the word of a
    column below 2048 exactly when the naturals agree: nothing wraps. -/
theorem word_eq_iff (t r m : Nat) (ht : t < 16) (hr : r < 128) (hm : m < 2048) :
    IntOp.addi (Scalar.muli (BitVec.ofNat 32 t) 128#32) (BitVec.ofNat 32 r) = BitVec.ofNat 32 m ↔ 128 * t + r = m := by
  unfold IntOp.addi Scalar.muli IntOp.muli
  constructor
  · intro h
    have := congrArg BitVec.toNat h
    simp only [BitVec.toNat_add, BitVec.toNat_mul, BitVec.toNat_ofNat] at this
    omega
  · intro h
    apply BitVec.eq_of_toNat_eq
    simp only [BitVec.toNat_add, BitVec.toNat_mul, BitVec.toNat_ofNat]
    omega

/-- The equality test of two words answers the set bit when they are equal and the clear bit when they are not. -/
theorem cmpi_eq_of_eq {a b : BitVec 32} (h : a = b) : IntOp.cmpi .eq a b = 1#1 := by
  subst h; simp [IntOp.cmpi]

theorem cmpi_eq_of_ne {a b : BitVec 32} (h : a ≠ b) : IntOp.cmpi .eq a b = 0#1 := by
  have hb : (a == b) = false := beq_eq_false_iff_ne.mpr h
  show BitVec.ofBool (a == b) = 0#1
  rw [hb]; rfl

/-- The mask entry: the comparison bit, widened and read as a signed integer, is one on the diagonal and zero off it. -/
theorem mask_val (t r m : Nat) (ht : t < 16) (hr : r < 128) (hm : m < 2048) :
    (FloatOps.sitofp (F := Ideal) .f32 ((IntOp.cmpi .eq (IntOp.addi (Scalar.muli (BitVec.ofNat 32 t) 128#32) (BitVec.ofNat 32 r)) (BitVec.ofNat 32 m)).setWidth 32) : EReal)
      = if 128 * t + r = m then 1 else 0 := by
  by_cases h : 128 * t + r = m
  · rw [if_pos h, cmpi_eq_of_eq ((word_eq_iff t r m ht hr hm).mpr h)]
    show (((BitVec.setWidth 32 1#1).toInt : ℝ) : EReal) = 1
    rw [show (BitVec.setWidth 32 1#1).toInt = 1 from by decide]
    simp
  · rw [if_neg h, cmpi_eq_of_ne fun hw => h ((word_eq_iff t r m ht hr hm).mp hw)]
    show (((BitVec.setWidth 32 0#1).toInt : ℝ) : EReal) = 0
    rw [show (BitVec.setWidth 32 0#1).toInt = 0 from by decide]
    simp

/-! ## The body's two results at an index of the block -/

/-- A lane sum of a product, at row r of batch b: the sum over the columns of the two rows' products. -/
theorem prodsum_apply (v0 w : FVec Ideal S8x128x2048 .f32) (b : Fin 8) (r : Fin 128) :
    (multiReduction (F := Ideal) .add [2] S8x128 (mulf v0 w) 0x00000000#32 reduces_S8x128x2048_S8x128 (.inl rfl) rfl : S8x128.Idx → EReal) (ix2 b r)
      = ∑ m : Fin 2048, (v0 (ix3 b r m) : EReal) * w (ix3 b r m) := by
  refine (Ideal.multiReduction_add_single (mulf v0 w) 0x00000000#32 reduces_S8x128x2048_S8x128 (.inl rfl) rfl (ix2 b r)).trans ?_
  refine Finset.sum_congr rfl fun (m : Fin 2048) _ => ?_
  exact congrArg (fun j => (v0 j : EReal) * w j) (funext fun a => Fin.ext (by match a with | ⟨0, _⟩ => rfl | ⟨1, _⟩ => rfl | ⟨2, _⟩ => rfl))

/-- A [128, 2048] array given a leading unit axis and copied over the 8 batches reads, at (b, r, m), its entry (r, m). -/
theorem batched_apply (u : FVec Ideal S128x2048 .f32) (b : Fin 8) (r : Fin 128) (m : Fin 2048) :
    (broadcastTo S8x128x2048 (shapeCast S1x128x2048 u shapeCasts_S128x2048_S1x128x2048) broadcasts_S1x128x2048_S8x128x2048 : S8x128x2048.Idx → EReal) (ix3 b r m)
      = u (ix2 r m) := by
  refine (broadcastTo_apply _ broadcasts_S1x128x2048_S8x128x2048 (ix3 b r m) (ix3 (0 : Fin 1) r m) (fun a => by
    match a with | ⟨0, _⟩ => rfl | ⟨1, _⟩ => rfl | ⟨2, _⟩ => rfl)).trans ?_
  exact shapeCast_ab_1ab_apply u shapeCasts_S128x2048_S1x128x2048 (0 : Fin 1) r m

/-- The mask of block t at (r, m): row number 128 t + r compared with column number m, as a number. -/
theorem mask_apply (t : Nat) (ht : t < 16) (r : Fin 128) (m : Fin 2048) :
    (sitofp (F := Ideal) .f32 (extui 32 (cmpi .eq (addi (broadcast S128x2048 (Scalar.muli (BitVec.ofNat 32 t) 128#32))
        (iota .tc S128x2048 32 [0] iota_S128x2048_d0_w32)) (iota .tc S128x2048 32 [1] iota_S128x2048_d1_w32)) natLt_1_32) : S128x2048.Idx → EReal) (ix2 r m)
      = if 128 * t + r.val = m.val then 1 else 0 := by
  have e0 : iota .tc S128x2048 32 [0] iota_S128x2048_d0_w32 (ix2 r m) = BitVec.ofNat 32 r.val :=
    iota_single_apply .tc S128x2048 32 0 iota_S128x2048_d0_w32 (ix2 r m)
  have e1 : iota .tc S128x2048 32 [1] iota_S128x2048_d1_w32 (ix2 r m) = BitVec.ofNat 32 m.val :=
    iota_single_apply .tc S128x2048 32 1 iota_S128x2048_d1_w32 (ix2 r m)
  show FloatOps.sitofp (F := Ideal) .f32 ((IntOp.cmpi .eq (IntOp.addi (Scalar.muli (BitVec.ofNat 32 t) 128#32)
      (iota .tc S128x2048 32 [0] iota_S128x2048_d0_w32 (ix2 r m))) (iota .tc S128x2048 32 [1] iota_S128x2048_d1_w32 (ix2 r m))).setWidth 32) = _
  rw [e0, e1]
  exact mask_val t r.val m.val ht r.isLt m.isLt

/-- The masked lane sum at row r of batch b: the block's row against the indicator of column 128 t + r. -/
theorem pay1_apply (i : grid0.Coords) (v0 : FVec Ideal S8x128x2048 .f32) (b : Fin 8) (r : Fin 128) :
    (k0_pay1 (F := Ideal) i v0 : S8x128.Idx → EReal) (ix2 b r)
      = ∑ m : Fin 2048, (v0 (ix3 b r m) : EReal) * (if 128 * (i 0).val + r.val = m.val then 1 else 0) := by
  unfold k0_pay1
  refine (prodsum_apply v0 _ b r).trans ?_
  refine Finset.sum_congr rfl fun m _ => ?_
  refine congrArg (fun x : EReal => (v0 (ix3 b r m) : EReal) * x) ?_
  refine (batched_apply _ b r m).trans ?_
  exact mask_apply (i 0).val (i 0).isLt r m

/-- The plain lane sum at row r of batch b. -/
theorem rowsum_apply (v0 : FVec Ideal S8x128x2048 .f32) (b : Fin 8) (r : Fin 128) :
    (multiReduction (F := Ideal) .add [2] S8x128 v0 0x00000000#32 reduces_S8x128x2048_S8x128 (.inl rfl) rfl : S8x128.Idx → EReal) (ix2 b r)
      = ∑ m : Fin 2048, (v0 (ix3 b r m) : EReal) := by
  refine (Ideal.multiReduction_add_single v0 0x00000000#32 reduces_S8x128x2048_S8x128 (.inl rfl) rfl (ix2 b r)).trans ?_
  refine Finset.sum_congr rfl fun (m : Fin 2048) _ => ?_
  exact congrArg v0 (funext fun a => Fin.ext (by match a with | ⟨0, _⟩ => rfl | ⟨1, _⟩ => rfl | ⟨2, _⟩ => rfl))

/-- The degree scaling at row r of batch b: one over the regulariser plus the root of the row sum with the masked sum
    taken out and one put in. -/
theorem pay2_apply (i : grid0.Coords) (v0 : FVec Ideal S8x128x2048 .f32) (b : Fin 8) (r : Fin 128) :
    (k0_pay2 (F := Ideal) i v0 : S8x128.Idx → EReal) (ix2 b r)
      = Ideal.div 1 (Cert.Spec.epsE + Ideal.sqrt ((∑ m : Fin 2048, (v0 (ix3 b r m) : EReal))
          - (k0_pay1 (F := Ideal) i v0 : S8x128.Idx → EReal) (ix2 b r) + 1)) := by
  unfold k0_pay2
  show Ideal.div (Ideal.ofBits .f32 0x3F800000#32) (Ideal.ofBits .f32 0x358637BD#32
      + Ideal.sqrt (((multiReduction (F := Ideal) .add [2] S8x128 v0 0x00000000#32 reduces_S8x128x2048_S8x128 (.inl rfl) rfl : S8x128.Idx → EReal) (ix2 b r)
          - (k0_pay1 (F := Ideal) i v0 : S8x128.Idx → EReal) (ix2 b r)) + Ideal.ofBits .f32 0x3F800000#32)) = _
  rw [Cert.Spec.ofBits_one, rowsum_apply]
  rfl

/-! ## The block under a point, and the two results as functions of the adjacency -/

/-- The index maps over the grid: at point t the adjacency block is block (0, t, 0), both result blocks are block (0, t),
    and the point's one coordinate is t. -/
theorem idx_facts0 : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = t.val
    ∧ win0_2.index t (0 : Fin 2) = 0 ∧ win0_2.index t (1 : Fin 2) = t.val
    ∧ ((grid0.coords t) 0).val = t.val ∧ t.val < 16 :=
  (by decide +kernel : ∀ t : Fin grid0.N, _)

/-- The adjacency block at point t, all batches, 128 rows, all columns. -/
abbrev ablk (c : Dev nD) (t : Fin cfg0.N) : FVec Ideal S8x128x2048 .f32 := iblk0 V c 0 t

/-- The adjacency as the region finds it. -/
abbrev adjA (c : Dev nD) : S8x2048x2048.Idx → EReal := V c main_arg1

/-- Row r of the adjacency block at point t is row 128 t + r of the adjacency. -/
theorem ablk_apply (c : Dev nD) (t : Fin cfg0.N) (b : Fin 8) (r : Fin 128) (m : Fin 2048) (n : Fin 2048)
    (hn : n.val = 128 * t.val + r.val) :
    ablk V c t (ix3 b r m) = adjA V c (ix3 b n m) := by
  obtain ⟨e0, e1, e2, -⟩ := idx_facts0 t
  unfold ablk iblk0
  rw [View.read_apply]
  show V c main_arg1 _ = V c main_arg1 _
  congr 1
  funext a
  apply Fin.ext
  match a with
  | ⟨0, _⟩ => show win0_0.index t (0 : Fin 3) * 8 + 1 * b.val = b.val; omega
  | ⟨1, _⟩ => show win0_0.index t (1 : Fin 3) * 128 + 1 * r.val = n.val; omega
  | ⟨2, _⟩ => show win0_0.index t (2 : Fin 3) * 2048 + 1 * m.val = m.val; omega

/-- What the body leaves in the diagonal window at point t, row q: the masked row sum of row 128 t + q of the adjacency. -/
theorem diag_blk (c : Dev nD) (t : Fin cfg0.N) (p : Fin 8) (q : Fin 128) (n : Fin 2048) (hn : n.val = 128 * t.val + q.val) :
    (k0_pay1 (F := Ideal) (grid0.coords t) (ablk V c t) : S8x128.Idx → EReal) (ix2 p q)
      = Cert.Spec.diagK (adjA V c) p n := by
  have ec : ((grid0.coords t) 0).val = t.val := (idx_facts0 t).2.2.2.2.2.2.2.1
  refine (pay1_apply (grid0.coords t) (ablk V c t) p q).trans ?_
  unfold Cert.Spec.diagK
  refine Finset.sum_congr rfl fun m _ => ?_
  rw [ablk_apply V c t p q m n hn]
  congr 1
  unfold Cert.Spec.kron
  rw [ec]
  by_cases h : n = m
  · rw [if_pos h, if_pos (by rw [← h, hn])]
  · rw [if_neg h, if_neg (fun h' => h (Fin.ext (by omega)))]

/-- What the body leaves in the degree window at point t, row q: the degree scaling of row 128 t + q. -/
theorem deg_blk (c : Dev nD) (t : Fin cfg0.N) (p : Fin 8) (q : Fin 128) (n : Fin 2048) (hn : n.val = 128 * t.val + q.val) :
    (k0_pay2 (F := Ideal) (grid0.coords t) (ablk V c t) : S8x128.Idx → EReal) (ix2 p q)
      = Cert.Spec.degK (adjA V c) p n := by
  refine (pay2_apply (grid0.coords t) (ablk V c t) p q).trans ?_
  have hs : (∑ m : Fin 2048, ablk V c t (ix3 p q m)) = ∑ m : Fin 2048, adjA V c (ix3 p n m) :=
    Finset.sum_congr rfl fun m _ => ablk_apply V c t p q m n hn
  rw [hs, diag_blk V c t p q n hn]
  rfl

/-! ## From the 16 blocks to the arrays -/

/-- The degree scaling and the masked diagonal sum as functions of the whole [8, 2048] index. -/
abbrev degG (adj : S8x2048x2048.Idx → EReal) : S8x2048.Idx → EReal := fun j => Cert.Spec.degK adj (j 0) (j 1)
abbrev diagG (adj : S8x2048x2048.Idx → EReal) : S8x2048.Idx → EReal := fun j => Cert.Spec.diagK adj (j 0) (j 1)

/-- What point t writes back to the degree array is block t of the degree scaling of the adjacency. -/
theorem flushed1_eq (c : Dev nD) (t : Fin cfg0.N) :
    (dat0 (F := Ideal) V c).flushed 1 t = ((cfg0.win 1).blk t).view.read (Elt Ideal) (degG (adjA V c)) := by
  show (cfg0.win 1).cut (grid0.coords t) ((dat0 (F := Ideal) V c).after 1 t) = _
  rw [after0_1]
  obtain ⟨-, -, -, e3, e4, -, -, -, ht⟩ := idx_facts0 t
  funext j
  obtain ⟨p, q, rfl⟩ : ∃ (p : Fin 8) (q : Fin 128), j = ix2 p q := ⟨j 0, j 1, eq_ix2 j⟩
  rw [View.read_apply]
  have hemb : ((cfg0.win 1).blk t).view.emb (ix2 p q) = ix2 p (⟨128 * t.val + q.val, by omega⟩ : Fin 2048) := by
    funext a
    apply Fin.ext
    match a with
    | ⟨0, _⟩ => show win0_1.index t (0 : Fin 2) * 8 + 1 * p.val = p.val; omega
    | ⟨1, _⟩ => show win0_1.index t (1 : Fin 2) * 128 + 1 * q.val = 128 * t.val + q.val; omega
  rw [hemb]
  exact deg_blk V c t p q ⟨128 * t.val + q.val, by omega⟩ rfl

/-- What point t writes back to the diagonal array is block t of the masked diagonal sums of the adjacency. -/
theorem flushed2_eq (c : Dev nD) (t : Fin cfg0.N) :
    (dat0 (F := Ideal) V c).flushed 2 t = ((cfg0.win 2).blk t).view.read (Elt Ideal) (diagG (adjA V c)) := by
  show (cfg0.win 2).cut (grid0.coords t) ((dat0 (F := Ideal) V c).after 2 t) = _
  rw [after0_2]
  obtain ⟨-, -, -, -, -, e5, e6, -, ht⟩ := idx_facts0 t
  funext j
  obtain ⟨p, q, rfl⟩ : ∃ (p : Fin 8) (q : Fin 128), j = ix2 p q := ⟨j 0, j 1, eq_ix2 j⟩
  rw [View.read_apply]
  have hemb : ((cfg0.win 2).blk t).view.emb (ix2 p q) = ix2 p (⟨128 * t.val + q.val, by omega⟩ : Fin 2048) := by
    funext a
    apply Fin.ext
    match a with
    | ⟨0, _⟩ => show win0_2.index t (0 : Fin 2) * 8 + 1 * p.val = p.val; omega
    | ⟨1, _⟩ => show win0_2.index t (1 : Fin 2) * 128 + 1 * q.val = 128 * t.val + q.val; omega
  rw [hemb]
  exact diag_blk V c t p q ⟨128 * t.val + q.val, by omega⟩ rfl

/-- An index of the degree array lies in point t's block iff each coordinate is in the block's range on its axis. -/
theorem mem_blk1 (t : Fin cfg0.N) (i : S8x2048.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v0_0).slice (win0_1.rect t)).set ↔ _
  rw [View.set_slice_whole, Rect.mem_set_unit]
  exact Iff.rfl

/-- and likewise for the diagonal array. -/
theorem mem_blk2 (t : Fin cfg0.N) (i : S8x2048.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0_1).slice (win0_2.rect t)).set ↔ _
  rw [View.set_slice_whole, Rect.mem_set_unit]
  exact Iff.rfl

/-- Node n lies in the block of point n / 128. -/
theorem point_of (i : S8x2048.Idx) : ∃ t : Fin cfg0.N, t.val = (i 1).val / 128 := by
  have h1 : (i 1).val < 2048 := (i 1).isLt
  exact ⟨⟨(i 1).val / 128, by rw [show cfg0.N = 16 from N_0]; omega⟩, rfl⟩

/-- The 16 blocks of the degree array cover it. -/
theorem cover1 (i : S8x2048.Idx) : ∃ t : Fin cfg0.N, (cfg0.win 1).flush t = true ∧ i ∈ ((cfg0.win 1).blk t).view.set := by
  have h0 : (i 0).val < 8 := (i 0).isLt
  have h1 : (i 1).val < 2048 := (i 1).isLt
  obtain ⟨t, ht⟩ := point_of i
  obtain ⟨-, -, -, e3, e4, -⟩ := idx_facts0 t
  refine ⟨t, flush0_1 t, ?_⟩
  rw [mem_blk1]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 128 ≤ (i 1).val ∧ (i 1).val < win0_1.index t (1 : Fin 2) * 128 + 128; omega

/-- The 16 blocks of the diagonal array cover it. -/
theorem cover2 (i : S8x2048.Idx) : ∃ t : Fin cfg0.N, (cfg0.win 2).flush t = true ∧ i ∈ ((cfg0.win 2).blk t).view.set := by
  have h0 : (i 0).val < 8 := (i 0).isLt
  have h1 : (i 1).val < 2048 := (i 1).isLt
  obtain ⟨t, ht⟩ := point_of i
  obtain ⟨-, -, -, -, -, e5, e6, -⟩ := idx_facts0 t
  refine ⟨t, flush0_2 t, ?_⟩
  rw [mem_blk2]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 128 ≤ (i 1).val ∧ (i 1).val < win0_2.index t (1 : Fin 2) * 128 + 128; omega

/-- The degree array after the 16 points. -/
theorem deg_arr (c : Dev nD) (b : Fin 8) (n : Fin 2048) :
    ((dat0 (F := Ideal) V c).arrAt 1 cfg0.N : S8x2048.Idx → EReal) (ix2 b n) = Cert.Spec.degK (V c main_arg1 : S8x2048x2048.Idx → EReal) b n := by
  rw [(dat0 (F := Ideal) V c).arrAt_eq_of_cover 1 (degG (adjA V c)) (fun t _ => flushed1_eq V c t) cover1]

/-- The diagonal array after the 16 points. -/
theorem diag_arr (c : Dev nD) (b : Fin 8) (n : Fin 2048) :
    ((dat0 (F := Ideal) V c).arrAt 2 cfg0.N : S8x2048.Idx → EReal) (ix2 b n) = Cert.Spec.diagK (V c main_arg1 : S8x2048x2048.Idx → EReal) b n := by
  rw [(dat0 (F := Ideal) V c).arrAt_eq_of_cover 2 (diagG (adjA V c)) (fun t _ => flushed2_eq V c t) cover2]

end Cert.KernelIdeal.Hand

end
-- ==== Proof.IdealVal1.lean ====
/-
  What region 1 leaves in its result array: entry (b, n, o) is the two-pass form of the layer over the arrays the
  region found — features, adjacency, degree scaling, diagonal, weights. Block i of the result covers nodes
  256 i .. 256 i + 255 and is written at the odd point 2 i + 1, when the accumulator holds the sum of the two
  neighbour halves' block products.
-/
import proofs.«106363_j29145648070885_1_alg».proof.Proof.IdealDat1
import proofs.«106363_j29145648070885_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open scoped BigOperators

/-! ## The body's three stretches at an entry -/

/-- The cleared accumulator reads zero everywhere. -/
theorem pay1_apply_r1 (j : S8x256x128.Idx) : (k1_pay1 (F := Ideal) j : EReal) = 0 := by
  unfold k1_pay1
  rw [shapeCast_self]
  show Ideal.ofBits .f32 0x00000000#32 = 0
  exact Ideal.ofBits_zero_f32

/-! For the batched block product, an output entry (b, p, f) and a contraction position m name the left factor's
    entry (b, p, m) and the right factor's entry (b, m, f): axis by axis. -/

theorem lhsA_0 (i : S8x256x128.Idx) (q : dot_S8x256x1024_S8x1024x128_S8x256x128_2_1_1_2_0_0.contr.Idx) :
    (dot_S8x256x1024_S8x1024x128_S8x256x128_2_1_1_2_0_0.lhsIdx i q 0).val = (i 0).val := by
  unfold DotDims.lhsIdx
  rw [dif_pos (show (0 : Fin S8x256x1024.rank) ∈ dot_S8x256x1024_S8x1024x128_S8x256x128_2_1_1_2_0_0.lhsBatch by decide)]
  rfl
theorem lhsA_1 (i : S8x256x128.Idx) (q : dot_S8x256x1024_S8x1024x128_S8x256x128_2_1_1_2_0_0.contr.Idx) :
    (dot_S8x256x1024_S8x1024x128_S8x256x128_2_1_1_2_0_0.lhsIdx i q 1).val = (i 1).val := by
  unfold DotDims.lhsIdx
  rw [dif_neg (show ¬(1 : Fin S8x256x1024.rank) ∈ dot_S8x256x1024_S8x1024x128_S8x256x128_2_1_1_2_0_0.lhsBatch by decide), dif_pos (show (1 : Fin S8x256x1024.rank) ∈ dot_S8x256x1024_S8x1024x128_S8x256x128_2_1_1_2_0_0.lhsNonContracting by decide)]
  rfl
theorem lhsA_2 (i : S8x256x128.Idx) (q : dot_S8x256x1024_S8x1024x128_S8x256x128_2_1_1_2_0_0.contr.Idx) :
    (dot_S8x256x1024_S8x1024x128_S8x256x128_2_1_1_2_0_0.lhsIdx i q 2).val = (q ⟨0, by decide⟩).val :=
  dot_S8x256x1024_S8x1024x128_S8x256x128_2_1_1_2_0_0.lhsIdx_val_of_single rfl i q
theorem rhsA_0 (i : S8x256x128.Idx) (q : dot_S8x256x1024_S8x1024x128_S8x256x128_2_1_1_2_0_0.contr.Idx) :
    (dot_S8x256x1024_S8x1024x128_S8x256x128_2_1_1_2_0_0.rhsIdx i q 0).val = (i 0).val := by
  unfold DotDims.rhsIdx
  rw [dif_pos (show (0 : Fin S8x1024x128.rank) ∈ dot_S8x256x1024_S8x1024x128_S8x256x128_2_1_1_2_0_0.rhsBatch by decide)]
  rfl
theorem rhsA_1 (i : S8x256x128.Idx) (q : dot_S8x256x1024_S8x1024x128_S8x256x128_2_1_1_2_0_0.contr.Idx) :
    (dot_S8x256x1024_S8x1024x128_S8x256x128_2_1_1_2_0_0.rhsIdx i q 1).val = (q ⟨0, by decide⟩).val :=
  dot_S8x256x1024_S8x1024x128_S8x256x128_2_1_1_2_0_0.rhsIdx_val_of_single rfl i q
theorem rhsA_2 (i : S8x256x128.Idx) (q : dot_S8x256x1024_S8x1024x128_S8x256x128_2_1_1_2_0_0.contr.Idx) :
    (dot_S8x256x1024_S8x1024x128_S8x256x128_2_1_1_2_0_0.rhsIdx i q 2).val = (i 2).val := by
  unfold DotDims.rhsIdx
  rw [dif_neg (show ¬(2 : Fin S8x1024x128.rank) ∈ dot_S8x256x1024_S8x1024x128_S8x256x128_2_1_1_2_0_0.rhsBatch by decide), dif_pos (show (2 : Fin S8x1024x128.rank) ∈ dot_S8x256x1024_S8x1024x128_S8x256x128_2_1_1_2_0_0.rhsNonContracting by decide)]
  rfl

/-- The batched block product into a zero accumulator, at an entry: the sum over the block's 1024 columns. -/
theorem blockprod_apply (l : FVec Ideal S8x256x1024 .bf16) (r : FVec Ideal S8x1024x128 .bf16) (b : Fin 8) (p : Fin 256) (f : Fin 128) :
    (matmul dot_S8x256x1024_S8x1024x128_S8x256x128_2_1_1_2_0_0 none l r (constant (F := Ideal) S8x256x128 .f32 0x00000000#32) (ix3 b p f) : EReal)
      = ∑ m : Fin 1024, (l (ix3 b p m) : EReal) * r (ix3 b m f) := by
  simp only [matmul]
  rw [Ideal.matmul_constant_zero_apply, ← Equiv.sum_comp (ValueIdx.contrEquiv1 dot_S8x256x1024_S8x1024x128_S8x256x128_2_1_1_2_0_0 1024 rfl rfl).symm]
  refine Finset.sum_congr rfl fun k _ => ?_
  have hk := ValueIdx.contrEquiv1_symm_val dot_S8x256x1024_S8x1024x128_S8x256x128_2_1_1_2_0_0 1024 rfl rfl k
  have el : dot_S8x256x1024_S8x1024x128_S8x256x128_2_1_1_2_0_0.lhsIdx (ix3 b p f) ((ValueIdx.contrEquiv1 dot_S8x256x1024_S8x1024x128_S8x256x128_2_1_1_2_0_0 1024 rfl rfl).symm k) = ix3 b p k := funext fun a => Fin.ext (by
    match a with
    | ⟨0, _⟩ => exact lhsA_0 _ _
    | ⟨1, _⟩ => exact lhsA_1 _ _
    | ⟨2, _⟩ => exact (lhsA_2 _ _).trans hk)
  have er : dot_S8x256x1024_S8x1024x128_S8x256x128_2_1_1_2_0_0.rhsIdx (ix3 b p f) ((ValueIdx.contrEquiv1 dot_S8x256x1024_S8x1024x128_S8x256x128_2_1_1_2_0_0 1024 rfl rfl).symm k) = ix3 b k f := funext fun a => Fin.ext (by
    match a with
    | ⟨0, _⟩ => exact rhsA_0 _ _
    | ⟨1, _⟩ => exact (rhsA_1 _ _).trans hk
    | ⟨2, _⟩ => exact rhsA_2 _ _)
  rw [el, er]

/-- A per-row quantity [8, n] stretched along a trailing feature axis reads its row's value. -/
theorem col1024_apply (v : FVec Ideal S8x1024 .f32) (b : Fin 8) (m : Fin 1024) (f : Fin 128) :
    (broadcastTo S8x1024x128 (shapeCast S8x1024x1 v shapeCasts_S8x1024_S8x1024x1) broadcasts_S8x1024x1_S8x1024x128 (ix3 b m f) : EReal)
      = v (ix2 b m) := by
  refine (broadcastTo_apply _ broadcasts_S8x1024x1_S8x1024x128 (ix3 b m f) (ix3 b m (0 : Fin 1)) (fun a => ?_)).trans ?_
  · match a with
    | ⟨0, _⟩ => show b.val = if (8 : Nat) = 1 then 0 else b.val; rw [if_neg (by decide)]
    | ⟨1, _⟩ => show m.val = if (1024 : Nat) = 1 then 0 else m.val; rw [if_neg (by decide)]
    | ⟨2, _⟩ => show 0 = if (1 : Nat) = 1 then 0 else f.val; rw [if_pos rfl]
  · refine shapeCast_apply v shapeCasts_S8x1024_S8x1024x1 (ix3 b m (0 : Fin 1)) (ix2 b m) ?_
    rw [Shape.rowMajor_val_three, Shape.rowMajor_val_two]
    show b.val * 1024 + m.val = (b.val * 1024 + m.val) * 1 + 0
    omega

/-- The same for the 256 rows of a node-row block. -/
theorem col256_apply (v : FVec Ideal S8x256 .f32) (b : Fin 8) (p : Fin 256) (f : Fin 128) :
    (broadcastTo S8x256x128 (shapeCast S8x256x1 v shapeCasts_S8x256_S8x256x1) broadcasts_S8x256x1_S8x256x128 (ix3 b p f) : EReal)
      = v (ix2 b p) := by
  refine (broadcastTo_apply _ broadcasts_S8x256x1_S8x256x128 (ix3 b p f) (ix3 b p (0 : Fin 1)) (fun a => ?_)).trans ?_
  · match a with
    | ⟨0, _⟩ => show b.val = if (8 : Nat) = 1 then 0 else b.val; rw [if_neg (by decide)]
    | ⟨1, _⟩ => show p.val = if (256 : Nat) = 1 then 0 else p.val; rw [if_neg (by decide)]
    | ⟨2, _⟩ => show 0 = if (1 : Nat) = 1 then 0 else f.val; rw [if_pos rfl]
  · refine shapeCast_apply v shapeCasts_S8x256_S8x256x1 (ix3 b p (0 : Fin 1)) (ix2 b p) ?_
    rw [Shape.rowMajor_val_three, Shape.rowMajor_val_two]
    show b.val * 256 + p.val = (b.val * 256 + p.val) * 1 + 0
    omega

/-- One accumulation step at an entry: the accumulator plus the adjacency block's row against the scaled
    feature block's column. -/
theorem pay2_apply_r1 (v3 : Vec Ideal S8x256x1024 .f32) (v5 : Vec Ideal S8x1024x128 .f32) (v6 : Vec Ideal S8x1024 .f32)
    (v12 : Vec Ideal S8x256x128 .f32) (b : Fin 8) (p : Fin 256) (f : Fin 128) :
    (k1_pay2 v3 v5 v6 v12 (ix3 b p f) : EReal)
      = v12 (ix3 b p f) + ∑ m : Fin 1024, (v3 (ix3 b p m) : EReal) * (v5 (ix3 b m f) * v6 (ix2 b m)) := by
  unfold k1_pay2
  rw [shapeCast_self, shapeCast_self]
  refine (addf_apply _ _ _).trans ?_
  refine congrArg (fun z : EReal => (v12 (ix3 b p f) : EReal) + z) ?_
  refine (blockprod_apply _ _ b p f).trans ?_
  refine Finset.sum_congr rfl fun m _ => ?_
  show (v3 (ix3 b p m) : EReal) * ((v5 (ix3 b m f) : EReal) * _) = _
  rw [col1024_apply]

/-! For the projection, an output entry (n, o) and a contraction position f name the left factor's entry (n, f)
    and the weights' entry (f, o): axis by axis. -/

theorem lhsB_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhsB_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem rhsB_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem rhsB_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- The projection into a zero accumulator, at an entry: row n of the left factor against column o of the weights. -/
theorem proj_apply (l : FVec Ideal S2048x128 .bf16) (r : FVec Ideal S128x128 .bf16) (n : Fin 2048) (o : Fin 128) :
    (matmul dot_S2048x128_S128x128_S2048x128_1_0_0_1_n_n none l r (constant (F := Ideal) S2048x128 .f32 0x00000000#32) (ix2 n o) : EReal)
      = ∑ f : Fin 128, (l (ix2 n f) : EReal) * r (ix2 f o) := by
  simp only [matmul]
  rw [Ideal.matmul_constant_zero_apply, ← Equiv.sum_comp (ValueIdx.contrEquiv1 dot_S2048x128_S128x128_S2048x128_1_0_0_1_n_n 128 rfl rfl).symm]
  refine Finset.sum_congr rfl fun k _ => ?_
  have hk := ValueIdx.contrEquiv1_symm_val dot_S2048x128_S128x128_S2048x128_1_0_0_1_n_n 128 rfl rfl k
  have el : dot_S2048x128_S128x128_S2048x128_1_0_0_1_n_n.lhsIdx (ix2 n o) ((ValueIdx.contrEquiv1 dot_S2048x128_S128x128_S2048x128_1_0_0_1_n_n 128 rfl rfl).symm k) = ix2 n k := funext fun a => Fin.ext (by
    match a with
    | ⟨0, _⟩ => exact lhsB_0 _ _
    | ⟨1, _⟩ => exact (lhsB_1 _ _).trans hk)
  have er : dot_S2048x128_S128x128_S2048x128_1_0_0_1_n_n.rhsIdx (ix2 n o) ((ValueIdx.contrEquiv1 dot_S2048x128_S128x128_S2048x128_1_0_0_1_n_n 128 rfl rfl).symm k) = ix2 k o := funext fun a => Fin.ext (by
    match a with
    | ⟨0, _⟩ => exact (rhsB_0 _ _).trans hk
    | ⟨1, _⟩ => exact rhsB_1 _ _)
  rw [el, er]

/-- Rows of the [8, 256, ·] block laid out as 2048 rows: row 256 b + p is entry (b, p). -/
theorem flat_apply (v : FVec Ideal S8x256x128 .bf16) (b : Fin 8) (p : Fin 256) (f : Fin 128) (n : Fin 2048) (hn : n.val = 256 * b.val + p.val) :
    (shapeCast S2048x128 v shapeCasts_S8x256x128_S2048x128 (ix2 n f) : EReal) = v (ix3 b p f) := by
  refine shapeCast_apply v shapeCasts_S8x256x128_S2048x128 (ix2 n f) (ix3 b p f) ?_
  rw [Shape.rowMajor_val_three, Shape.rowMajor_val_two]
  show (b.val * 256 + p.val) * 128 + f.val = n.val * 128 + f.val
  rw [hn]; omega

/-- And back: entry (b, p) of the [8, 256, ·] result is row 256 b + p of the 2048 rows. -/
theorem unflat_apply (v : FVec Ideal S2048x128 .f32) (b : Fin 8) (p : Fin 256) (o : Fin 128) (n : Fin 2048) (hn : n.val = 256 * b.val + p.val) :
    (shapeCast S8x256x128 v shapeCasts_S2048x128_S8x256x128 (ix3 b p o) : EReal) = v (ix2 n o) := by
  refine shapeCast_apply v shapeCasts_S2048x128_S8x256x128 (ix3 b p o) (ix2 n o) ?_
  rw [Shape.rowMajor_val_three, Shape.rowMajor_val_two]
  show n.val * 128 + o.val = (b.val * 256 + p.val) * 128 + o.val
  rw [hn]; omega

/-- The closing stretch at an entry: the accumulator corrected for the self loop, scaled by the row's degree factor,
    projected by the weights and rectified. -/
theorem pay3_apply (v21 v23 : Vec Ideal S8x256 .f32) (v25 v35 : Vec Ideal S8x256x128 .f32) (v41 : Vec Ideal S128x128 .f32)
    (b : Fin 8) (p : Fin 256) (o : Fin 128) :
    (k1_pay3 v21 v23 v25 v35 v41 (ix3 b p o) : EReal)
      = max (∑ f : Fin 128, ((v21 (ix2 b p) : EReal) * ((v35 (ix3 b p f) : EReal)
          + ((v25 (ix3 b p f) : EReal) * v21 (ix2 b p)) * (1 - (v23 (ix2 b p) : EReal)))) * (v41 (ix2 f o) : EReal)) 0 := by
  unfold k1_pay3
  rw [shapeCast_self, shapeCast_self]
  refine (maximumf_apply _ _ _).trans ?_
  have hz : (broadcast S8x256x128 (Scalar.ofBits (F := Ideal) .f32 0x00000000#32) (ix3 b p o) : EReal) = 0 := Ideal.ofBits_zero_f32
  rw [hz]
  refine congrArg (fun z : EReal => max z 0) ?_
  refine (unflat_apply _ b p o ⟨256 * b.val + p.val, by omega⟩ rfl).trans ?_
  refine (proj_apply _ _ _ o).trans ?_
  refine Finset.sum_congr rfl fun f _ => ?_
  refine congrArg₂ (fun x y : EReal => x * y) ?_ rfl
  refine (flat_apply _ b p f ⟨256 * b.val + p.val, by omega⟩ rfl).trans ?_
  show (broadcastTo S8x256x128 (shapeCast S8x256x1 v21 shapeCasts_S8x256_S8x256x1) broadcasts_S8x256x1_S8x256x128 (ix3 b p f) : EReal)
      * ((v35 (ix3 b p f) : EReal) + ((v25 (ix3 b p f) : EReal) * (broadcastTo S8x256x128 (shapeCast S8x256x1 v21 shapeCasts_S8x256_S8x256x1) broadcasts_S8x256x1_S8x256x128 (ix3 b p f) : EReal))
          * (broadcastTo S8x256x128 (shapeCast S8x256x1 (subf (broadcast S8x256 (Scalar.ofBits (F := Ideal) .f32 0x3F800000#32)) v23) shapeCasts_S8x256_S8x256x1) broadcasts_S8x256x1_S8x256x128 (ix3 b p f) : EReal)) = _
  rw [col256_apply, col256_apply]
  show (v21 (ix2 b p) : EReal) * ((v35 (ix3 b p f) : EReal) + ((v25 (ix3 b p f) : EReal) * v21 (ix2 b p)) * (Ideal.ofBits .f32 0x3F800000#32 - (v23 (ix2 b p) : EReal))) = _
  rw [Cert.Spec.ofBits_one]

/-! ## The entry out of its blocks -/

/-- A sum over the 2048 neighbours is the sum over the first 1024 and then over the last 1024. -/
theorem sum_halves (g : Fin 2048 → EReal) :
    ∑ m : Fin 2048, g m
      = (0 + ∑ m : Fin 1024, g ⟨m.val, by omega⟩) + ∑ m : Fin 1024, g ⟨1024 + m.val, by omega⟩ := by
  rw [zero_add]
  exact Fin.sum_univ_add (a := 1024) (b := 1024) g

/-- One entry of the layer out of its blocks. Given the blocks of an odd point as the rows and columns of the arrays
    they were cut from — the two adjacency blocks of node n's row, the two neighbour halves of the features and degree
    factors, node n's own features, degree factor and diagonal entry, the weights — the closing stretch applied to the
    accumulator after both block products is the two-pass form at node n: the neighbour sum is the first half's block
    product (added to zero) plus the second half's. -/
theorem layer_entry (A : S8x2048x2048.Idx → EReal) (X : S8x2048x128.Idx → EReal) (Dg Di : S8x2048.Idx → EReal)
    (K : S128x128.Idx → EReal)
    (a0 a0' : Vec Ideal S8x256x1024 .f32) (x1 x1' : Vec Ideal S8x1024x128 .f32) (d3 d3' : Vec Ideal S8x1024 .f32)
    (x2 : Vec Ideal S8x256x128 .f32) (d4 d5 : Vec Ideal S8x256 .f32) (k6 : Vec Ideal S128x128 .f32)
    (b : Fin 8) (p : Fin 256) (o : Fin 128) (n : Fin 2048)
    (h0' : ∀ m : Fin 1024, (a0' (ix3 b p m) : EReal) = A (ix3 b n ⟨m.val, by omega⟩))
    (h0 : ∀ m : Fin 1024, (a0 (ix3 b p m) : EReal) = A (ix3 b n ⟨1024 + m.val, by omega⟩))
    (h1' : ∀ (m : Fin 1024) (f : Fin 128), (x1' (ix3 b m f) : EReal) = X (ix3 b ⟨m.val, by omega⟩ f))
    (h1 : ∀ (m : Fin 1024) (f : Fin 128), (x1 (ix3 b m f) : EReal) = X (ix3 b ⟨1024 + m.val, by omega⟩ f))
    (h3' : ∀ m : Fin 1024, (d3' (ix2 b m) : EReal) = Dg (ix2 b ⟨m.val, by omega⟩))
    (h3 : ∀ m : Fin 1024, (d3 (ix2 b m) : EReal) = Dg (ix2 b ⟨1024 + m.val, by omega⟩))
    (h2 : ∀ f : Fin 128, (x2 (ix3 b p f) : EReal) = X (ix3 b n f))
    (h4 : (d4 (ix2 b p) : EReal) = Dg (ix2 b n)) (h5 : (d5 (ix2 b p) : EReal) = Di (ix2 b n))
    (h6 : ∀ f : Fin 128, (k6 (ix2 f o) : EReal) = K (ix2 f o)) :
    (k1_pay3 d4 d5 x2 (k1_pay2 a0 x1 d3 (k1_pay2 a0' x1' d3' (k1_pay1 (F := Ideal)))) k6 (ix3 b p o) : EReal)
      = Cert.Spec.outK X A Dg Di K b n o := by
  refine (pay3_apply d4 d5 x2 _ k6 b p o).trans ?_
  unfold Cert.Spec.outK
  refine congrArg (fun z : EReal => max z 0) (Finset.sum_congr rfl fun f _ => ?_)
  rw [pay2_apply_r1, pay2_apply_r1, pay1_apply_r1, h2 f, h4, h5, h6 f, sum_halves]
  refine congrArg (fun z : EReal => (Dg (ix2 b n) * (z + (X (ix3 b n f) * Dg (ix2 b n)) * (1 - Di (ix2 b n)))) * K (ix2 f o)) ?_
  refine congrArg₂ (fun x y : EReal => x + y) (congrArg (fun z : EReal => 0 + z) (Finset.sum_congr rfl fun m _ => ?_))
    (Finset.sum_congr rfl fun m _ => ?_)
  · rw [h0' m, h1' m f, h3' m]
  · rw [h0 m, h1 m f, h3 m]

/-! ## The blocks as parts of their arrays -/

variable (V : (c : Dev nD) → (b : Ref sig .tc) → Buf (Elt Ideal) ((c : Thread nD τ).loc b))

/-- The grid has 16 points. -/
theorem lt16 (t : Fin cfg1.N) : t.val < 16 := lt_of_lt_of_eq t.isLt N_1

/-- Where each window's block sits at point t = 2 i + j: the node-row windows at block i, the neighbour-column
    windows at block j, the weights whole. -/
theorem idx_facts : ∀ t : Fin cfg1.N,
    win1_0.index t (0 : Fin 3) = 0 ∧ win1_0.index t (1 : Fin 3) = t.val / 2 ∧ win1_0.index t (2 : Fin 3) = t.val % 2
  ∧ win1_1.index t (0 : Fin 3) = 0 ∧ win1_1.index t (1 : Fin 3) = t.val % 2 ∧ win1_1.index t (2 : Fin 3) = 0
  ∧ win1_2.index t (0 : Fin 3) = 0 ∧ win1_2.index t (1 : Fin 3) = t.val / 2 ∧ win1_2.index t (2 : Fin 3) = 0
  ∧ win1_3.index t (0 : Fin 2) = 0 ∧ win1_3.index t (1 : Fin 2) = t.val % 2
  ∧ win1_4.index t (0 : Fin 2) = 0 ∧ win1_4.index t (1 : Fin 2) = t.val / 2
  ∧ win1_5.index t (0 : Fin 2) = 0 ∧ win1_5.index t (1 : Fin 2) = t.val / 2
  ∧ win1_6.index t (0 : Fin 2) = 0 ∧ win1_6.index t (1 : Fin 2) = 0
  ∧ win1_7.index t (0 : Fin 3) = 0 ∧ win1_7.index t (1 : Fin 3) = t.val / 2 ∧ win1_7.index t (2 : Fin 3) = 0 :=
  (by decide +kernel : ∀ t : Fin grid1.N, _)

/-- The adjacency block at a point: rows 256 i + p, columns 1024 j + m. -/
theorem adj_blk (c : Dev nD) (t : Fin cfg1.N) (b : Fin 8) (p : Fin 256) (m : Fin 1024) (n m' : Fin 2048)
    (hn : n.val = 256 * (t.val / 2) + p.val) (hm : m'.val = 1024 * (t.val % 2) + m.val) :
    (iblk1 V c 0 t (ix3 b p m) : EReal) = (V c main_arg1 : S8x2048x2048.Idx → EReal) (ix3 b n m') := by
  unfold iblk1
  rw [View.read_apply]
  show (V c main_arg1 : S8x2048x2048.Idx → EReal) _ = _
  congr 1
  funext a
  apply Fin.ext
  obtain ⟨e0, e1, e2, -⟩ := idx_facts t
  match a with
  | ⟨0, _⟩ => show win1_0.index t (0 : Fin 3) * 8 + 1 * b.val = b.val; omega
  | ⟨1, _⟩ => show win1_0.index t (1 : Fin 3) * 256 + 1 * p.val = n.val; omega
  | ⟨2, _⟩ => show win1_0.index t (2 : Fin 3) * 1024 + 1 * m.val = m'.val; omega

/-- The neighbours' feature block: nodes 1024 j + m. -/
theorem featN_blk (c : Dev nD) (t : Fin cfg1.N) (b : Fin 8) (m : Fin 1024) (f : Fin 128) (m' : Fin 2048)
    (hm : m'.val = 1024 * (t.val % 2) + m.val) :
    (iblk1 V c 1 t (ix3 b m f) : EReal) = (V c main_arg0 : S8x2048x128.Idx → EReal) (ix3 b m' f) := by
  unfold iblk1
  rw [View.read_apply]
  show (V c main_arg0 : S8x2048x128.Idx → EReal) _ = _
  congr 1
  funext a
  apply Fin.ext
  obtain ⟨-, -, -, e0, e1, e2, -⟩ := idx_facts t
  match a with
  | ⟨0, _⟩ => show win1_1.index t (0 : Fin 3) * 8 + 1 * b.val = b.val; omega
  | ⟨1, _⟩ => show win1_1.index t (1 : Fin 3) * 1024 + 1 * m.val = m'.val; omega
  | ⟨2, _⟩ => show win1_1.index t (2 : Fin 3) * 128 + 1 * f.val = f.val; omega

/-- The rows' own feature block: nodes 256 i + p. -/
theorem featR_blk (c : Dev nD) (t : Fin cfg1.N) (b : Fin 8) (p : Fin 256) (f : Fin 128) (n : Fin 2048)
    (hn : n.val = 256 * (t.val / 2) + p.val) :
    (iblk1 V c 2 t (ix3 b p f) : EReal) = (V c main_arg0 : S8x2048x128.Idx → EReal) (ix3 b n f) := by
  unfold iblk1
  rw [View.read_apply]
  show (V c main_arg0 : S8x2048x128.Idx → EReal) _ = _
  congr 1
  funext a
  apply Fin.ext
  obtain ⟨-, -, -, -, -, -, e0, e1, e2, -⟩ := idx_facts t
  match a with
  | ⟨0, _⟩ => show win1_2.index t (0 : Fin 3) * 8 + 1 * b.val = b.val; omega
  | ⟨1, _⟩ => show win1_2.index t (1 : Fin 3) * 256 + 1 * p.val = n.val; omega
  | ⟨2, _⟩ => show win1_2.index t (2 : Fin 3) * 128 + 1 * f.val = f.val; omega

/-- The neighbours' degree factors. -/
theorem degN_blk (c : Dev nD) (t : Fin cfg1.N) (b : Fin 8) (m : Fin 1024) (m' : Fin 2048)
    (hm : m'.val = 1024 * (t.val % 2) + m.val) :
    (iblk1 V c 3 t (ix2 b m) : EReal) = (V c main_v0_0 : S8x2048.Idx → EReal) (ix2 b m') := by
  unfold iblk1
  rw [View.read_apply]
  show (V c main_v0_0 : S8x2048.Idx → EReal) _ = _
  congr 1
  funext a
  apply Fin.ext
  obtain ⟨-, -, -, -, -, -, -, -, -, e0, e1, -⟩ := idx_facts t
  match a with
  | ⟨0, _⟩ => show win1_3.index t (0 : Fin 2) * 8 + 1 * b.val = b.val; omega
  | ⟨1, _⟩ => show win1_3.index t (1 : Fin 2) * 1024 + 1 * m.val = m'.val; omega

/-- The rows' own degree factors. -/
theorem degR_blk (c : Dev nD) (t : Fin cfg1.N) (b : Fin 8) (p : Fin 256) (n : Fin 2048)
    (hn : n.val = 256 * (t.val / 2) + p.val) :
    (iblk1 V c 4 t (ix2 b p) : EReal) = (V c main_v0_0 : S8x2048.Idx → EReal) (ix2 b n) := by
  unfold iblk1
  rw [View.read_apply]
  show (V c main_v0_0 : S8x2048.Idx → EReal) _ = _
  congr 1
  funext a
  apply Fin.ext
  obtain ⟨-, -, -, -, -, -, -, -, -, -, -, e0, e1, -⟩ := idx_facts t
  match a with
  | ⟨0, _⟩ => show win1_4.index t (0 : Fin 2) * 8 + 1 * b.val = b.val; omega
  | ⟨1, _⟩ => show win1_4.index t (1 : Fin 2) * 256 + 1 * p.val = n.val; omega

/-- The rows' own diagonal entries. -/
theorem diag_blk_r1 (c : Dev nD) (t : Fin cfg1.N) (b : Fin 8) (p : Fin 256) (n : Fin 2048)
    (hn : n.val = 256 * (t.val / 2) + p.val) :
    (iblk1 V c 5 t (ix2 b p) : EReal) = (V c main_v0_1 : S8x2048.Idx → EReal) (ix2 b n) := by
  unfold iblk1
  rw [View.read_apply]
  show (V c main_v0_1 : S8x2048.Idx → EReal) _ = _
  congr 1
  funext a
  apply Fin.ext
  obtain ⟨-, -, -, -, -, -, -, -, -, -, -, -, -, e0, e1, -⟩ := idx_facts t
  match a with
  | ⟨0, _⟩ => show win1_5.index t (0 : Fin 2) * 8 + 1 * b.val = b.val; omega
  | ⟨1, _⟩ => show win1_5.index t (1 : Fin 2) * 256 + 1 * p.val = n.val; omega

/-- The weights, whole at every point. -/
theorem wts_blk (c : Dev nD) (t : Fin cfg1.N) (f o : Fin 128) :
    (iblk1 V c 6 t (ix2 f o) : EReal) = (V c main_arg2 : S128x128.Idx → EReal) (ix2 f o) := by
  unfold iblk1
  rw [View.read_apply]
  show (V c main_arg2 : S128x128.Idx → EReal) _ = _
  congr 1
  funext a
  apply Fin.ext
  obtain ⟨-, -, -, -, -, -, -, -, -, -, -, -, -, -, -, e0, e1, -⟩ := idx_facts t
  match a with
  | ⟨0, _⟩ => show win1_6.index t (0 : Fin 2) * 128 + 1 * f.val = f.val; omega
  | ⟨1, _⟩ => show win1_6.index t (1 : Fin 2) * 128 + 1 * o.val = o.val; omega

/-- Where entry (b, p, o) of the result block at point t lands in the result array: node 256 i + p. -/
theorem out_emb (t : Fin cfg1.N) (b : Fin 8) (p : Fin 256) (o : Fin 128) (n : Fin 2048)
    (hn : n.val = 256 * (t.val / 2) + p.val) :
    ((cfg1.win 7).blk t).view.emb (ix3 b p o) = (ix3 b n o : S8x2048x128.Idx) := by
  funext a
  apply Fin.ext
  obtain ⟨-, -, -, -, -, -, -, -, -, -, -, -, -, -, -, -, -, e0, e1, e2⟩ := idx_facts t
  match a with
  | ⟨0, _⟩ => show win1_7.index t (0 : Fin 3) * 8 + 1 * b.val = b.val; omega
  | ⟨1, _⟩ => show win1_7.index t (1 : Fin 3) * 256 + 1 * p.val = n.val; omega
  | ⟨2, _⟩ => show win1_7.index t (2 : Fin 3) * 128 + 1 * o.val = o.val; omega

/-! ## From the odd points' blocks to the array -/

/-- The two-pass layer over the arrays the region found, as one function on the result array's indices. -/
def layerOf (c : Dev nD) : S8x2048x128.Idx → EReal := fun i =>
  Cert.Spec.outK (V c main_arg0 : S8x2048x128.Idx → EReal) (V c main_arg1 : S8x2048x2048.Idx → EReal)
    (V c main_v0_0 : S8x2048.Idx → EReal) (V c main_v0_1 : S8x2048.Idx → EReal) (V c main_arg2 : S128x128.Idx → EReal)
    (i 0) (i 1) (i 2)

/-- What an odd point writes back is its block of the layer: rows 256 i .. 256 i + 255. -/
theorem flushed_odd (c : Dev nD) (t : Fin cfg1.N) (ht : t.val % 2 = 1) :
    (dat1 (F := Ideal) V c).flushed 7 t = ((cfg1.win 7).blk t).view.read (Elt Ideal) (layerOf V c) := by
  show (cfg1.win 7).cut (grid1.coords t) ((dat1 V c).after 7 t) = _
  rw [after1_7]
  have ht16 := lt16 t
  refine funext fun j => ?_
  obtain ⟨b, p, o, rfl⟩ : ∃ (b : Fin 8) (p : Fin 256) (o : Fin 128), j = ix3 b p o := ⟨j 0, j 1, j 2, eq_ix3 j⟩
  rw [View.read_apply, out_emb t b p o ⟨256 * (t.val / 2) + p.val, by omega⟩ rfl]
  show (out1 V c t (ix3 b p o) : EReal) = _
  unfold out1 acc1
  rw [if_neg (by omega : ¬ t.val % 2 = 0)]
  unfold step1
  have hp : (prev1 t).val = t.val - 1 := rfl
  exact layer_entry (V c main_arg1 : S8x2048x2048.Idx → EReal) (V c main_arg0 : S8x2048x128.Idx → EReal)
    (V c main_v0_0 : S8x2048.Idx → EReal) (V c main_v0_1 : S8x2048.Idx → EReal) (V c main_arg2 : S128x128.Idx → EReal)
    (iblk1 V c 0 t) (iblk1 V c 0 (prev1 t)) (iblk1 V c 1 t) (iblk1 V c 1 (prev1 t)) (iblk1 V c 3 t) (iblk1 V c 3 (prev1 t))
    (iblk1 V c 2 t) (iblk1 V c 4 t) (iblk1 V c 5 t) (iblk1 V c 6 t) b p o ⟨256 * (t.val / 2) + p.val, by omega⟩
    (fun m => adj_blk V c (prev1 t) b p m _ _ (by rw [hp]; show 256 * (t.val / 2) + p.val = _; omega) (by rw [hp]; show m.val = _; omega))
    (fun m => adj_blk V c t b p m _ _ rfl (by show 1024 + m.val = _; omega))
    (fun m f => featN_blk V c (prev1 t) b m f _ (by rw [hp]; show m.val = _; omega))
    (fun m f => featN_blk V c t b m f _ (by show 1024 + m.val = _; omega))
    (fun m => degN_blk V c (prev1 t) b m _ (by rw [hp]; show m.val = _; omega))
    (fun m => degN_blk V c t b m _ (by show 1024 + m.val = _; omega))
    (fun f => featR_blk V c t b p f _ rfl)
    (degR_blk V c t b p _ rfl) (diag_blk_r1 V c t b p _ rfl)
    (fun f => wts_blk V c t f o)

/-- An index of the result array lies in point t's block iff each coordinate lies in the block's range on its axis. -/
theorem mem_out_blk (t : Fin cfg1.N) (i : S8x2048x128.Idx) :
    i ∈ ((cfg1.win 7).blk t).view.set ↔ ∀ a : Fin 3, win1_7.index t a * S8x256x128.size a ≤ (i a).val ∧ (i a).val < win1_7.index t a * S8x256x128.size a + S8x256x128.size a := by
  show i ∈ ((View.whole main_v1).slice (win1_7.rect t)).set ↔ _
  rw [View.set_slice_whole, Rect.mem_set_unit]
  exact Iff.rfl

/-- Node n is written at the odd point 2 (n / 256) + 1: the eight odd points' blocks tile the result array. -/
theorem out_cover (i : S8x2048x128.Idx) :
    ∃ t : Fin cfg1.N, (cfg1.win 7).flush t = true ∧ i ∈ ((cfg1.win 7).blk t).view.set := by
  have h0 : (i 0).val < 8 := (i 0).isLt
  have h1 : (i 1).val < 2048 := (i 1).isLt
  have h2 : (i 2).val < 128 := (i 2).isLt
  obtain ⟨t, htv⟩ : ∃ t : Fin cfg1.N, t.val = 2 * ((i 1).val / 256) + 1 :=
    ⟨⟨2 * ((i 1).val / 256) + 1, by rw [show cfg1.N = 16 from N_1]; omega⟩, rfl⟩
  obtain ⟨-, -, -, -, -, -, -, -, -, -, -, -, -, -, -, -, -, e0, e1, e2⟩ := idx_facts t
  refine ⟨t, (flush1_7 t).mpr (by omega), ?_⟩
  rw [mem_out_blk]
  intro a
  match a with
  | ⟨0, _⟩ => show win1_7.index t (0 : Fin 3) * 8 ≤ (i 0).val ∧ (i 0).val < win1_7.index t (0 : Fin 3) * 8 + 8; omega
  | ⟨1, _⟩ => show win1_7.index t (1 : Fin 3) * 256 ≤ (i 1).val ∧ (i 1).val < win1_7.index t (1 : Fin 3) * 256 + 256; omega
  | ⟨2, _⟩ => show win1_7.index t (2 : Fin 3) * 128 ≤ (i 2).val ∧ (i 2).val < win1_7.index t (2 : Fin 3) * 128 + 128; omega

/-- The result array after the 16 points. -/
theorem out_arr (c : Dev nD) (b : Fin 8) (n : Fin 2048) (o : Fin 128) :
    ((dat1 (F := Ideal) V c).arrAt 7 cfg1.N : S8x2048x128.Idx → EReal) (ix3 b n o)
      = Cert.Spec.outK (V c main_arg0 : S8x2048x128.Idx → EReal) (V c main_arg1 : S8x2048x2048.Idx → EReal)
          (V c main_v0_0 : S8x2048.Idx → EReal) (V c main_v0_1 : S8x2048.Idx → EReal) (V c main_arg2 : S128x128.Idx → EReal) b n o := by
  have h := (dat1 (F := Ideal) V c).arrAt_eq_of_cover 7 (layerOf V c)
    (fun t hf => flushed_odd V c t ((flush1_7 t).mp hf)) out_cover
  exact congrFun h (ix3 b n o)

end Cert.KernelIdeal.Hand

end
-- ==== Proof.RefValue.lean ====
/-
  The reference program's result, one element at a time: it is the layer `outR` of its three arguments.

  The stages are read in the program's own order.  The comparison of the row counter with the column counter,
  turned into a number, is the identity matrix's entry.  The adjacency times one minus that entry, plus that
  entry, is the self-looped adjacency.  Its sum along the last axis, started from zero, is the row sum; one over
  the regulariser plus the square root of the row sum is the degree scaling.  The self-looped adjacency times the
  scaling of its row and of its column is the normalised adjacency.  The two contractions are sums over the
  neighbour and over the input feature, and the last stage is the maximum with zero.
-/
import proofs.«106363_j29145648070885_1_alg».proof.Proof.Gen.ReferenceIdeal.Read
import proofs.«106363_j29145648070885_1_alg».proof.Proof.Spec

noncomputable section

namespace Cert.ReferenceIdeal.RefValue

open Idealize.ShloMosaic Idealize.ShloMosaic.TcCoe Idealize.ShloMosaic.ValueIdx
open Cert.ReferenceIdeal Cert.ReferenceIdeal.Gen

/-! ## The identity mask -/

/-- Two node numbers are below 2048, far below 2 ^ 32, so their 32-bit words (the first with the zero word added)
    are equal exactly when the nodes are. -/
theorem node_words_eq_iff (n m : Fin 2048) :
    IntOp.addi (BitVec.ofNat 32 n.val) 0#32 = BitVec.ofNat 32 m.val ↔ n = m := by
  unfold IntOp.addi
  rw [BitVec.add_zero]
  constructor
  · intro h
    have h' := congrArg BitVec.toNat h
    simp only [BitVec.toNat_ofNat] at h'
    have := n.isLt
    have := m.isLt
    exact Fin.ext (by omega)
  · rintro rfl
    rfl

/-- The bit of an equality test, read as a number, is one when the words are equal and zero otherwise. -/
theorem eq_bit_toNat {w : Nat} (a b : BitVec w) : (IntOp.cmpi .eq a b).toNat = if a = b then 1 else 0 := by
  unfold IntOp.cmpi
  by_cases h : a = b <;> simp [h]

/-- The mask at row n and column m is the identity matrix's entry: the row counter plus zero is compared with the
    column counter, and the bit is converted to the number it is. -/
theorem mask_is_kron (n m : Fin 2048) : Read.val_main_v5 (F := Ideal) (ix2 n m) = Cert.Spec.kron n m := by
  rw [Read.val_main_v5_apply, Read.val_main_v4_apply, Read.val_main_v3_apply, Read.val_main_v0_apply,
    Read.val_main_v2_apply, Read.val_main_c_apply, Read.val_main_v1_apply]
  show (((IntOp.cmpi .eq (IntOp.addi (BitVec.ofNat 32 n.val) 0#32) (BitVec.ofNat 32 m.val)).toNat : ℝ) : EReal) = _
  rw [eq_bit_toNat]
  unfold Cert.Spec.kron
  by_cases h : n = m
  · rw [if_pos h, if_pos ((node_words_eq_iff n m).mpr h)]
    simp
  · rw [if_neg h, if_neg (fun hc => h ((node_words_eq_iff n m).mp hc))]
    simp

/-! ## Where each stage reads its operand

A broadcast along the batch axis forgets the batch; a broadcast of the per-node scaling along the columns keeps
(batch, row), along the rows keeps (batch, column); a sum or a contraction over the last axis of its left operand
puts the summation variable there. -/

/-- One minus the mask, broadcast over the batch, is read at (row, column). -/
theorem complement_read (b : Fin 8) (n m : Fin 2048) : Read.idx_main_v8 (Read.idx_main_v9 (ix3 b n m)) = ix2 n m :=
  funext fun a => match a with | ⟨0, _⟩ => rfl | ⟨1, _⟩ => rfl

/-- The mask, broadcast over the batch, is read at (row, column). -/
theorem mask_read (b : Fin 8) (n m : Fin 2048) : Read.idx_main_v11 (Read.idx_main_v12 (ix3 b n m)) = ix2 n m :=
  funext fun a => match a with | ⟨0, _⟩ => rfl | ⟨1, _⟩ => rfl

/-- The row sum's k-th term is the entry at column k of that batch and row. -/
theorem rowsum_read (b : Fin 8) (n k : Fin 2048) : Read.idx_main_v14 (ix2 b n) k = ix3 b n k :=
  funext fun a => match a with | ⟨0, _⟩ => rfl | ⟨1, _⟩ => rfl | ⟨2, _⟩ => rfl

/-- The scaling broadcast along the columns is read at (batch, row). -/
theorem row_scale_read (b : Fin 8) (n m : Fin 2048) : Read.idx_main_v20 (Read.idx_main_v21 (ix3 b n m)) = ix2 b n :=
  funext fun a => match a with | ⟨0, _⟩ => rfl | ⟨1, _⟩ => rfl

/-- The scaling broadcast along the rows is read at (batch, column). -/
theorem col_scale_read (b : Fin 8) (n m : Fin 2048) : Read.idx_main_v23 (Read.idx_main_v24 (ix3 b n m)) = ix2 b m :=
  funext fun a => match a with | ⟨0, _⟩ => rfl | ⟨1, _⟩ => rfl

/-- The aggregation's k-th term takes the normalised adjacency at (batch, node, k) … -/
theorem agg_left_read (b : Fin 8) (n : Fin 2048) (f : Fin 128) (k : Fin 2048) :
    Read.lidx_main_v26 (ix3 b n f) k = ix3 b n k :=
  funext fun a => match a with | ⟨0, _⟩ => rfl | ⟨1, _⟩ => rfl | ⟨2, _⟩ => rfl

/-- … and the features at (batch, k, feature). -/
theorem agg_right_read (b : Fin 8) (n : Fin 2048) (f : Fin 128) (k : Fin 2048) :
    Read.ridx_main_v26 (ix3 b n f) k = ix3 b k f :=
  funext fun a => match a with | ⟨0, _⟩ => rfl | ⟨1, _⟩ => rfl | ⟨2, _⟩ => rfl

/-- The projection's k-th term takes the aggregate at (batch, node, k) … -/
theorem proj_left_read (b : Fin 8) (n : Fin 2048) (o k : Fin 128) : Read.lidx_main_v27 (ix3 b n o) k = ix3 b n k :=
  funext fun a => match a with | ⟨0, _⟩ => rfl | ⟨1, _⟩ => rfl | ⟨2, _⟩ => rfl

/-- … and the weight at (k, output feature). -/
theorem proj_right_read (b : Fin 8) (n : Fin 2048) (o k : Fin 128) : Read.ridx_main_v27 (ix3 b n o) k = ix2 k o :=
  funext fun a => match a with | ⟨0, _⟩ => rfl | ⟨1, _⟩ => rfl

/-! ## The stages -/

/-- The adjacency times one minus the mask, plus the mask, is the self-looped adjacency. -/
theorem selfloop_is_ahat (adj : (⟨S8x2048x2048, .f32⟩ : BufTy).Contents (Elt Ideal)) (b : Fin 8) (n m : Fin 2048) :
    Read.val_main_v13 (F := Ideal) adj (ix3 b n m) = Cert.Spec.ahat adj b n m := by
  rw [Read.val_main_v13_apply, Read.val_main_v10_apply, Read.val_main_v9_apply, Read.val_main_v8_apply,
    Read.val_main_v7_apply, Read.val_main_v6_apply, Read.val_main_cst_apply, Read.val_main_v12_apply,
    Read.val_main_v11_apply, complement_read, mask_read, mask_is_kron]
  simp only [Ideal.mulf_def, Ideal.addf_def, Ideal.subf_def, Ideal.ofBits_def, Cert.Spec.ofBits_one]
  rfl

/-- The sum along the last axis starts from the zero word, which is zero, and zero plus a sum is the sum. -/
theorem rowsum_is_sum (adj : (⟨S8x2048x2048, .f32⟩ : BufTy).Contents (Elt Ideal)) (b : Fin 8) (n : Fin 2048) :
    Read.val_main_v14 (F := Ideal) adj (ix2 b n) = ∑ m : Fin 2048, Cert.Spec.ahat adj b n m := by
  rw [Read.val_main_v14_apply, Read.val_main_cst_0_apply]
  simp only [rowsum_read, selfloop_is_ahat, Ideal.ofBits_def, Ideal.ofBits_zero_f32, zero_add]

/-- One over the regulariser plus the square root of the row sum is the degree scaling. -/
theorem scale_is_degR (adj : (⟨S8x2048x2048, .f32⟩ : BufTy).Contents (Elt Ideal)) (b : Fin 8) (n : Fin 2048) :
    Read.val_main_v19 (F := Ideal) adj (ix2 b n) = Cert.Spec.degR adj b n := by
  rw [Read.val_main_v19_apply, Read.val_main_v18_apply, Read.val_main_cst_2_apply, Read.val_main_v17_apply,
    Read.val_main_v16_apply, Read.val_main_cst_1_apply, Read.val_main_v15_apply, rowsum_is_sum]
  simp only [Ideal.hostDivf_def, Ideal.addf_def, Ideal.hostUnary_sqrt_def, Ideal.ofBits_def, Cert.Spec.ofBits_one]
  rfl

/-- The self-looped adjacency times its row's scaling times its column's scaling. -/
theorem norm_is_product (adj : (⟨S8x2048x2048, .f32⟩ : BufTy).Contents (Elt Ideal)) (b : Fin 8) (n m : Fin 2048) :
    Read.val_main_v25 (F := Ideal) adj (ix3 b n m)
      = Cert.Spec.ahat adj b n m * Cert.Spec.degR adj b n * Cert.Spec.degR adj b m := by
  rw [Read.val_main_v25_apply, Read.val_main_v22_apply, Read.val_main_v21_apply, Read.val_main_v20_apply,
    Read.val_main_v24_apply, Read.val_main_v23_apply, row_scale_read, col_scale_read, selfloop_is_ahat,
    scale_is_degR, scale_is_degR]
  simp only [Ideal.mulf_def]

/-- The first contraction: the normalised adjacency's row against the features' column, over the neighbours. -/
theorem agg_is_sum (x : (⟨S8x2048x128, .f32⟩ : BufTy).Contents (Elt Ideal))
    (adj : (⟨S8x2048x2048, .f32⟩ : BufTy).Contents (Elt Ideal)) (b : Fin 8) (n : Fin 2048) (f : Fin 128) :
    Read.val_main_v26 (F := Ideal) x adj (ix3 b n f)
      = ∑ m : Fin 2048, (Cert.Spec.ahat adj b n m * Cert.Spec.degR adj b n * Cert.Spec.degR adj b m) * x (ix3 b m f) := by
  rw [Read.val_main_v26_apply]
  simp only [agg_left_read, agg_right_read, norm_is_product]

/-- The second contraction: the aggregate against the weights' column, over the input features. -/
theorem proj_is_sum (x : (⟨S8x2048x128, .f32⟩ : BufTy).Contents (Elt Ideal))
    (adj : (⟨S8x2048x2048, .f32⟩ : BufTy).Contents (Elt Ideal)) (K : (⟨S128x128, .f32⟩ : BufTy).Contents (Elt Ideal))
    (b : Fin 8) (n : Fin 2048) (o : Fin 128) :
    Read.val_main_v27 (F := Ideal) x adj K (ix3 b n o)
      = ∑ f : Fin 128,
          (∑ m : Fin 2048, (Cert.Spec.ahat adj b n m * Cert.Spec.degR adj b n * Cert.Spec.degR adj b m) * x (ix3 b m f))
            * K (ix2 f o) := by
  rw [Read.val_main_v27_apply]
  simp only [proj_left_read, proj_right_read, agg_is_sum]

/-- The reference's last stage at an index is the layer at that batch, node and feature. -/
theorem ref_is_outR (x : (⟨S8x2048x128, .f32⟩ : BufTy).Contents (Elt Ideal)) (adj : (⟨S8x2048x2048, .f32⟩ : BufTy).Contents (Elt Ideal))
    (K : (⟨S128x128, .f32⟩ : BufTy).Contents (Elt Ideal)) (b : Fin 8) (n : Fin 2048) (o : Fin 128) :
    Cert.ReferenceIdeal.Read.val_main_v28 (F := Ideal) x adj K (ix3 b n o) = Cert.Spec.outR x adj K b n o := by
  rw [Read.val_main_v28_apply, Read.val_main_call0_v0_apply, Read.val_main_call0_cst_apply, proj_is_sum]
  simp only [Ideal.maximumf_def, Ideal.ofBits_def, Ideal.ofBits_zero_f32]
  rfl

end Cert.ReferenceIdeal.RefValue

end
-- ==== Proof.Finite.lean ====
/-
  The precondition says every entry of the three argument arrays has finite magnitude; at the extended reals that
  makes every entry a real number.
-/
import proofs.«106363_j29145648070885_1_alg».proof.Defs
import proofs.«106363_j29145648070885_1_alg».proof.Proof.Spec
import Idealize.ShloMosaic.Lib.ReduceAll

noncomputable section

namespace Cert.Proof.Finite

open Idealize.ShloMosaic Idealize.ShloMosaic.TcCoe Idealize.SL.Sem

/-- The rank-zero shape has exactly one index: the empty tuple. -/
local instance unitIdx_subsingleton : Subsingleton Cert.Pre_finite_inputs.S_.Idx :=
  ⟨fun a b => funext fun d => d.elim0⟩

/-- One entry.  The magnitude of an extended real x is max x (-x), which is +∞ at both infinities; so a magnitude
    strictly below +∞ leaves only the case of a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  -- the single-precision pattern with all exponent bits set and a zero fraction denotes +∞
  have hinf : Ideal.ofBits .f32 0x7F800000#32 = (⊤ : EReal) := by simp [Ideal.ofBits, Ideal.ieee]
  change Ideal.cmp .olt (max x (-x)) (Ideal.ofBits .f32 0x7F800000#32) = 1#1 at h
  rw [hinf] at h
  induction x using EReal.rec with
  | bot => simp [Ideal.cmp] at h   -- max ⊥ ⊤ = ⊤, and ⊤ < ⊤ is false
  | coe r => exact ⟨r, rfl⟩
  | top => simp [Ideal.cmp] at h   -- max ⊤ ⊥ = ⊤, and ⊤ < ⊤ is false

/-- One array, of any shape.  A conjunction over all entries of "magnitude below +∞" that comes out true was true
    at every entry, so every entry is a real number. -/
theorem isReal_of_all {S : Shape} {axes : List (Fin S.rank)} (a : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (j : Cert.Pre_finite_inputs.S_.Idx)
    (e : Host.reduce IntOp.andi
          (cmpf .olt (Host.absf a) (broadcastInDim S ![] hb (constant Cert.Pre_finite_inputs.S_ .f32 0x7F800000#32)))
          (constantI Cert.Pre_finite_inputs.S_ 1 1#1) hr hu j = 1#1) :
    Cert.Spec.IsReal (S := S) a :=
  fun i => real_of_abs_lt_inf (a i) (Host.reduce_andi_all _ _ hr hu j e i)

/-- Under the precondition the three arguments of the idealized kernel hold real numbers only. -/
theorem args_real [hPre : Cert.Pre_finite_inputs.Facts]
    (m : (ℓ : Loc Cert.KernelIdeal.nD Cert.KernelIdeal.τ Cert.KernelIdeal.sig) → Buf (Elt Ideal) ℓ) (h : Cert.Pre_KernelIdeal m) (c : Dev Cert.KernelIdeal.nD) :
    Cert.Spec.IsReal (S := Cert.KernelIdeal.S8x2048x128) (m ((c.tc : Thread Cert.KernelIdeal.nD Cert.KernelIdeal.τ).loc Cert.KernelIdeal.main_arg0))
    ∧ Cert.Spec.IsReal (S := Cert.KernelIdeal.S8x2048x2048) (m ((c.tc : Thread Cert.KernelIdeal.nD Cert.KernelIdeal.τ).loc Cert.KernelIdeal.main_arg1))
    ∧ Cert.Spec.IsReal (S := Cert.KernelIdeal.S128x128) (m ((c.tc : Thread Cert.KernelIdeal.nD Cert.KernelIdeal.τ).loc Cert.KernelIdeal.main_arg2)) := by
  -- the predicate's single truth value, read at the only index of the rank-zero shape
  have j : Cert.Pre_finite_inputs.S_.Idx := fun d => d.elim0
  have e := congrFun (h c) j
  dsimp only [Cert.Pre_finite_inputs.fn, andi] at e
  -- a conjunction of three truth values is true exactly when each of them is
  obtain ⟨e01, e2⟩ := IntOp.andi_eq_one.1 e
  obtain ⟨e0, e1⟩ := IntOp.andi_eq_one.1 e01
  exact ⟨isReal_of_all _ _ _ _ j e0, isReal_of_all _ _ _ _ j e1, isReal_of_all _ _ _ _ j e2⟩

end Cert.Proof.Finite

end
-- ==== Proof.Claims.lean ====
/-
  The five claims. The three frames: the two kernel programs run their two regions in sequence and leave the arguments
  as launched; the reference is a straight line of host operations. The idealization rewrote nothing. And over the
  extended reals, on inputs that are real numbers, the kernel's result array and the reference's are the same array:
  the kernel's is the two-pass form of the layer over the degree and diagonal arrays its first region wrote, which is
  the layer; the reference's is the layer as written.
-/
import proofs.«106363_j29145648070885_1_alg».proof.Defs
import proofs.«106363_j29145648070885_1_alg».proof.Proof.Gen.Kernel
import proofs.«106363_j29145648070885_1_alg».proof.Proof.Gen.KernelIdeal
import proofs.«106363_j29145648070885_1_alg».proof.Proof.Gen.ReferenceIdeal
import proofs.«106363_j29145648070885_1_alg».proof.Proof.Gen.Pre_finite_inputs
import proofs.«106363_j29145648070885_1_alg».proof.Proof.Gen.ReferenceIdeal.Run
import proofs.«106363_j29145648070885_1_alg».proof.Proof.Gen.ReferenceIdeal.Read
import proofs.«106363_j29145648070885_1_alg».proof.Proof.BitsRun
import proofs.«106363_j29145648070885_1_alg».proof.Proof.IdealRunVal
import proofs.«106363_j29145648070885_1_alg».proof.Proof.IdealVal0
import proofs.«106363_j29145648070885_1_alg».proof.Proof.IdealVal1
import proofs.«106363_j29145648070885_1_alg».proof.Proof.RefValue
import proofs.«106363_j29145648070885_1_alg».proof.Proof.Finite
import proofs.«106363_j29145648070885_1_alg».proof.Proof.Spec

noncomputable section

namespace Cert.Proof.Claims

open Idealize.ShloMosaic Idealize.ShloMosaic.TcCoe Idealize.ShloMosaic.ValueIdx Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

section KernelValue

open Cert.KernelIdeal Cert.KernelIdeal.Hand

variable (m : (ℓ : Loc nD τ sig) → Buf (Elt Ideal) ℓ)

/-- What region 1 finds in the arguments' buffers is what was launched; in the two intermediate arrays, what region 0
    left. -/
theorem Vb_arg0 (c : Dev nD) : Vb m c main_arg0 = m ((c.tc : Thread nD τ).loc main_arg0) := Wb_of m c main_arg0 (by decide) (by decide)
theorem Vb_arg1 (c : Dev nD) : Vb m c main_arg1 = m ((c.tc : Thread nD τ).loc main_arg1) := Wb_of m c main_arg1 (by decide) (by decide)
theorem Vb_arg2 (c : Dev nD) : Vb m c main_arg2 = m ((c.tc : Thread nD τ).loc main_arg2) := Wb_of m c main_arg2 (by decide) (by decide)

/-- Under the precondition the kernel's result array is the layer of the three arguments, element by element. -/
theorem kernel_out (hm : Cert.Pre_KernelIdeal m) (c : Dev nD) (b : Fin 8) (n : Fin 2048) (o : Fin 128) :
    (oArr (F := Ideal) m c : S8x2048x128.Idx → EReal) (ix3 b n o)
      = Cert.Spec.outR (m ((c.tc : Thread nD τ).loc main_arg0)) (m ((c.tc : Thread nD τ).loc main_arg1)) (m ((c.tc : Thread nD τ).loc main_arg2)) b n o := by
  obtain ⟨hx, hadj, hK⟩ := Cert.Proof.Finite.args_real m hm c
  have h1 := out_arr (Vb m) c b n o
  rw [Vb_arg0, Vb_arg1, Vb_arg2] at h1
  refine h1.trans ?_
  refine Cert.Spec.outK_eq_outR _ _ _ _ _ hx hadj hK (fun b' n' => ?_) (fun b' n' => ?_) b n o
  · exact (congrFun (Wb_v0_0 m c) (ix2 b' n')).trans (deg_arr (Va m) c b' n')
  · exact (congrFun (Wb_v0_1 m c) (ix2 b' n')).trans (diag_arr (Va m) c b' n')

end KernelValue

/-- Run from memories agreeing on the arguments, the two idealized programs end with the same result array. -/
theorem algebraic : Cert.algebraic_KernelIdeal_ReferenceIdeal := by
  intro m ρ m' ρ' hpre hagree
  refine ⟨fun c => Cert.KernelIdeal.Hand.oArr (F := Ideal) m c, Cert.KernelIdeal.Hand.run_val (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  funext i
  obtain ⟨b, n, o, rfl⟩ : ∃ (b : Fin 8) (n : Fin 2048) (o : Fin 128), i = ix3 b n o := ⟨i 0, i 1, i 2, eq_ix3 i⟩
  refine Eq.trans ?_ (kernel_out m hpre c b n o).symm
  exact (congrFun (Cert.ReferenceIdeal.Read.val_main_v28_eq (F := Ideal) _ _ _) (ix3 b n o)).trans
    (Cert.ReferenceIdeal.RefValue.ref_is_outR _ _ _ b n o)

end Cert.Proof.Claims

end
-- ==== Proof.lean ====
/-
  A graph-convolution layer with symmetric degree normalisation, computed in two passes, against the layer as written.

  For a batch b, node n and output feature o the layer is  relu (sum_f agg[b,n,f] * K[f,o])  with
  agg[b,n,f] = sum_m ahat[b,n,m] * d[b,n] * d[b,m] * x[b,m,f],  ahat the adjacency with ones on its diagonal and
  d[b,n] = 1 / (eps + sqrt (sum_m ahat[b,n,m])).  The kernel's first pass reads the adjacency once and writes, per node,
  the degree scaling (from the raw row sum, the diagonal entry taken out and one put in) and the diagonal entry. Its
  second pass contracts the raw adjacency with the features scaled by d, in two halves of 1024 neighbours added in an
  accumulator, then adds the self-loop term  x[b,n,f] * d[b,n] * (1 - adj[b,n,n]),  scales the row by d[b,n], projects
  and rectifies. On real inputs (the precondition: every entry finite) the row sums agree, d is a real number, and
  distributing d[b,n] over the neighbours' sum turns one form into the other; over the extended reals that step needs
  the entries to be real, which is where the precondition is used.
-/
import proofs.«106363_j29145648070885_1_alg».proof.Defs
import proofs.«106363_j29145648070885_1_alg».proof.Proof.Gen.Kernel
import proofs.«106363_j29145648070885_1_alg».proof.Proof.Gen.KernelIdeal
import proofs.«106363_j29145648070885_1_alg».proof.Proof.Gen.ReferenceIdeal
import proofs.«106363_j29145648070885_1_alg».proof.Proof.Gen.Pre_finite_inputs
import proofs.«106363_j29145648070885_1_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
